-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S2000x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S100000x512 : Shape := ⟨2, ![100000, 512]⟩
abbrev S256 : Shape := ⟨1, ![256]⟩
abbrev S_ : Shape := ⟨0, ![]⟩
abbrev S100000 : Shape := ⟨1, ![100000]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S256 : S_.BroadcastsInDim S256 (![] : Fin 0 → Fin S256.rank)
  reducesTo_S256_S_d0 : S256.ReducesTo [0] S_
  reducesTo_S256x512_S256_d1 : S256x512.ReducesTo [1] S256
  reducesTo_S100000x512_S100000_d1 : S100000x512.ReducesTo [1] S100000
  bcast_S_S100000 : S_.BroadcastsInDim S100000 (![] : Fin 0 → Fin S100000.rank)
  reducesTo_S100000_S_d0 : S100000.ReducesTo [0] S_

variable [Facts]

def fn_part2 {F : FTy → Type} [FloatOps F] (main_arg2 : FVec F S100000x512 .f32) (main_v32 : IVec S_ 1) : IVec S_ 1 :=
  let main_v33 : FVec F S100000x512 .f32 := mulf main_arg2 main_arg2
  let main_cst_13 : FVec F S_ .f32 := constant S_ .f32 0x00000000#32
  let main_v34 : FVec F S100000 .f32 := (fun x v => Host.reduceAdd x v reducesTo_S100000x512_S100000_d1 h_S_) main_v33 main_cst_13
  let main_cst_14 : FVec F S_ .f32 := constant S_ .f32 0x00000000#32
  let main_v35 : FVec F S100000 .f32 := broadcastInDim S100000 ![] bcast_S_S100000 main_cst_14
  let main_v36 : IVec S100000 1 := cmpf .ogt main_v34 main_v35
  let main_c_15 : IVec S_ 1 := constantI S_ 1 1#1
  let main_v37 : IVec S_ 1 := (fun x v => Host.reduce IntOp.andi x v reducesTo_S100000_S_d0 h_S_) main_v36 main_c_15
  let main_v38 : IVec S_ 1 := andi main_v32 main_v37
  main_v38

def fn_part1 {F : FTy → Type} [FloatOps F] (main_arg0 : FVec F S256x512 .f32) (main_arg1 : FVec F S256x512 .f32) (main_arg2 : FVec F S100000x512 .f32) (main_arg3 : IVec S256 32) (main_v13 : IVec S_ 1) (main_v15 : IVec S256 1) (main_c_5 : IVec S_ 32) : IVec S_ 1 :=
  let main_v16 : IVec S256 32 := broadcastInDim S256 ![] bcast_S_S256 main_c_5
  let main_v17 : IVec S256 1 := cmpi .slt main_arg3 main_v16
  let main_v18 : IVec S256 1 := andi main_v15 main_v17
  let main_c_6 : IVec S_ 1 := constantI S_ 1 1#1
  let main_v19 : IVec S_ 1 := (fun x v => Host.reduce IntOp.andi x v reducesTo_S256_S_d0 h_S_) main_v18 main_c_6
  let main_v20 : IVec S_ 1 := andi main_v13 main_v19
  let main_v21 : FVec F S256x512 .f32 := mulf main_arg0 main_arg0
  let main_cst_7 : FVec F S_ .f32 := constant S_ .f32 0x00000000#32
  let main_v22 : FVec F S256 .f32 := (fun x v => Host.reduceAdd x v reducesTo_S256x512_S256_d1 h_S_) main_v21 main_cst_7
  let main_cst_8 : FVec F S_ .f32 := constant S_ .f32 0x00000000#32
  let main_v23 : FVec F S256 .f32 := broadcastInDim S256 ![] bcast_S_S256 main_cst_8
  let main_v24 : IVec S256 1 := cmpf .ogt main_v22 main_v23
  let main_c_9 : IVec S_ 1 := constantI S_ 1 1#1
  let main_v25 : IVec S_ 1 := (fun x v => Host.reduce IntOp.andi x v reducesTo_S256_S_d0 h_S_) main_v24 main_c_9
  let main_v26 : IVec S_ 1 := andi main_v20 main_v25
  let main_v27 : FVec F S256x512 .f32 := mulf main_arg1 main_arg1
  let main_cst_10 : FVec F S_ .f32 := constant S_ .f32 0x00000000#32
  let main_v28 : FVec F S256 .f32 := (fun x v => Host.reduceAdd x v reducesTo_S256x512_S256_d1 h_S_) main_v27 main_cst_10
  let main_cst_11 : FVec F S_ .f32 := constant S_ .f32 0x00000000#32
  let main_v29 : FVec F S256 .f32 := broadcastInDim S256 ![] bcast_S_S256 main_cst_11
  let main_v30 : IVec S256 1 := cmpf .ogt main_v28 main_v29
  let main_c_12 : IVec S_ 1 := constantI S_ 1 1#1
  let main_v31 : IVec S_ 1 := (fun x v => Host.reduce IntOp.andi x v reducesTo_S256_S_d0 h_S_) main_v30 main_c_12
  let main_v32 : IVec S_ 1 := andi main_v26 main_v31
  fn_part2 (F := F) main_arg2 main_v32

def fn {F : FTy → Type} [FloatOps F] (main_arg0 : FVec F S256x512 .f32) (main_arg1 : FVec F S256x512 .f32) (main_arg2 : FVec F S100000x512 .f32) (main_arg3 : IVec S256 32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S100000x512 .f32 := Host.absf main_arg2
  let main_cst_2 : FVec F S_ .f32 := constant S_ .f32 0x7F800000#32
  let main_v10 : FVec F S100000x512 .f32 := broadcastInDim S100000x512 ![] bcast_S_S100000x512 main_cst_2
  let main_v11 : IVec S100000x512 1 := cmpf .olt main_v9 main_v10
  let main_c_3 : IVec S_ 1 := constantI S_ 1 1#1
  let main_v12 : IVec S_ 1 := (fun x v => Host.reduce IntOp.andi x v reducesTo_S100000x512_S_d0_1 h_S_) main_v11 main_c_3
  let main_v13 : IVec S_ 1 := andi main_v8 main_v12
  let main_c_4 : IVec S_ 32 := constantI S_ 32 0#32
  let main_v14 : IVec S256 32 := broadcastInDim S256 ![] bcast_S_S256 main_c_4
  let main_v15 : IVec S256 1 := cmpi .sge main_arg3 main_v14
  let main_c_5 : IVec S_ 32 := constantI S_ 32 100000#32
  fn_part1 (F := F) main_arg0 main_arg1 main_arg2 main_arg3 main_v13 main_v15 main_c_5
-- ==== Kernel.lean ====
abbrev S256x512 : Shape := ⟨2, ![256, 512]⟩
abbrev S100000x512 : Shape := ⟨2, ![100000, 512]⟩
abbrev S256 : Shape := ⟨1, ![256]⟩
abbrev S512x512 : Shape := ⟨2, ![512, 512]⟩
abbrev S_ : Shape := ⟨0, ![]⟩
abbrev S512 : Shape := ⟨1, ![512]⟩
abbrev S512x1 : Shape := ⟨2, ![512, 1]⟩
abbrev S1x256 : Shape := ⟨2, ![1, 256]⟩
abbrev S2x256 : Shape := ⟨2, ![2, 256]⟩
abbrev S2x512x1 : Shape := ⟨3, ![2, 512, 1]⟩
abbrev S2000x512 : Shape := ⟨2, ![2000, 512]⟩
abbrev S1x512x1 : Shape := ⟨3, ![1, 512, 1]⟩
abbrev S2000 : Shape := ⟨1, ![2000]⟩
abbrev S2000x1 : Shape := ⟨2, ![2000, 1]⟩
abbrev S512x2000 : Shape := ⟨2, ![512, 2000]⟩

abbrev nBuf : Space → Nat
  | .hbm => 51
  | .vmem => 14
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S100000x512, .f32⟩
  | .hbm, ⟨3, _⟩ => ⟨S256, .i32⟩
  | .hbm, ⟨4, _⟩ => ⟨S512x512, .f32⟩
  | .hbm, ⟨5, _⟩ => ⟨S512x512, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S512x1, .f32⟩
  | .hbm, ⟨10, _⟩ => ⟨S512x512, .f32⟩
  | .hbm, ⟨11, _⟩ => ⟨S512x512, .f32⟩
  | .hbm, ⟨12, _⟩ => ⟨S512x512, .bf16⟩
  | .hbm, ⟨13, _⟩ => ⟨S512x512, .f32⟩
  | .hbm, ⟨14, _⟩ => ⟨S512x512, .f32⟩
  | .hbm, ⟨15, _⟩ => ⟨S512x512, .bf16⟩
  | .hbm, ⟨16, _⟩ => ⟨S1x256, .i32⟩
  | .hbm, ⟨17, _⟩ => ⟨S2x256, .i32⟩
  | .hbm, ⟨18, _⟩ => ⟨S512, .i32⟩
  | .hbm, ⟨19, _⟩ => ⟨S512x1, .i32⟩
  | .hbm, ⟨20, _⟩ => ⟨S2x512x1, .f32⟩
  | .hbm, ⟨21, _⟩ => ⟨S2x512x1, .f32⟩
  | .hbm, ⟨22, _⟩ => ⟨S2x512x1, .f32⟩
  | .hbm, ⟨23, _⟩ => ⟨S1x512x1, .f32⟩
  | .hbm, ⟨24, _⟩ => ⟨S512x1, .f32⟩
  | .hbm, ⟨25, _⟩ => ⟨S1x512x1, .f32⟩
  | .hbm, ⟨26, _⟩ => ⟨S512x1, .f32⟩
  | .hbm, ⟨27, _⟩ => ⟨S1x512x1, .f32⟩
  | .hbm, ⟨28, _⟩ => ⟨S512x1, .f32⟩
  | .hbm, ⟨29, _⟩ => ⟨S1x512x1, .f32⟩
  | .hbm, ⟨30, _⟩ => ⟨S512x1, .f32⟩
  | .hbm, ⟨31, _⟩ => ⟨S1x512x1, .f32⟩
  | .hbm, ⟨32, _⟩ => ⟨S512x1, .f32⟩
  | .hbm, ⟨33, _⟩ => ⟨S1x512x1, .f32⟩
  | .hbm, ⟨34, _⟩ => ⟨S512x1, .f32⟩
  | .hbm, ⟨35, _⟩ => ⟨S512x1, .f32⟩
  | .hbm, ⟨36, _⟩ => ⟨S512x1, .f32⟩
  | .hbm, ⟨37, _⟩ => ⟨S512x1, .f32⟩
  | .hbm, ⟨38, _⟩ => ⟨S512x1, .f32⟩
  | .hbm, ⟨39, _⟩ => ⟨S512x1, .f32⟩
  | .hbm, ⟨40, _⟩ => ⟨S512x1, .f32⟩
  | .hbm, ⟨41, _⟩ => ⟨S512x1, .f32⟩
  | .hbm, ⟨42, _⟩ => ⟨S512x1, .f32⟩
  | .hbm, ⟨43, _⟩ => ⟨S512x1, .f32⟩
  | .hbm, ⟨44, _⟩ => ⟨S512x1, .f32⟩
  | .hbm, ⟨45, _⟩ => ⟨S512x1, .f32⟩
  | .hbm, ⟨46, _⟩ => ⟨S512x1, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .local _ .vmem, ⟨0, _⟩ => ⟨S512x512, .bf16⟩
  | .local _ .vmem, ⟨1, _⟩ => ⟨S512x512, .bf16⟩
  | .local _ .vmem, ⟨2, _⟩ => ⟨S2000x512, .f32⟩
  | .local _ .vmem, ⟨3, _⟩ => ⟨S2000x512, .f32⟩
  | .local _ .vmem, ⟨4, _⟩ => ⟨S512x1, .i32⟩
  | .local _ .vmem, ⟨5, _⟩ => ⟨S1x512x1, .f32⟩
  | .local _ .vmem, ⟨6, _⟩ => ⟨S1x512x1, .f32⟩
  | .local _ .vmem, ⟨7, _⟩ => ⟨S1x512x1, .f32⟩
  | .local _ .vmem, ⟨8, _⟩ => ⟨S1x512x1, .f32⟩
  | .local _ .vmem, ⟨9, _⟩ => ⟨S1x512x1, .f32⟩
  | .local _ .vmem, ⟨10, _⟩ => ⟨S1x512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev main_v15_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_0 : Ref sig .tc := ⟨.hbm, 47, rfl⟩
abbrev main_v40 : Ref sig .tc := ⟨.hbm, 48, rfl⟩
abbrev main_cst_1 : Ref sig .tc := ⟨.hbm, 49, rfl⟩
abbrev main_v41 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v83 : BitVec 1 := Scalar.cmpi .eq arg1 c24_i32
  let v84 : BitVec 32 := Scalar.extui v83
  let c0_i32_35 : BitVec 32 := 0#32
  let v85 : BitVec 1 := Scalar.cmpi .ne v84 c0_i32_35
  v85

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  concatenates_S256x512_S256x512_S512x512_d0 : Shape.Concatenates [S256x512, S256x512] S512x512 0
  reducesTo_S512x512_S512_d1 : S512x512.ReducesTo [1] S512
  h_S_ : 0 < S_.numel
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  bitsLt_bf16_f32 : FTy.bits .bf16 < FTy.bits .f32
  shapeCasts_S256_S1x256 : S256.ShapeCasts S1x256
  bcast_S1x256_S2x256_0_1 : S1x256.BroadcastsInDim S2x256 (![0, 1] : Fin 2 → Fin S2x256.rank)
  shapeCasts_S2x256_S512 : S2x256.ShapeCasts S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S2000x512_S2000x512_0_0 : ∀ a, (![0, 0] : Fin 2 → Nat) a + S2000x512.size a ≤ S2000x512.size a
  h_S2000x512 : 0 < S2000x512.numel
  reduces_S2000x512_S2000 : S2000x512.Reduces [1] S2000
  shapeCasts_S2000_S2000x1 : S2000.ShapeCasts S2000x1
  broadcasts_S2000x1_S2000x512 : S2000x1.Broadcasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  iota_S512x2000_d1_w32 : S512x2000.Iotas .tc 32 [1]
  broadcasts_S512x1_S512x2000 : S512x1.Broadcasts S512x2000
  reduces_S512x2000_S512 : S512x2000.Reduces [1] S512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  slices_S2x512x1_S1x512x1_0_0_0 : S2x512x1.Slices ![0, 0, 0] S1x512x1
  slices_S2x512x1_S1x512x1_1_0_0 : S2x512x1.Slices ![1, 0, 0] S1x512x1
  reducesTo_S512x1_S_d0_1 : S512x1.ReducesTo [0, 1] S_
  dot_S512x512_S2000x512_S512x2000_1_1_0_0_n_n_wf : DotDims.WF S512x512 S2000x512 S512x2000 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .bf16 = 32 ∨ (Rect.block (s := S512x512) S512x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S100000x512.size a
  hwx0_2 : ∀ i : grid0.Coords, EltTy.bits .f32 = 32 ∨ (Rect.block (s := S100000x512) S2000x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S512x1.size a
  hwx0_3 : ∀ i : grid0.Coords, EltTy.bits .i32 = 32 ∨ (Rect.block (s := S512x1) S512x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1.size a ≤ S2x512x1.size a
  hwx0_4 : ∀ i : grid0.Coords, EltTy.bits .f32 = 32 ∨ (Rect.block (s := S2x512x1) S1x512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1.size a ≤ S2x512x1.size a
  hwx0_5 : ∀ i : grid0.Coords, EltTy.bits .f32 = 32 ∨ (Rect.block (s := S2x512x1) S1x512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1.size a ≤ S2x512x1.size a
  hwx0_6 : ∀ i : grid0.Coords, EltTy.bits .f32 = 32 ∨ (Rect.block (s := S2x512x1) S1x512x1.size (cc0_transform_6 i) (hinb0_6 i)).WholeWords (EltTy.packing .f32)

variable [Facts₀]

def dot_S512x512_S2000x512_S512x2000_1_1_0_0_n_n : DotDims S512x512 S2000x512 S512x2000 where
  lhsContracting := [1]
  rhsContracting := [1]
  lhsNonContracting := [0]
  rhsNonContracting := [0]
  lhsBatch := []
  rhsBatch := []
  wf := dot_S512x512_S2000x512_S512x2000_1_1_0_0_n_n_wf

abbrev win0_0 : Pipeline.Window sig grid0 :=
  Pipeline.Window.ofSpec (Memref.whole main_v7) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v10) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S512x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15_0) S1x512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15_1) S1x512x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15_2) S1x512x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S256x512 : Shape := ⟨2, ![256, 512]⟩
abbrev S100000x512 : Shape := ⟨2, ![100000, 512]⟩
abbrev S256 : Shape := ⟨1, ![256]⟩
abbrev S512x512 : Shape := ⟨2, ![512, 512]⟩
abbrev S1x256 : Shape := ⟨2, ![1, 256]⟩
abbrev S2x256 : Shape := ⟨2, ![2, 256]⟩
abbrev S512 : Shape := ⟨1, ![512]⟩
abbrev S_ : Shape := ⟨0, ![]⟩
abbrev S512x1 : Shape := ⟨2, ![512, 1]⟩
abbrev S100000 : Shape := ⟨1, ![100000]⟩
abbrev S100000x1 : Shape := ⟨2, ![100000, 1]⟩
abbrev S512x100000 : Shape := ⟨2, ![512, 100000]⟩
abbrev S1x100000 : Shape := ⟨2, ![1, 100000]⟩
abbrev S512x1x1 : Shape := ⟨3, ![512, 1, 1]⟩
abbrev S1 : Shape := ⟨1, ![1]⟩
abbrev S1x1x1 : Shape := ⟨3, ![1, 1, 1]⟩

abbrev nBuf : Space → Nat
  | .hbm => 104
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S100000x512, .f32⟩
  | .hbm, ⟨3, _⟩ => ⟨S256, .i32⟩
  | .hbm, ⟨4, _⟩ => ⟨S512x512, .f32⟩
  | .hbm, ⟨5, _⟩ => ⟨S1x256, .i32⟩
  | .hbm, ⟨6, _⟩ => ⟨S2x256, .i32⟩
  | .hbm, ⟨7, _⟩ => ⟨S512, .i32⟩
  | .hbm, ⟨8, _⟩ => ⟨S512x512, .f32⟩
  | .hbm, ⟨9, _⟩ => ⟨S_, .f32⟩
  | .hbm, ⟨10, _⟩ => ⟨S512, .f32⟩
  | .hbm, ⟨11, _⟩ => ⟨S512x1, .f32⟩
  | .hbm, ⟨12, _⟩ => ⟨S512x1, .f32⟩
  | .hbm, ⟨13, _⟩ => ⟨S512x512, .f32⟩
  | .hbm, ⟨14, _⟩ => ⟨S512x512, .f32⟩
  | .hbm, ⟨15, _⟩ => ⟨S100000x512, .f32⟩
  | .hbm, ⟨16, _⟩ => ⟨S_, .f32⟩
  | .hbm, ⟨17, _⟩ => ⟨S100000, .f32⟩
  | .hbm, ⟨18, _⟩ => ⟨S100000x1, .f32⟩
  | .hbm, ⟨19, _⟩ => ⟨S100000x1, .f32⟩
  | .hbm, ⟨20, _⟩ => ⟨S100000x512, .f32⟩
  | .hbm, ⟨21, _⟩ => ⟨S100000x512, .f32⟩
  | .hbm, ⟨22, _⟩ => ⟨S512x100000, .f32⟩
  | .hbm, ⟨23, _⟩ => ⟨S512x100000, .f32⟩
  | .hbm, ⟨24, _⟩ => ⟨S_, .f32⟩
  | .hbm, ⟨25, _⟩ => ⟨S512x100000, .f32⟩
  | .hbm, ⟨26, _⟩ => ⟨S512x100000, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S512x100000, .f32⟩
  | .hbm, ⟨31, _⟩ => ⟨S512x100000, .f32⟩
  | .hbm, ⟨32, _⟩ => ⟨S_, .f32⟩
  | .hbm, ⟨33, _⟩ => ⟨S512x100000, .f32⟩
  | .hbm, ⟨34, _⟩ => ⟨S512x100000, .f32⟩
  | .hbm, ⟨35, _⟩ => ⟨S512x100000, .f32⟩
  | .hbm, ⟨36, _⟩ => ⟨S_, .f32⟩
  | .hbm, ⟨37, _⟩ => ⟨S512x100000, .f32⟩
  | .hbm, ⟨38, _⟩ => ⟨S512x100000, .f32⟩
  | .hbm, ⟨39, _⟩ => ⟨S_, .f32⟩
  | .hbm, ⟨40, _⟩ => ⟨S512x100000, .f32⟩
  | .hbm, ⟨41, _⟩ => ⟨S512x100000, .f32⟩
  | .hbm, ⟨42, _⟩ => ⟨S512x100000, .f32⟩
  | .hbm, ⟨43, _⟩ => ⟨S_, .f32⟩
  | .hbm, ⟨44, _⟩ => ⟨S512x100000, .f32⟩
  | .hbm, ⟨45, _⟩ => ⟨S512x100000, .i1⟩
  | .hbm, ⟨46, _⟩ => ⟨S_, .f32⟩
  | .hbm, ⟨47, _⟩ => ⟨S512x100000, .f32⟩
  | .hbm, ⟨48, _⟩ => ⟨S512x100000, .f32⟩
  | .hbm, ⟨49, _⟩ => ⟨S512x100000, .f32⟩
  | .hbm, ⟨50, _⟩ => ⟨S100000, .i32⟩
  | .hbm, ⟨51, _⟩ => ⟨S1x100000, .i32⟩
  | .hbm, ⟨52, _⟩ => ⟨S512x1, .i32⟩
  | .hbm, ⟨53, _⟩ => ⟨S512x100000, .i32⟩
  | .hbm, ⟨54, _⟩ => ⟨S512x100000, .i32⟩
  | .hbm, ⟨55, _⟩ => ⟨S512x100000, .i1⟩
  | .hbm, ⟨56, _⟩ => ⟨S512x100000, .f32⟩
  | .hbm, ⟨57, _⟩ => ⟨S_, .f32⟩
  | .hbm, ⟨58, _⟩ => ⟨S512x100000, .f32⟩
  | .hbm, ⟨59, _⟩ => ⟨S512x100000, .f32⟩
  | .hbm, ⟨60, _⟩ => ⟨S_, .f32⟩
  | .hbm, ⟨61, _⟩ => ⟨S512, .f32⟩
  | .hbm, ⟨62, _⟩ => ⟨S_, .f32⟩
  | .hbm, ⟨63, _⟩ => ⟨S512, .f32⟩
  | .hbm, ⟨64, _⟩ => ⟨S512, .f32⟩
  | .hbm, ⟨65, _⟩ => ⟨S512x1, .f32⟩
  | .hbm, ⟨66, _⟩ => ⟨S512x100000, .f32⟩
  | .hbm, ⟨67, _⟩ => ⟨S512x100000, .f32⟩
  | .hbm, ⟨68, _⟩ => ⟨S512x100000, .f32⟩
  | .hbm, ⟨69, _⟩ => ⟨S_, .f32⟩
  | .hbm, ⟨70, _⟩ => ⟨S512, .f32⟩
  | .hbm, ⟨71, _⟩ => ⟨S512x1, .f32⟩
  | .hbm, ⟨72, _⟩ => ⟨S512x1, .f32⟩
  | .hbm, ⟨73, _⟩ => ⟨S512x100000, .f32⟩
  | .hbm, ⟨74, _⟩ => ⟨S512x100000, .f32⟩
  | .hbm, ⟨75, _⟩ => ⟨S512x1, .i32⟩
  | .hbm, ⟨76, _⟩ => ⟨S_, .i32⟩
  | .hbm, ⟨77, _⟩ => ⟨S512x1, .i32⟩
  | .hbm, ⟨78, _⟩ => ⟨S512x1, .i1⟩
  | .hbm, ⟨79, _⟩ => ⟨S_, .i32⟩
  | .hbm, ⟨80, _⟩ => ⟨S512x1, .i32⟩
  | .hbm, ⟨81, _⟩ => ⟨S512x1, .i32⟩
  | .hbm, ⟨82, _⟩ => ⟨S512x1, .i32⟩
  | .hbm, ⟨83, _⟩ => ⟨S512x1x1, .i32⟩
  | .hbm, ⟨84, _⟩ => ⟨S1, .i32⟩
  | .hbm, ⟨85, _⟩ => ⟨S_, .i32⟩
  | .hbm, ⟨86, _⟩ => ⟨S512x1x1, .i32⟩
  | .hbm, ⟨87, _⟩ => ⟨S512x1x1, .i1⟩
  | .hbm, ⟨88, _⟩ => ⟨S1x1x1, .i32⟩
  | .hbm, ⟨89, _⟩ => ⟨S512x1x1, .i32⟩
  | .hbm, ⟨90, _⟩ => ⟨S512x1x1, .i1⟩
  | .hbm, ⟨91, _⟩ => ⟨S512x1x1, .i1⟩
  | .hbm, ⟨92, _⟩ => ⟨S_, .i1⟩
  | .hbm, ⟨93, _⟩ => ⟨S512x1, .i1⟩
  | .hbm, ⟨94, _⟩ => ⟨S512x1, .f32⟩
  | .hbm, ⟨95, _⟩ => ⟨S_, .f32⟩
  | .hbm, ⟨96, _⟩ => ⟨S512x1, .f32⟩
  | .hbm, ⟨97, _⟩ => ⟨S512x1, .f32⟩
  | .hbm, ⟨98, _⟩ => ⟨S512, .f32⟩
  | .hbm, ⟨99, _⟩ => ⟨S512, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call1_v0 : Ref sig .tc := ⟨.hbm, 15, rfl⟩
abbrev main_call1_cst : Ref sig .tc := ⟨.hbm, 16, rfl⟩
abbrev main_call1_v1 : Ref sig .tc := ⟨.hbm, 17, rfl⟩
abbrev main_call1_v2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_cst_1 : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_v14 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_4 : Ref sig .tc := ⟨.hbm, 43, rfl⟩
abbrev main_v21 : Ref sig .tc := ⟨.hbm, 44, rfl⟩
abbrev main_v22 : Ref sig .tc := ⟨.hbm, 45, rfl⟩
abbrev main_cst_5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_6 : Ref sig .tc := ⟨.hbm, 57, rfl⟩
abbrev main_v33 : Ref sig .tc := ⟨.hbm, 58, rfl⟩
abbrev main_v34 : Ref sig .tc := ⟨.hbm, 59, rfl⟩
abbrev main_call5_cst : Ref sig .tc := ⟨.hbm, 60, rfl⟩
abbrev main_call5_v0 : Ref sig .tc := ⟨.hbm, 61, rfl⟩
abbrev main_call5_cst_0 : Ref sig .tc := ⟨.hbm, 62, rfl⟩
abbrev main_call5_v1 : Ref sig .tc := ⟨.hbm, 63, rfl⟩
abbrev main_call5_v2 : Ref sig .tc := ⟨.hbm, 64, rfl⟩
abbrev main_call5_v3 : Ref sig .tc := ⟨.hbm, 65, rfl⟩
abbrev main_call5_v4 : Ref sig .tc := ⟨.hbm, 66, rfl⟩
abbrev main_call5_v5 : Ref sig .tc := ⟨.hbm, 67, rfl⟩
abbrev main_call5_v6 : Ref sig .tc := ⟨.hbm, 68, rfl⟩
abbrev main_call5_cst_1 : Ref sig .tc := ⟨.hbm, 69, rfl⟩
abbrev main_call5_v7 : Ref sig .tc := ⟨.hbm, 70, rfl⟩
abbrev main_call5_v8 : Ref sig .tc := ⟨.hbm, 71, rfl⟩
abbrev main_call5_v9 : Ref sig .tc := ⟨.hbm, 72, rfl⟩
abbrev main_call5_v10 : Ref sig .tc := ⟨.hbm, 73, rfl⟩
abbrev main_v35 : Ref sig .tc := ⟨.hbm, 74, rfl⟩
abbrev main_v36 : Ref sig .tc := ⟨.hbm, 75, rfl⟩
abbrev main_call6_c : Ref sig .tc := ⟨.hbm, 76, rfl⟩
abbrev main_call6_v0 : Ref sig .tc := ⟨.hbm, 77, rfl⟩
abbrev main_call6_v1 : Ref sig .tc := ⟨.hbm, 78, rfl⟩
abbrev main_call6_c_0 : Ref sig .tc := ⟨.hbm, 79, rfl⟩
abbrev main_call6_v2 : Ref sig .tc := ⟨.hbm, 80, rfl⟩
abbrev main_call6_v3 : Ref sig .tc := ⟨.hbm, 81, rfl⟩
abbrev main_call6_v4 : Ref sig .tc := ⟨.hbm, 82, rfl⟩
abbrev main_call6_v5 : Ref sig .tc := ⟨.hbm, 83, rfl⟩
abbrev main_call6_c_1 : Ref sig .tc := ⟨.hbm, 84, rfl⟩
abbrev main_call6_c_2 : Ref sig .tc := ⟨.hbm, 85, rfl⟩
abbrev main_call6_v6 : Ref sig .tc := ⟨.hbm, 86, rfl⟩
abbrev main_call6_v7 : Ref sig .tc := ⟨.hbm, 87, rfl⟩
abbrev main_call6_v8 : Ref sig .tc := ⟨.hbm, 88, rfl⟩
abbrev main_call6_v9 : Ref sig .tc := ⟨.hbm, 89, rfl⟩
abbrev main_call6_v10 : Ref sig .tc := ⟨.hbm, 90, rfl⟩
abbrev main_call6_v11 : Ref sig .tc := ⟨.hbm, 91, rfl⟩
abbrev main_call6_c_3 : Ref sig .tc := ⟨.hbm, 92, rfl⟩
abbrev main_call6_v12 : Ref sig .tc := ⟨.hbm, 93, rfl⟩
abbrev main_call6_v13 : Ref sig .tc := ⟨.hbm, 94, rfl⟩
abbrev main_call6_cst : Ref sig .tc := ⟨.hbm, 95, rfl⟩
abbrev main_call6_v14 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_cst_7 : Ref sig .tc := ⟨.hbm, 100, rfl⟩
abbrev main_v40 : Ref sig .tc := ⟨.hbm, 101, rfl⟩
abbrev main_cst_8 : Ref sig .tc := ⟨.hbm, 102, rfl⟩
abbrev main_v41 : Ref sig .tc := ⟨.hbm, 103, rfl⟩

abbrev nD : Nat := 1
abbrev τ : Topo := Topo.v7x

variable {F : FTy → Type} [FloatOps F]

class Facts₀ : Prop where
  concatenates_S256x512_S256x512_S512x512_d0 : Shape.Concatenates [S256x512, S256x512] S512x512 0
  shapeCasts_S256_S1x256 : S256.ShapeCasts S1x256
  bcast_S1x256_S2x256_0_1 : S1x256.BroadcastsInDim S2x256 (![0, 1] : Fin 2 → Fin S2x256.rank)
  shapeCasts_S2x256_S512 : S2x256.ShapeCasts S512
  reducesTo_S512x512_S512_d1 : S512x512.ReducesTo [1] S512
  h_S_ : 0 < S_.numel
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  reducesTo_S100000x512_S100000_d1 : S100000x512.ReducesTo [1] S100000
  bcast_S100000_S100000x1_0 : S100000.BroadcastsInDim S100000x1 (![0] : Fin 1 → Fin S100000x1.rank)
  bcast_S100000x1_S100000x512_0_1 : S100000x1.BroadcastsInDim S100000x512 (![0, 1] : Fin 2 → Fin S100000x512.rank)
  bcast_S_S512x100000 : S_.BroadcastsInDim S512x100000 (![] : Fin 0 → Fin S512x100000.rank)
  bcast_S100000_S1x100000_1 : S100000.BroadcastsInDim S1x100000 (![1] : Fin 1 → Fin S1x100000.rank)
  bcast_S1x100000_S512x100000_0_1 : S1x100000.BroadcastsInDim S512x100000 (![0, 1] : Fin 2 → Fin S512x100000.rank)
  bcast_S512x1_S512x100000_0_1 : S512x1.BroadcastsInDim S512x100000 (![0, 1] : Fin 2 → Fin S512x100000.rank)
  reducesTo_S512x100000_S512_d1 : S512x100000.ReducesTo [1] S512
  bcast_S_S512 : S_.BroadcastsInDim S512 (![] : Fin 0 → Fin S512.rank)
  bcast_S_S512x1 : S_.BroadcastsInDim S512x1 (![] : Fin 0 → Fin S512x1.rank)
  shapeCasts_S512x1_S512x1x1 : S512x1.ShapeCasts S512x1x1
  bcast_S_S512x1x1 : S_.BroadcastsInDim S512x1x1 (![] : Fin 0 → Fin S512x1x1.rank)
  bcast_S1_S1x1x1_2 : S1.BroadcastsInDim S1x1x1 (![2] : Fin 1 → Fin S1x1x1.rank)
  bcast_S1x1x1_S512x1x1_0_1_2 : S1x1x1.BroadcastsInDim S512x1x1 (![0, 1, 2] : Fin 3 → Fin S512x1x1.rank)
  reducesTo_S512x1x1_S512x1_d2 : S512x1x1.ReducesTo [2] S512x1
  shapeCasts_S512x1_S512 : S512x1.ShapeCasts S512
  reducesTo_S512_S_d0 : S512.ReducesTo [0] S_
  dot_S512x512_S100000x512_S512x100000_1_1_0_0_n_n_wf : DotDims.WF S512x512 S100000x512 S512x100000 [1] [1] [0] [0] [] []
  gather_S512x100000_S512x1x1_S512x1_n_1_0_0_1_2_11_wf : GatherDims.WF S512x100000 S512x1x1 S512x1 [] [1] [0] [1] [0] 2 ![1, 1]

variable [Facts₀]

def dot_S512x512_S100000x512_S512x100000_1_1_0_0_n_n : DotDims S512x512 S100000x512 S512x100000 where
  lhsContracting := [1]
  rhsContracting := [1]
  lhsNonContracting := [0]
  rhsNonContracting := [0]
  lhsBatch := []
  rhsBatch := []
  wf := dot_S512x512_S100000x512_S512x100000_1_1_0_0_n_n_wf
def gather_S512x100000_S512x1x1_S512x1_n_1_0_0_1_2_11 : GatherDims S512x100000 S512x1x1 S512x1 where
  offsetDims := []
  collapsedSliceDims := [1]
  operandBatchingDims := [0]
  startIndicesBatchingDims := [0]
  startIndexMap := [1]
  indexVectorDim := 2
  sliceSizes := ![1, 1]
  wf := gather_S512x100000_S512x1x1_S512x1_n_1_0_0_1_2_11_wf

class Facts : Prop extends Facts₀ where

variable [Facts]
-- ==== Proof.KerPieces.lean ====
/-
  What each control case of the kernel body leaves behind, as pure terms of what it loaded.

  At a tile the body overwrites the three per-row accumulators (running maximum, rescaled sum of exponentials, label logit).
  At a half's first tile the accumulators it updates are the reset values; at a later tile they are what the tile
  before left; at a half's last tile the updated accumulators are also copied to the three outputs.
-/
import proofs.«420439_j14474039788117_3_alg».proof.Proof.Gen.KernelIdeal.Frame
import Idealize.ShloMosaic.Lib.ValueIdx
import Idealize.ShloMosaic.Lib.Pipeline.Value

set_option maxRecDepth 16384

noncomputable section

namespace Cert.KernelIdeal.Pieces

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable {F : FTy → Type} [FloatOps F]

/-- The accumulators' and blocks' stores and loads all start at the origin. -/
theorem hz2 : (![0, 0] : Fin S512x1.rank → ℕ) = fun _ => 0 := by funext a; fin_cases a <;> rfl
theorem hz2' : (![0, 0] : Fin S512x512.rank → ℕ) = fun _ => 0 := hz2
theorem hz2'' : (![0, 0] : Fin S2000x512.rank → ℕ) = fun _ => 0 := hz2
theorem hz3 : (![0, 0, 0] : Fin S1x512x1.rank → ℕ) = fun _ => 0 := by funext a; fin_cases a <;> rfl

variable (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S2000x512 .f32) (harg4 : arg4.IsWhole) (arg5 : Memref sig .tc .vmem S512x1 .i32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole)

/-! ## A half's first tile: reset, then update -/
section first
variable (hc0 : cond0_0 i) (hc1 : ¬cond0_1 i)
    (x0 : Vec F S512x512 .bf16) (x1 : Vec F S512x512 .bf16) (x2 : Vec F S2000x512 .f32) (x3 : Vec F S512x1 .i32)

/-- The maximum after the first tile: the update applied to the reset value. -/
theorem first_max : sout0_A_0 (F := F) c i arg2 harg2 arg3 harg3 arg4 harg4 arg5 harg5 arg6 harg6 arg7 harg7 arg8 harg8 arg9 harg9 arg10 harg10 arg11 harg11 hc0 hc1 x0 x1 x2 x3 = k0_pay15 (BitVec.ofNat 32 (i 0).val) (BitVec.ofNat 32 (i 1).val) (k0_pay8 x2 x0 x1) (k0_pay9 x2 x0 x1) (k0_pay10 x2 x0 x1) (FloatOps.ofBits .f32 0x3E757744#32) x3 k0_pay5 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S512x1) hz2]
  simp only [View.readAt_eq_ld, harg2.read_unread, harg3.read_unread, harg4.read_unread, harg5.read_unread, View.ld_unit_zero (S := S512x1) hz2, View.ld_unit_zero (S := S512x512) hz2', View.ld_unit_zero (S := S2000x512) hz2'', View.readCov_unit_zero (S := S512x1) _ hz2]

/-- The sum after the first tile. -/
theorem first_sum : sout0_A_1 (F := F) c i arg2 harg2 arg3 harg3 arg4 harg4 arg5 harg5 arg6 harg6 arg7 harg7 arg8 harg8 arg9 harg9 arg10 harg10 arg11 harg11 hc0 hc1 x0 x1 x2 x3 = k0_pay14 (BitVec.ofNat 32 (i 0).val) (BitVec.ofNat 32 (i 1).val) (k0_pay8 x2 x0 x1) (k0_pay9 x2 x0 x1) (k0_pay10 x2 x0 x1) (FloatOps.ofBits .f32 0x3E757744#32) x3 k0_pay5 k0_pay6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S512x1) hz2]
  simp only [View.readAt_eq_ld, harg2.read_unread, harg3.read_unread, harg4.read_unread, harg5.read_unread, View.ld_unit_zero (S := S512x1) hz2, View.ld_unit_zero (S := S512x512) hz2', View.ld_unit_zero (S := S2000x512) hz2'', View.readCov_unit_zero (S := S512x1) _ hz2]

/-- The label logit after the first tile. -/
theorem first_tgt : sout0_A_2 (F := F) c i arg2 harg2 arg3 harg3 arg4 harg4 arg5 harg5 arg6 harg6 arg7 harg7 arg8 harg8 arg9 harg9 arg10 harg10 arg11 harg11 hc0 hc1 x0 x1 x2 x3 = k0_pay1 (k0_pay16 (BitVec.ofNat 32 (i 0).val) (BitVec.ofNat 32 (i 1).val) (k0_pay8 x2 x0 x1) (k0_pay9 x2 x0 x1) (k0_pay10 x2 x0 x1) (FloatOps.ofBits .f32 0x3E757744#32) x3) k0_pay7 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S512x1) hz2]
  simp only [View.readAt_eq_ld, harg2.read_unread, harg3.read_unread, harg4.read_unread, harg5.read_unread, View.ld_unit_zero (S := S512x1) hz2, View.ld_unit_zero (S := S512x512) hz2', View.ld_unit_zero (S := S2000x512) hz2'', View.readCov_unit_zero (S := S512x1) _ hz2]

end first

/-! ## A later tile: update what the tile before left -/
section later
variable (hc0 : ¬cond0_0 i) (hc1 : ¬cond0_1 i)
    (x0 : Vec F S512x512 .bf16) (x1 : Vec F S512x512 .bf16) (x2 : Vec F S2000x512 .f32) (x3 : Vec F S512x1 .i32) (xs0 : Vec F S512x1 .f32) (xs1 : Vec F S512x1 .f32) (xs2 : Vec F S512x1 .f32)

theorem later_max : sout0_B_0 (F := F) c i arg2 harg2 arg3 harg3 arg4 harg4 arg5 harg5 arg6 harg6 arg7 harg7 arg8 harg8 arg9 harg9 arg10 harg10 arg11 harg11 hc0 hc1 x0 x1 x2 x3 xs0 xs1 xs2 = k0_pay15 (BitVec.ofNat 32 (i 0).val) (BitVec.ofNat 32 (i 1).val) (k0_pay8 x2 x0 x1) (k0_pay9 x2 x0 x1) (k0_pay10 x2 x0 x1) (FloatOps.ofBits .f32 0x3E757744#32) x3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_B
  dsimp only
  sl_unfold_words
  rw [View.canon_unit_zero (S := S512x1) hz2]
  simp only [View.readAt_eq_ld, harg2.read_unread, harg3.read_unread, harg4.read_unread, harg5.read_unread, harg9.read_unread, harg10.read_unread, harg11.read_unread, View.ld_unit_zero (S := S512x1) hz2, View.ld_unit_zero (S := S512x512) hz2', View.ld_unit_zero (S := S2000x512) hz2'', View.readCov_unit_zero (S := S512x1) _ hz2]

theorem later_sum : sout0_B_1 (F := F) c i arg2 harg2 arg3 harg3 arg4 harg4 arg5 harg5 arg6 harg6 arg7 harg7 arg8 harg8 arg9 harg9 arg10 harg10 arg11 harg11 hc0 hc1 x0 x1 x2 x3 xs0 xs1 xs2 = k0_pay14 (BitVec.ofNat 32 (i 0).val) (BitVec.ofNat 32 (i 1).val) (k0_pay8 x2 x0 x1) (k0_pay9 x2 x0 x1) (k0_pay10 x2 x0 x1) (FloatOps.ofBits .f32 0x3E757744#32) x3 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_B
  dsimp only
  sl_unfold_words
  rw [View.canon_unit_zero (S := S512x1) hz2]
  simp only [View.readAt_eq_ld, harg2.read_unread, harg3.read_unread, harg4.read_unread, harg5.read_unread, harg9.read_unread, harg10.read_unread, harg11.read_unread, View.ld_unit_zero (S := S512x1) hz2, View.ld_unit_zero (S := S512x512) hz2', View.ld_unit_zero (S := S2000x512) hz2'', View.readCov_unit_zero (S := S512x1) _ hz2]

theorem later_tgt : sout0_B_2 (F := F) c i arg2 harg2 arg3 harg3 arg4 harg4 arg5 harg5 arg6 harg6 arg7 harg7 arg8 harg8 arg9 harg9 arg10 harg10 arg11 harg11 hc0 hc1 x0 x1 x2 x3 xs0 xs1 xs2 = k0_pay1 (k0_pay16 (BitVec.ofNat 32 (i 0).val) (BitVec.ofNat 32 (i 1).val) (k0_pay8 x2 x0 x1) (k0_pay9 x2 x0 x1) (k0_pay10 x2 x0 x1) (FloatOps.ofBits .f32 0x3E757744#32) x3) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_B
  dsimp only
  sl_unfold_words
  rw [View.canon_unit_zero (S := S512x1) hz2]
  simp only [View.readAt_eq_ld, harg2.read_unread, harg3.read_unread, harg4.read_unread, harg5.read_unread, harg9.read_unread, harg10.read_unread, harg11.read_unread, View.ld_unit_zero (S := S512x1) hz2, View.ld_unit_zero (S := S512x512) hz2', View.ld_unit_zero (S := S2000x512) hz2'', View.readCov_unit_zero (S := S512x1) _ hz2]

end later

/-! ## A half's last tile: update, then copy out -/
section last
variable (hc0 : ¬cond0_0 i) (hc1 : cond0_1 i)
    (x0 : Vec F S512x512 .bf16) (x1 : Vec F S512x512 .bf16) (x2 : Vec F S2000x512 .f32) (x3 : Vec F S512x1 .i32) (xs0 : Vec F S512x1 .f32) (xs1 : Vec F S512x1 .f32) (xs2 : Vec F S512x1 .f32)

theorem last_max : sout0_C_0 (F := F) c i arg2 harg2 arg3 harg3 arg4 harg4 arg5 harg5 arg6 harg6 arg7 harg7 arg8 harg8 arg9 harg9 arg10 harg10 arg11 harg11 hc0 hc1 x0 x1 x2 x3 xs0 xs1 xs2 = k0_pay15 (BitVec.ofNat 32 (i 0).val) (BitVec.ofNat 32 (i 1).val) (k0_pay8 x2 x0 x1) (k0_pay9 x2 x0 x1) (k0_pay10 x2 x0 x1) (FloatOps.ofBits .f32 0x3E757744#32) x3 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_unit_zero (S := S512x1) hz2]
  simp only [View.readAt_eq_ld, harg2.read_unread, harg3.read_unread, harg4.read_unread, harg5.read_unread, harg9.read_unread, harg10.read_unread, harg11.read_unread, View.ld_unit_zero (S := S512x1) hz2, View.ld_unit_zero (S := S512x512) hz2', View.ld_unit_zero (S := S2000x512) hz2'', View.readCov_unit_zero (S := S512x1) _ hz2]

theorem last_sum : sout0_C_1 (F := F) c i arg2 harg2 arg3 harg3 arg4 harg4 arg5 harg5 arg6 harg6 arg7 harg7 arg8 harg8 arg9 harg9 arg10 harg10 arg11 harg11 hc0 hc1 x0 x1 x2 x3 xs0 xs1 xs2 = k0_pay14 (BitVec.ofNat 32 (i 0).val) (BitVec.ofNat 32 (i 1).val) (k0_pay8 x2 x0 x1) (k0_pay9 x2 x0 x1) (k0_pay10 x2 x0 x1) (FloatOps.ofBits .f32 0x3E757744#32) x3 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_unit_zero (S := S512x1) hz2]
  simp only [View.readAt_eq_ld, harg2.read_unread, harg3.read_unread, harg4.read_unread, harg5.read_unread, harg9.read_unread, harg10.read_unread, harg11.read_unread, View.ld_unit_zero (S := S512x1) hz2, View.ld_unit_zero (S := S512x512) hz2', View.ld_unit_zero (S := S2000x512) hz2'', View.readCov_unit_zero (S := S512x1) _ hz2]

theorem last_tgt : sout0_C_2 (F := F) c i arg2 harg2 arg3 harg3 arg4 harg4 arg5 harg5 arg6 harg6 arg7 harg7 arg8 harg8 arg9 harg9 arg10 harg10 arg11 harg11 hc0 hc1 x0 x1 x2 x3 xs0 xs1 xs2 = k0_pay1 (k0_pay16 (BitVec.ofNat 32 (i 0).val) (BitVec.ofNat 32 (i 1).val) (k0_pay8 x2 x0 x1) (k0_pay9 x2 x0 x1) (k0_pay10 x2 x0 x1) (FloatOps.ofBits .f32 0x3E757744#32) x3) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_unit_zero (S := S512x1) hz2]
  simp only [View.readAt_eq_ld, harg2.read_unread, harg3.read_unread, harg4.read_unread, harg5.read_unread, harg9.read_unread, harg10.read_unread, harg11.read_unread, View.ld_unit_zero (S := S512x1) hz2, View.ld_unit_zero (S := S512x512) hz2', View.ld_unit_zero (S := S2000x512) hz2'', View.readCov_unit_zero (S := S512x1) _ hz2]

theorem last_out_max : out0_C_4 (F := F) c i arg2 harg2 arg3 harg3 arg4 harg4 arg5 harg5 arg6 harg6 arg7 harg7 arg8 harg8 arg9 harg9 arg10 harg10 arg11 harg11 hc0 hc1 x0 x1 x2 x3 xs0 xs1 xs2 = k0_pay2 (k0_pay15 (BitVec.ofNat 32 (i 0).val) (BitVec.ofNat 32 (i 1).val) (k0_pay8 x2 x0 x1) (k0_pay9 x2 x0 x1) (k0_pay10 x2 x0 x1) (FloatOps.ofBits .f32 0x3E757744#32) x3 xs0) := by
  unfold out0_C_4
  rw [View.read_writes_eq_canon _ _ _ (cover0_C_4 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_unit_zero (S := S1x512x1) hz3]
  simp only [View.readAt_eq_ld, harg2.read_unread, harg3.read_unread, harg4.read_unread, harg5.read_unread, harg9.read_unread, harg10.read_unread, harg11.read_unread, View.ld_unit_zero (S := S512x1) hz2, View.ld_unit_zero (S := S512x512) hz2', View.ld_unit_zero (S := S2000x512) hz2'', View.readCov_unit_zero (S := S512x1) _ hz2]

theorem last_out_sum : out0_C_5 (F := F) c i arg2 harg2 arg3 harg3 arg4 harg4 arg5 harg5 arg6 harg6 arg7 harg7 arg8 harg8 arg9 harg9 arg10 harg10 arg11 harg11 hc0 hc1 x0 x1 x2 x3 xs0 xs1 xs2 = k0_pay3 (k0_pay14 (BitVec.ofNat 32 (i 0).val) (BitVec.ofNat 32 (i 1).val) (k0_pay8 x2 x0 x1) (k0_pay9 x2 x0 x1) (k0_pay10 x2 x0 x1) (FloatOps.ofBits .f32 0x3E757744#32) x3 xs0 xs1) := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_unit_zero (S := S1x512x1) hz3]
  simp only [View.readAt_eq_ld, harg2.read_unread, harg3.read_unread, harg4.read_unread, harg5.read_unread, harg9.read_unread, harg10.read_unread, harg11.read_unread, View.ld_unit_zero (S := S512x1) hz2, View.ld_unit_zero (S := S512x512) hz2', View.ld_unit_zero (S := S2000x512) hz2'', View.readCov_unit_zero (S := S512x1) _ hz2]

theorem last_out_tgt : out0_C_6 (F := F) c i arg2 harg2 arg3 harg3 arg4 harg4 arg5 harg5 arg6 harg6 arg7 harg7 arg8 harg8 arg9 harg9 arg10 harg10 arg11 harg11 hc0 hc1 x0 x1 x2 x3 xs0 xs1 xs2 = k0_pay4 (k0_pay1 (k0_pay16 (BitVec.ofNat 32 (i 0).val) (BitVec.ofNat 32 (i 1).val) (k0_pay8 x2 x0 x1) (k0_pay9 x2 x0 x1) (k0_pay10 x2 x0 x1) (FloatOps.ofBits .f32 0x3E757744#32) x3) xs2) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_unit_zero (S := S1x512x1) hz3]
  simp only [View.readAt_eq_ld, harg2.read_unread, harg3.read_unread, harg4.read_unread, harg5.read_unread, harg9.read_unread, harg10.read_unread, harg11.read_unread, View.ld_unit_zero (S := S512x1) hz2, View.ld_unit_zero (S := S512x512) hz2', View.ld_unit_zero (S := S2000x512) hz2'', View.readCov_unit_zero (S := S512x1) _ hz2]

end last

end Cert.KernelIdeal.Pieces

end
-- ==== Proof.Spec.lean ====
/-
  The mathematics both programs compute, one row at a time, on the extended reals.

  A row of the concatenated embeddings and a row of the class weights are each divided by their Euclidean norm; their
  inner product is the cosine.  The label's column gets the additive angular margin (cos θ cos m − sin θ sin m above
  the threshold, a linear penalty below it), every column is scaled by 30, and the loss of the row is the negative
  log-softmax at the label's column.  The streaming form keeps, per half of the classes, a running maximum, a running
  sum of exponentials rescaled to that maximum, and the label's logit, over tiles of 2000 columns.
-/
import Idealize.ShloMosaic.PureOps.Ideal
import Idealize.ShloMosaic.PureOps.Ideal.Laws
import Idealize.ShloMosaic.Lib.ValueIdx

noncomputable section

namespace Cert.Arc

open Idealize.ShloMosaic

/-- The sum of a row's squares, as a sum started from zero. -/
def sumsq {n : Nat} (X : Fin n → Fin 512 → EReal) (r : Fin n) : EReal := 0 + ∑ k : Fin 512, X r k * X r k

/-- A row divided by its Euclidean norm. -/
def nrm {n : Nat} (X : Fin n → Fin 512 → EReal) (r : Fin n) (k : Fin 512) : EReal :=
  Ideal.div (X r k) (Ideal.sqrt (sumsq X r))

/-- The cosine of embedding row `r` and class row `c`. -/
def cosS (E : Fin 512 → Fin 512 → EReal) (W : Fin 100000 → Fin 512 → EReal) (r : Fin 512) (c : Fin 100000) : EReal :=
  ∑ k : Fin 512, nrm E r k * nrm W c k

/-- cos(θ + m) where it applies, else the linear penalty: the margin map on a cosine. -/
def marg (x : EReal) : EReal :=
  Scalar.select (Ideal.cmp .ogt x (Ideal.ofBits .f32 0xBF60A940#32))
    (x * Ideal.ofBits .f32 0x3F60A940#32
      - Ideal.sqrt (min (Ideal.ofBits .f32 0x3F800000#32) (max (Ideal.ofBits .f32 0x00000000#32) (Ideal.ofBits .f32 0x3F800000#32 - x * x)))
        * Ideal.ofBits .f32 0x3EF57744#32)
    (x - Ideal.ofBits .f32 0x3E757744#32)

/-- The scaled logit of a column: the margin map at the label's column, the cosine elsewhere, times 30. -/
def logitOf (hot : Prop) [Decidable hot] (x : EReal) : EReal :=
  Ideal.ofBits .f32 0x41F00000#32 * (if hot then marg x else x)

/-- Column `j` of tile `g` (tiles of 2000 columns; fifty tiles). -/
def col (g : Nat) (j : Fin 2000) : Fin 100000 := ⟨(2000 * g + j.val) % 100000, Nat.mod_lt _ (by norm_num)⟩

/-- One tile's update of a row's running maximum, rescaled sum of exponentials, and label logit.
    `x` is the row of logits, `y` the row that keeps the logit at the label's column and is zero elsewhere. -/
def tileStep (x y : Fin 100000 → EReal) (g : Nat) (s : EReal × EReal × EReal) : EReal × EReal × EReal :=
  let m' := max s.1 ((Finset.univ : Finset (Fin 2000)).fold max ⊥ (fun j => x (col g j)))
  (m', Ideal.exp (s.1 - m') * s.2.1 + ∑ j : Fin 2000, Ideal.exp (x (col g j) - m'), s.2.2 + ∑ j : Fin 2000, y (col g j))

/-- A half's running state after its first `k` tiles (half `p` owns tiles `25 p … 25 p + 24`). -/
def coreState (x y : Fin 100000 → EReal) (p : Nat) : Nat → EReal × EReal × EReal
  | 0 => (⊥, 0, 0)
  | k + 1 => tileStep x y (25 * p + k) (coreState x y p k)

/-- The streaming loss of a row: the two halves merged, then log-sum-exp minus the label's logit. -/
def nllStream (x y : Fin 100000 → EReal) : EReal :=
  let s0 := coreState x y 0 25
  let s1 := coreState x y 1 25
  let m := max s0.1 s1.1
  (m + Ideal.log (s0.2.1 * Ideal.exp (s0.1 - m) + s1.2.1 * Ideal.exp (s1.1 - m))) - (s0.2.2 + s1.2.2)

/-- A row's maximum, taken from −∞. -/
def rowMax (x : Fin 100000 → EReal) : EReal := max (⊥ : EReal) ((Finset.univ : Finset (Fin 100000)).fold max ⊥ x)

/-- The direct loss of a row: minus the log-softmax at column `j0`. -/
def nllDirect (x : Fin 100000 → EReal) (j0 : Fin 100000) : EReal :=
  -((x j0 - rowMax x) - Ideal.log (0 + ∑ c : Fin 100000, Ideal.exp (x c - rowMax x)))

/-! ## The rows, read off the argument arrays -/

/-- The concatenation of the two embedding arrays, row by row. -/
def embOf (A B : (⟨2, ![256, 512]⟩ : Shape).Idx → EReal) (r : Fin 512) (k : Fin 512) : EReal :=
  if h : r.val < 256 then A (ValueIdx.ix2 ⟨r.val, h⟩ k) else B (ValueIdx.ix2 ⟨r.val - 256, by omega⟩ k)

/-- The class weights, row by row. -/
def wOf (W : (⟨2, ![100000, 512]⟩ : Shape).Idx → EReal) (c : Fin 100000) (k : Fin 512) : EReal := W (ValueIdx.ix2 c k)

/-- The labels tiled twice: row `r` of the concatenation carries label `r mod 256`. -/
def labOf (L : (⟨1, ![256]⟩ : Shape).Idx → BitVec 32) (r : Fin 512) : BitVec 32 :=
  L (ValueIdx.ix1 ⟨r.val % 256, Nat.mod_lt _ (by norm_num)⟩)

/-- Row `r`'s scaled logits over all classes. -/
def rowLogits (A B : (⟨2, ![256, 512]⟩ : Shape).Idx → EReal) (W : (⟨2, ![100000, 512]⟩ : Shape).Idx → EReal)
    (L : (⟨1, ![256]⟩ : Shape).Idx → BitVec 32) (r : Fin 512) : Fin 100000 → EReal :=
  fun c => logitOf (BitVec.ofNat 32 c.val = labOf L r) (cosS (embOf A B) (wOf W) r c)

/-- The label's column of row `r`, for labels in range. -/
def labCol (L : (⟨1, ![256]⟩ : Shape).Idx → BitVec 32) (hL : ∀ i, (L i).toNat < 100000) (r : Fin 512) : Fin 100000 :=
  ⟨(labOf L r).toNat, hL _⟩

/-- The mean over the 512 rows of the direct loss. -/
def lossDirect (A B : (⟨2, ![256, 512]⟩ : Shape).Idx → EReal) (W : (⟨2, ![100000, 512]⟩ : Shape).Idx → EReal)
    (L : (⟨1, ![256]⟩ : Shape).Idx → BitVec 32) (hL : ∀ i, (L i).toNat < 100000) : EReal :=
  Ideal.div (0 + ∑ r : Fin 512, nllDirect (rowLogits A B W L r) (labCol L hL r)) (Ideal.ofBits .f32 0x44000000#32)

end Cert.Arc

end
-- ==== Proof.KerBlocks.lean ====
/-
  What the kernel's four input windows hold at a grid point, in terms of the argument arrays.

  The two embedding windows are whole arrays the host lines before the call computed: the concatenated embeddings with
  each row divided by its norm, and that array minus itself re-rounded (the low half of the two-term splitting, which
  on the extended reals is a value minus itself).  The weight window at point t is rows 2000·t … 2000·t + 1999 of the
  class weights.  The label window is the labels tiled twice, as a column.
-/
import proofs.«420439_j14474039788117_3_alg».proof.Proof.Gen.KernelIdeal.Frame
import proofs.«420439_j14474039788117_3_alg».proof.Proof.Spec
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.KernelIdeal.Blocks

open Idealize.ShloMosaic Idealize.ShloMosaic.ValueIdx Idealize.ShloMosaic.TcCoe Idealize.SL.Sem
open Cert.KernelIdeal Cert.KernelIdeal.Gen Cert.Arc

variable (m : (ℓ : Loc nD τ sig) → Buf (Elt Ideal) ℓ)

/-- The four argument arrays at their literal types. -/
abbrev argA (c : Dev nD) : FVec Ideal S256x512 .f32 := m ((c.tc : Thread nD τ).loc main_arg0)
abbrev argB (c : Dev nD) : FVec Ideal S256x512 .f32 := m ((c.tc : Thread nD τ).loc main_arg1)
abbrev argW (c : Dev nD) : FVec Ideal S100000x512 .f32 := m ((c.tc : Thread nD τ).loc main_arg2)
abbrev argL (c : Dev nD) : IVec S256 32 := m ((c.tc : Thread nD τ).loc main_arg3)

/-- The four input windows' blocks at a point, at their literal types. -/
abbrev hiBlk (c : Dev nD) (t : Fin cfg0.N) : FVec Ideal S512x512 .bf16 := iblk m c 0 t
abbrev loBlk (c : Dev nD) (t : Fin cfg0.N) : FVec Ideal S512x512 .bf16 := iblk m c 1 t
abbrev wBlk (c : Dev nD) (t : Fin cfg0.N) : FVec Ideal S2000x512 .f32 := iblk m c 2 t
abbrev labBlk (c : Dev nD) (t : Fin cfg0.N) : IVec S512x1 32 := iblk m c 3 t

/-! ## The host lines before the call, as terms of the argument arrays -/

section Terms
variable (A B : FVec Ideal S256x512 .f32)

/-- The two embedding arrays concatenated along the rows. -/
abbrev catT : FVec Ideal S512x512 .f32 :=
  concatenate S512x512 0 [⟨S256x512, A⟩, ⟨S256x512, B⟩] concatenates_S256x512_S256x512_S512x512_d0

/-- Each row's sum of squares, started from the zero constant. -/
abbrev sqT : FVec Ideal S512 .f32 :=
  Host.reduceAdd (mulf (catT A B) (catT A B)) (constant (F := Ideal) S_ .f32 0x00000000#32) reducesTo_S512x512_S512_d1 h_S_

/-- Each row's norm, spread along the row. -/
abbrev normT : FVec Ideal S512x512 .f32 :=
  broadcastInDim S512x512 ![0, 1] bcast_S512x1_S512x512_0_1 (Host.sqrt (broadcastInDim S512x1 ![0] bcast_S512_S512x1_0 (sqT A B)))

/-- The rows divided by their norms. -/
abbrev divT : FVec Ideal S512x512 .f32 := Host.divf (catT A B) (normT A B)

/-- The high half: the quotient at the narrow format. -/
abbrev hiT : FVec Ideal S512x512 .bf16 := truncf .bf16 (divT A B) bitsLt_bf16_f32

/-- The low half: the quotient minus its narrow form widened again, at the narrow format. -/
abbrev loT : FVec Ideal S512x512 .bf16 :=
  truncf .bf16 (subf (divT A B) (extf .f32 (hiT A B) bitsLt_bf16_f32)) bitsLt_bf16_f32

end Terms

/-! ## The terms read at an index -/

section AtIndex
variable (A B : FVec Ideal S256x512 .f32)

/-- The concatenation at row `r`: the first array below row 256, the second from there on. -/
theorem catT_apply (r k : Fin 512) : catT A B (ix2 r k) = embOf A B r k := by
  by_cases h : r.val < 256
  · rw [embOf, dif_pos h]
    exact concatenate_pair_apply_left (0 : Fin 2) A B _ (ix2 r k) rfl (ix2 ⟨r.val, h⟩ k) (fun b => by
      match b with
      | ⟨0, _⟩ => rfl
      | ⟨1, _⟩ => rfl)
  · rw [embOf, dif_neg h]
    exact concatenate_pair_apply_right (0 : Fin 2) A B _ (ix2 r k) rfl rfl (ix2 ⟨r.val - 256, by omega⟩ k)
      (fun b hb => by
        match b, hb with
        | ⟨0, _⟩, hb => exact absurd rfl hb
        | ⟨1, _⟩, _ => rfl)
      (by show (r.val - 256) + 256 = r.val; omega)

/-- A row's sum of squares. -/
theorem sqT_apply (r : Fin 512) : sqT A B (ix1 r) = sumsq (embOf A B) r := by
  have h : S512x512.Reduces [1] S512 := by decide
  show Ideal.hostReduceAdd reducesTo_S512x512_S512_d1 (mulf (catT A B) (catT A B)) (Ideal.ofBits .f32 0x00000000#32) (ix1 r) = _
  rw [Ideal.hostReduceAdd_single reducesTo_S512x512_S512_d1 h, Ideal.ofBits_zero_f32]
  show (0 : EReal) + ∑ k : Fin 512, mulf (catT A B) (catT A B) (h.lift (ix1 r) k) = 0 + ∑ k : Fin 512, embOf A B r k * embOf A B r k
  congr 1
  refine Finset.sum_congr rfl fun k _ => ?_
  have e : h.lift (ix1 r) k = ix2 r k := by
    funext a; apply Fin.ext
    match a with
    | ⟨0, _⟩ => rfl
    | ⟨1, _⟩ => rfl
  rw [mulf_apply, e, catT_apply]

/-- The norm spread along the row reads the root of the row's sum of squares. -/
theorem normT_apply (r k : Fin 512) : normT A B (ix2 r k) = Ideal.sqrt (sumsq (embOf A B) r) := by
  refine (broadcastInDim_apply _ _ _ (ix2 r k) (ix2 r (0 : Fin 1)) (fun a => by
    match a with
    | ⟨0, _⟩ => rfl
    | ⟨1, _⟩ => rfl)).trans ?_
  show Ideal.sqrt (broadcastInDim S512x1 ![0] bcast_S512_S512x1_0 (sqT A B) (ix2 r (0 : Fin 1))) = _
  refine congrArg Ideal.sqrt ?_
  refine (broadcastInDim_apply _ _ _ (ix2 r (0 : Fin 1)) (ix1 r) (fun a => by
    match a with
    | ⟨0, _⟩ => rfl)).trans ?_
  exact sqT_apply A B r

/-- The quotient at an index is the row divided by its norm. -/
theorem divT_apply (r k : Fin 512) : divT A B (ix2 r k) = nrm (embOf A B) r k := by
  show Ideal.div (catT A B (ix2 r k)) (normT A B (ix2 r k)) = _
  rw [catT_apply, normT_apply]
  rfl

/-- The high half keeps the quotient: the narrowing is the identity on the extended reals. -/
theorem hiT_apply (r k : Fin 512) : hiT A B (ix2 r k) = nrm (embOf A B) r k := divT_apply A B r k

/-- The low half is the quotient minus itself. -/
theorem loT_apply (r k : Fin 512) :
    loT A B (ix2 r k) = nrm (embOf A B) r k - nrm (embOf A B) r k := by
  show divT A B (ix2 r k) - divT A B (ix2 r k) = _
  rw [divT_apply]

end AtIndex

/-! ## The label column as a term of the label array -/

section Labels
variable (L : IVec S256 32)

/-- The labels as a row, that row twice, flattened, and stood up as a column. -/
abbrev labT : IVec S512x1 32 :=
  shapeCast S512x1 (shapeCast S512 (broadcastInDim S2x256 ![0, 1] bcast_S1x256_S2x256_0_1
    (shapeCast S1x256 L shapeCasts_S256_S1x256)) shapeCasts_S2x256_S512) shapeCasts_S512_S512x1

/-- Row `r` of the column is position `r` of the flattened pair of rows, which is label `r mod 256`. -/
theorem labT_apply (r : Fin 512) : labT L (ix2 r (0 : Fin 1)) = labOf L r := by
  have h1 : r.val % 256 < 256 := Nat.mod_lt _ (by norm_num)
  have h2 : r.val / 256 < 2 := by have := r.isLt; omega
  refine (shapeCast_apply _ _ (ix2 r (0 : Fin 1)) (ix1 r) ?_).trans ?_
  · rw [Shape.rowMajor_val_one, Shape.rowMajor_val_two]
    show r.val = r.val * 1 + 0
    omega
  refine (shapeCast_apply _ _ (ix1 r) (ix2 (⟨r.val / 256, h2⟩ : Fin 2) (⟨r.val % 256, h1⟩ : Fin 256)) ?_).trans ?_
  · rw [Shape.rowMajor_val_one, Shape.rowMajor_val_two]
    show r.val / 256 * 256 + r.val % 256 = r.val
    omega
  refine (broadcastInDim_apply _ _ _ _ (ix2 (0 : Fin 1) (⟨r.val % 256, h1⟩ : Fin 256)) (fun a => by
    match a with
    | ⟨0, _⟩ => rfl
    | ⟨1, _⟩ => rfl)).trans ?_
  refine (shapeCast_apply _ _ _ (ix1 (⟨r.val % 256, h1⟩ : Fin 256)) ?_).trans rfl
  rw [Shape.rowMajor_val_one, Shape.rowMajor_val_two]
  show r.val % 256 = 0 * 256 + r.val % 256
  omega

end Labels

/-! ## The windows' arrays as the call finds them -/

/-- The first window's array is the high half of the argument arrays. -/
theorem v7_eq (c : Dev nD) : (V m c main_v7 : S512x512.Idx → EReal) = hiT (argA m c) (argB m c) := by
  show StableHlo.after hostOps0 (fun b => m (c, b)) (Proc.devRef .tc main_v7) = _
  after_results

/-- The second window's array is the low half. -/
theorem v10_eq (c : Dev nD) : (V m c main_v10 : S512x512.Idx → EReal) = loT (argA m c) (argB m c) := by
  show StableHlo.after hostOps0 (fun b => m (c, b)) (Proc.devRef .tc main_v10) = _
  after_results

/-- The fourth window's array is the label column. -/
theorem v14_eq (c : Dev nD) : (V m c main_v14 : S512x1.Idx → BitVec 32) = labT (argL m c) := by
  show StableHlo.after hostOps0 (fun b => m (c, b)) (Proc.devRef .tc main_v14) = _
  after_results
  rfl

/-! ## Where each window's block sits in its array -/

/-- The three whole-array windows sit at block (0, 0) at every point; the weight window at point `t` sits at
    block (t, 0). Decided over the fifty points. -/
theorem index_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

/-- The high half: the normalised embeddings. -/
theorem hiBlk_apply (c : Dev nD) (t : Fin cfg0.N) (r k : Fin 512) :
    hiBlk m c t (ix2 r k) = nrm (embOf (argA m c) (argB m c)) r k := by
  obtain ⟨e0, e1, -⟩ := index_facts t
  have e : ((cfg0.win 0).blk t).view.emb (ix2 r k) = ix2 r k := by
    funext a; apply Fin.ext
    match a with
    | ⟨0, _⟩ => show win0_0.index t (0 : Fin 2) * 512 + 1 * r.val = r.val; omega
    | ⟨1, _⟩ => show win0_0.index t (1 : Fin 2) * 512 + 1 * k.val = k.val; omega
  show (V m c main_v7 : S512x512.Idx → EReal) (((cfg0.win 0).blk t).view.emb (ix2 r k)) = _
  rw [e, v7_eq, hiT_apply]

/-- The low half: the normalised embeddings minus themselves. -/
theorem loBlk_apply (c : Dev nD) (t : Fin cfg0.N) (r k : Fin 512) :
    loBlk m c t (ix2 r k) = nrm (embOf (argA m c) (argB m c)) r k - nrm (embOf (argA m c) (argB m c)) r k := by
  obtain ⟨-, -, e0, e1, -⟩ := index_facts t
  have e : ((cfg0.win 1).blk t).view.emb (ix2 r k) = ix2 r k := by
    funext a; apply Fin.ext
    match a with
    | ⟨0, _⟩ => show win0_1.index t (0 : Fin 2) * 512 + 1 * r.val = r.val; omega
    | ⟨1, _⟩ => show win0_1.index t (1 : Fin 2) * 512 + 1 * k.val = k.val; omega
  show (V m c main_v10 : S512x512.Idx → EReal) (((cfg0.win 1).blk t).view.emb (ix2 r k)) = _
  rw [e, v10_eq, loT_apply]

/-- The weight block at point `t`: rows `2000 t + j` of the class weights. -/
theorem wBlk_apply (c : Dev nD) (t : Fin cfg0.N) (j : Fin 2000) (k : Fin 512) :
    wBlk m c t (ix2 j k) = wOf (argW m c) (col t.val j) k := by
  obtain ⟨-, -, -, -, e0, e1, -⟩ := index_facts t
  have hN : t.val < 50 := lt_of_lt_of_eq t.isLt (show cfg0.N = 50 from N_0)
  have e : ((cfg0.win 2).blk t).view.emb (ix2 j k) = ix2 (col t.val j) k := by
    funext a; apply Fin.ext
    match a with
    | ⟨0, _⟩ => show win0_2.index t (0 : Fin 2) * 2000 + 1 * j.val = (2000 * t.val + j.val) % 100000; omega
    | ⟨1, _⟩ => show win0_2.index t (1 : Fin 2) * 512 + 1 * k.val = k.val; omega
  show (V m c main_arg2 : S100000x512.Idx → EReal) (((cfg0.win 2).blk t).view.emb (ix2 j k)) = _
  rw [e, V_main_arg2]
  rfl

/-- The label column: row `r` carries label `r mod 256`. -/
theorem labBlk_apply (c : Dev nD) (t : Fin cfg0.N) (r : Fin 512) :
    labBlk m c t (ix2 r 0) = labOf (argL m c) r := by
  obtain ⟨-, -, -, -, -, -, e0, e1⟩ := index_facts t
  have e : ((cfg0.win 3).blk t).view.emb (ix2 r (0 : Fin 1)) = ix2 r (0 : Fin 1) := by
    funext a; apply Fin.ext
    match a with
    | ⟨0, _⟩ => show win0_3.index t (0 : Fin 2) * 512 + 1 * r.val = r.val; omega
    | ⟨1, _⟩ => show win0_3.index t (1 : Fin 2) * 1 + 1 * 0 = 0; omega
  show (V m c main_v14 : S512x1.Idx → BitVec 32) (((cfg0.win 3).blk t).view.emb (ix2 r (0 : Fin 1))) = _
  rw [e, v14_eq, labT_apply]

end Cert.KernelIdeal.Blocks

end
-- ==== Proof.TilePay.lean ====
/-
  The kernel body's arithmetic, read one element at a time on the extended reals.

  A tile is 2000 class rows.  The body normalises the tile's rows, forms the cosines against the 512 embedding rows as
  three matrix products (high·high + high·low + low·high of a two-term splitting), applies the margin at the label's
  column, scales by 30, and updates per row a running maximum, a rescaled running sum of exponentials and the label's logit.
-/
import proofs.«420439_j14474039788117_3_alg».proof.Proof.Gen.KernelIdeal.Skeleton
import proofs.«420439_j14474039788117_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.TileVal

open Idealize.ShloMosaic Idealize.ShloMosaic.ValueIdx Cert.KernelIdeal Cert.KernelIdeal.Gen Cert.Arc

variable [Cert.KernelIdeal.Facts]

/-! ## Layout forms: a vector as a column, a column spread over the lanes -/

/-- A length-`a` vector cast to an `a × 1` column reads, at `(i, u)`, the vector at `i`: the two row-major positions agree. -/
theorem colCast_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `a × 1` column broadcast to `a × b` reads, at `(p, c)`, the column at row `p`. -/
theorem colBroadcast_apply {α : Type} {a b : ℕ} (v : (⟨2, ![a, 1]⟩ : Shape).Idx → α)
    (h : (⟨2, ![a, 1]⟩ : Shape).Broadcasts ⟨2, ![a, b]⟩) (p : Fin a) (c : Fin b) (u : Fin 1) :
    broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- The word `0xFF800000` denotes −∞. -/
theorem ofBits_negInf : Ideal.ofBits .f32 0xFF800000#32 = (⊥ : EReal) := by simp [Ideal.ofBits, Ideal.ieee]

/-- A normalised weight entry as the body forms it: the entry times the reciprocal square root of its row's sum of squares. -/
def wn (w : FVec Ideal S2000x512 .f32) (j : Fin 2000) (k : Fin 512) : EReal :=
  w (ix2 j k) * Ideal.rsqrt (∑ k' : Fin 512, w (ix2 j k') * w (ix2 j k'))

/-! ## The lane reductions of a 512 × 2000 tile, at a row -/

/-- The tile index over row `r` with lane `j` put back is `(r, j)`. -/
theorem lift_row (h : S512x2000.Reduces [1] S512) (r : Fin 512) (j : Fin 2000) : h.lift (ix1 r) j = ix2 r j := by
  funext a
  match a with
  | ⟨0, _⟩ => exact Fin.ext rfl
  | ⟨1, _⟩ => exact Fin.ext rfl

/-- The sum along the lanes, at row `r`: the sum over the 2000 lanes of the row's entries. -/
theorem laneSum_apply (src : FVec Ideal S512x2000 .f32) (h : S512x2000.Reduces [1] S512) (hφ : FKind.Formats .f32)
    (hacc : (0x00000000#32 : BitVec 32) = FKind.add.neutral .f32 hφ) (r : Fin 512) :
    multiReduction .add [1] S512 src 0x00000000#32 h hφ hacc (ix1 r) = ∑ j : Fin 2000, src (ix2 r j) :=
  (Ideal.multiReduction_add_single src _ h hφ hacc (ix1 r)).trans
    (Finset.sum_congr rfl fun j _ => congrArg src (lift_row h r j))

/-- The maximum along the lanes, at row `r`: the fold of `max` from −∞ over the 2000 lanes of the row's entries. -/
theorem laneMax_apply (src : FVec Ideal S512x2000 .f32) (h : S512x2000.Reduces [1] S512) (hφ : FKind.Formats .f32)
    (hacc : (0xFF800000#32 : BitVec 32) = FKind.maximumf.neutral .f32 hφ) (r : Fin 512) :
    multiReduction .maximumf [1] S512 src 0xFF800000#32 h hφ hacc (ix1 r)
      = (Finset.univ : Finset (Fin 2000)).fold max ⊥ (fun j => src (ix2 r j)) := by
  refine (Ideal.multiReduction_maximumf_single src _ h hφ hacc (ix1 r)).trans ?_
  have e : (src ∘ h.lift (ix1 r)) = fun j : Fin 2000 => src (ix2 r j) := funext fun j => congrArg src (lift_row h r j)
  show (Finset.univ : Finset (Fin 2000)).fold max (Ideal.ofBits .f32 0xFF800000#32) (src ∘ h.lift (ix1 r)) = _
  rw [e, ofBits_negInf]
  rfl

/-- The integer equality test as a one-bit word. -/
theorem cmpi_eq_ite (x y : BitVec 32) : IntOp.cmpi .eq x y = if x = y then 1#1 else 0#1 := by
  unfold IntOp.cmpi
  by_cases h : x = y
  · simp [h]
  · rw [if_neg h, (beq_eq_false_iff_ne (a := x) (b := y)).mpr h]
    rfl

/-! ## The normalised tile and the matrix products, at an element -/

/-- The tile index over class row `j` with feature `k` put back is `(j, k)`. -/
theorem lift_feat (h : S2000x512.Reduces [1] S2000) (j : Fin 2000) (k : Fin 512) : h.lift (ix1 j) k = ix2 j k := by
  funext a
  match a with
  | ⟨0, _⟩ => exact Fin.ext rfl
  | ⟨1, _⟩ => exact Fin.ext rfl

/-- The tile's row `j` times the reciprocal square root of its sum of squares, at feature `k`: the sum of squares is taken
    along the features, kept as a column and spread back over the features. -/
theorem nrow_apply (w : FVec Ideal S2000x512 .f32) (h : S2000x512.Reduces [1] S2000) (hφ : FKind.Formats .f32)
    (hacc : (0x00000000#32 : BitVec 32) = FKind.add.neutral .f32 hφ) (hc : S2000.ShapeCasts S2000x1)
    (hb : S2000x1.Broadcasts S2000x512) (j : Fin 2000) (k : Fin 512) :
    mulf w (broadcastTo S2000x512 (rsqrt (shapeCast S2000x1 (multiReduction .add [1] S2000 (mulf w w) 0x00000000#32 h hφ hacc) hc)) hb)
        (ix2 j k) = wn w j k := by
  rw [mulf_apply, colBroadcast_apply _ hb j k 0]
  show w (ix2 j k) * Ideal.rsqrt (shapeCast S2000x1 (multiReduction .add [1] S2000 (mulf w w) 0x00000000#32 h hφ hacc) hc (ix2 j 0)) = _
  rw [colCast_apply _ hc j 0]
  unfold wn
  refine congrArg (fun t => w (ix2 j k) * Ideal.rsqrt t) ?_
  refine (Ideal.multiReduction_add_single (mulf w w) _ h hφ hacc (ix1 j)).trans ?_
  refine Finset.sum_congr rfl fun k' _ => ?_
  show w (h.lift (ix1 j) k') * w (h.lift (ix1 j) k') = _
  rw [lift_feat h j k']

/-- The four coordinates of the product's operand indices: the left operand is read at (output row, contraction), the
    right at (output column, contraction). -/
theorem lhs_dot_0 (i : S512x2000.Idx) (q : dot_S512x512_S2000x512_S512x2000_1_1_0_0_n_n.contr.Idx) :
    (dot_S512x512_S2000x512_S512x2000_1_1_0_0_n_n.lhsIdx i q 0).val = (i 0).val := by
  unfold DotDims.lhsIdx
  rw [dif_neg (show ¬(0 : Fin S512x512.rank) ∈ dot_S512x512_S2000x512_S512x2000_1_1_0_0_n_n.lhsBatch by decide), dif_pos (show (0 : Fin S512x512.rank) ∈ dot_S512x512_S2000x512_S512x2000_1_1_0_0_n_n.lhsNonContracting by decide)]
  rfl
theorem lhs_dot_1 (i : S512x2000.Idx) (q : dot_S512x512_S2000x512_S512x2000_1_1_0_0_n_n.contr.Idx) :
    (dot_S512x512_S2000x512_S512x2000_1_1_0_0_n_n.lhsIdx i q 1).val = (q ⟨0, by decide⟩).val :=
  dot_S512x512_S2000x512_S512x2000_1_1_0_0_n_n.lhsIdx_val_of_single rfl i q
theorem rhs_dot_0 (i : S512x2000.Idx) (q : dot_S512x512_S2000x512_S512x2000_1_1_0_0_n_n.contr.Idx) :
    (dot_S512x512_S2000x512_S512x2000_1_1_0_0_n_n.rhsIdx i q 0).val = (i 1).val := by
  unfold DotDims.rhsIdx
  rw [dif_neg (show ¬(0 : Fin S2000x512.rank) ∈ dot_S512x512_S2000x512_S512x2000_1_1_0_0_n_n.rhsBatch by decide), dif_pos (show (0 : Fin S2000x512.rank) ∈ dot_S512x512_S2000x512_S512x2000_1_1_0_0_n_n.rhsNonContracting by decide)]
  rfl
theorem rhs_dot_1 (i : S512x2000.Idx) (q : dot_S512x512_S2000x512_S512x2000_1_1_0_0_n_n.contr.Idx) :
    (dot_S512x512_S2000x512_S512x2000_1_1_0_0_n_n.rhsIdx i q 1).val = (q ⟨0, by decide⟩).val :=
  dot_S512x512_S2000x512_S512x2000_1_1_0_0_n_n.rhsIdx_val_of_single rfl i q

/-- A product into the zero tile, at row `r`, column `j`: the sum over the 512 features of the left operand's row `r`
    against the right operand's row `j`. -/
theorem matmul_ix (A : FVec Ideal S512x512 .bf16) (B : FVec Ideal S2000x512 .bf16) (r : Fin 512) (j : Fin 2000) :
    matmul dot_S512x512_S2000x512_S512x2000_1_1_0_0_n_n none A B (constant (F := Ideal) S512x2000 .f32 0x00000000#32) (ix2 r j)
      = ∑ k : Fin 512, A (ix2 r k) * B (ix2 j k) := by
  simp only [matmul]
  rw [Ideal.matmul_constant_zero_apply, ← Equiv.sum_comp (contrEquiv1 dot_S512x512_S2000x512_S512x2000_1_1_0_0_n_n 512 rfl rfl).symm]
  refine Finset.sum_congr rfl fun k _ => ?_
  have hk := contrEquiv1_symm_val dot_S512x512_S2000x512_S512x2000_1_1_0_0_n_n 512 rfl rfl k
  have el : dot_S512x512_S2000x512_S512x2000_1_1_0_0_n_n.lhsIdx (ix2 r j) ((contrEquiv1 dot_S512x512_S2000x512_S512x2000_1_1_0_0_n_n 512 rfl rfl).symm k) = ix2 r k := funext fun a => Fin.ext (by
    match a with
    | ⟨0, _⟩ => exact lhs_dot_0 _ _
    | ⟨1, _⟩ => exact (lhs_dot_1 _ _).trans hk)
  have er : dot_S512x512_S2000x512_S512x2000_1_1_0_0_n_n.rhsIdx (ix2 r j) ((contrEquiv1 dot_S512x512_S2000x512_S512x2000_1_1_0_0_n_n 512 rfl rfl).symm k) = ix2 j k := funext fun a => Fin.ext (by
    match a with
    | ⟨0, _⟩ => exact rhs_dot_0 _ _
    | ⟨1, _⟩ => exact (rhs_dot_1 _ _).trans hk)
  rw [el, er]

/-- The cosine the body forms at row `r`, tile column `j`: three sums over the 512 features. -/
theorem pay8_apply (w : FVec Ideal S2000x512 .f32) (hi lo : FVec Ideal S512x512 .bf16) (r : Fin 512) (j : Fin 2000) :
    k0_pay8 (F := Ideal) w hi lo (ix2 r j)
      = (∑ k : Fin 512, hi (ix2 r k) * wn w j k + ∑ k : Fin 512, hi (ix2 r k) * (wn w j k - wn w j k))
        + ∑ k : Fin 512, lo (ix2 r k) * wn w j k := by
  simp only [k0_pay8, shapeCast_self]
  rw [addf_apply, addf_apply, matmul_ix, matmul_ix, matmul_ix]
  refine congrArg₂ (· + ·) (congrArg₂ (· + ·) ?_ ?_) ?_
  · refine Finset.sum_congr rfl fun k _ => congrArg (fun t => hi (ix2 r k) * t) ?_
    rw [truncf_apply]
    exact nrow_apply w _ _ _ _ _ j k
  · refine Finset.sum_congr rfl fun k _ => congrArg (fun t => hi (ix2 r k) * t) ?_
    rw [truncf_apply, subf_apply]
    exact congrArg₂ (· - ·) (nrow_apply w _ _ _ _ _ j k) (nrow_apply w _ _ _ _ _ j k)
  · refine Finset.sum_congr rfl fun k _ => congrArg (fun t => lo (ix2 r k) * t) ?_
    rw [truncf_apply]
    exact nrow_apply w _ _ _ _ _ j k

/-- The margin branch, its guard and the penalty branch of the body together are the margin map of the cosine. -/
theorem marg_apply (w : FVec Ideal S2000x512 .f32) (hi lo : FVec Ideal S512x512 .bf16) (i : S512x2000.Idx) :
    Scalar.select (k0_pay10 (F := Ideal) w hi lo i) (k0_pay9 (F := Ideal) w hi lo i)
        (k0_pay8 (F := Ideal) w hi lo i - Ideal.ofBits .f32 0x3E757744#32)
      = marg (k0_pay8 (F := Ideal) w hi lo i) := by
  unfold marg k0_pay9 k0_pay10
  generalize k0_pay8 (F := Ideal) w hi lo = x
  rfl

/-- The label test at row `r`, tile column `j`, at grid point `(p, k)`: the global column `(25 p + k) · 2000 + j` against the row's label. -/
theorem pay11_apply (p k : Nat) (hp : p < 2) (hk : k < 25) (lab : IVec S512x1 32) (r : Fin 512) (j : Fin 2000) :
    k0_pay11 (F := Ideal) (BitVec.ofNat 32 p) (BitVec.ofNat 32 k) lab (ix2 r j)
      = if BitVec.ofNat 32 ((25 * p + k) * 2000 + j.val) = lab (ix2 r 0) then 1#1 else 0#1 := by
  simp only [k0_pay11, shapeCast_self]
  show IntOp.cmpi .eq
      (IntOp.addi (Scalar.muli (Scalar.addi (Scalar.muli (BitVec.ofNat 32 p) 25#32) (BitVec.ofNat 32 k)) 2000#32)
        (iota .tc S512x2000 32 [1] iota_S512x2000_d1_w32 (ix2 r j)))
      (broadcastTo S512x2000 lab broadcasts_S512x1_S512x2000 (ix2 r j)) = _
  rw [iota_single_apply, colBroadcast_apply lab _ r j 0, cmpi_eq_ite]
  show (if (BitVec.ofNat 32 p * BitVec.ofNat 32 25 + BitVec.ofNat 32 k) * BitVec.ofNat 32 2000 + BitVec.ofNat 32 j.val
      = lab (ix2 r 0) then 1#1 else 0#1) = _
  rw [BitVec.ofNat_mul_ofNat, BitVec.ofNat_add_ofNat, BitVec.ofNat_mul_ofNat, BitVec.ofNat_add_ofNat, Nat.mul_comm p 25]

/-- The scaled logit at an element: 30 times the selected value. -/
theorem pay12_apply (a0 a1 : BitVec 32) (v22 v35 : FVec Ideal S512x2000 .f32) (v37 : IVec S512x2000 1) (c15 : Ideal .f32)
    (lab : IVec S512x1 32) (i : S512x2000.Idx) :
    k0_pay12 (F := Ideal) a0 a1 v22 v35 v37 c15 lab i
      = Ideal.ofBits .f32 0x41F00000#32
          * Scalar.select (k0_pay11 (F := Ideal) a0 a1 lab i) (Scalar.select (v37 i) (v35 i) (v22 i - c15)) (v22 i) := by
  unfold k0_pay12
  rfl

/-- The new running maximum of a row: the old one against the tile's maximum taken from −∞. -/
theorem pay13_apply (a0 a1 : BitVec 32) (v22 v35 : FVec Ideal S512x2000 .f32) (v37 : IVec S512x2000 1) (c15 : Ideal .f32)
    (lab : IVec S512x1 32) (mPrev : FVec Ideal S512x1 .f32) (r : Fin 512) :
    k0_pay13 (F := Ideal) a0 a1 v22 v35 v37 c15 lab mPrev (ix2 r 0)
      = max (mPrev (ix2 r 0))
          ((Finset.univ : Finset (Fin 2000)).fold max ⊥ (fun j => k0_pay12 (F := Ideal) a0 a1 v22 v35 v37 c15 lab (ix2 r j))) := by
  simp only [k0_pay13]
  generalize k0_pay12 (F := Ideal) a0 a1 v22 v35 v37 c15 lab = x
  rw [maximumf_apply]
  exact congrArg (max (mPrev (ix2 r 0))) ((colCast_apply _ _ r 0).trans (laneMax_apply x _ _ _ r))

/-- The new running sum of a row: the old one rescaled to the new maximum, plus the tile's exponentials. -/
theorem pay14_apply (a0 a1 : BitVec 32) (v22 v35 : FVec Ideal S512x2000 .f32) (v37 : IVec S512x2000 1) (c15 : Ideal .f32)
    (lab : IVec S512x1 32) (mPrev lPrev : FVec Ideal S512x1 .f32) (r : Fin 512) :
    k0_pay14 (F := Ideal) a0 a1 v22 v35 v37 c15 lab mPrev lPrev (ix2 r 0)
      = Ideal.exp (mPrev (ix2 r 0) - k0_pay13 (F := Ideal) a0 a1 v22 v35 v37 c15 lab mPrev (ix2 r 0)) * lPrev (ix2 r 0)
        + ∑ j : Fin 2000, Ideal.exp (k0_pay12 (F := Ideal) a0 a1 v22 v35 v37 c15 lab (ix2 r j)
            - k0_pay13 (F := Ideal) a0 a1 v22 v35 v37 c15 lab mPrev (ix2 r 0)) := by
  simp only [k0_pay14, shapeCast_self]
  generalize k0_pay13 (F := Ideal) a0 a1 v22 v35 v37 c15 lab mPrev = m
  generalize k0_pay12 (F := Ideal) a0 a1 v22 v35 v37 c15 lab = x
  rw [addf_apply, mulf_apply]
  refine congrArg₂ (· + ·) rfl ?_
  refine (colCast_apply _ _ r 0).trans ((laneSum_apply _ _ _ _ r).trans ?_)
  refine Finset.sum_congr rfl fun j _ => ?_
  show Ideal.exp (x (ix2 r j) - broadcastTo S512x2000 m _ (ix2 r j)) = _
  rw [colBroadcast_apply m _ r j 0]

/-- The value stored as the new maximum is the new maximum. -/
theorem pay15_eq (a0 a1 : BitVec 32) (v22 v35 : FVec Ideal S512x2000 .f32) (v37 : IVec S512x2000 1) (c15 : Ideal .f32)
    (lab : IVec S512x1 32) (mPrev : FVec Ideal S512x1 .f32) :
    k0_pay15 (F := Ideal) a0 a1 v22 v35 v37 c15 lab mPrev = k0_pay13 (F := Ideal) a0 a1 v22 v35 v37 c15 lab mPrev := by
  unfold k0_pay15
  exact shapeCast_self _ _

/-- The tile's contribution to the label's logit of a row: the logits kept where the label test holds, summed. -/
theorem pay16_apply (a0 a1 : BitVec 32) (v22 v35 : FVec Ideal S512x2000 .f32) (v37 : IVec S512x2000 1) (c15 : Ideal .f32)
    (lab : IVec S512x1 32) (r : Fin 512) :
    k0_pay16 (F := Ideal) a0 a1 v22 v35 v37 c15 lab (ix2 r 0)
      = ∑ j : Fin 2000, Scalar.select (k0_pay11 (F := Ideal) a0 a1 lab (ix2 r j))
          (k0_pay12 (F := Ideal) a0 a1 v22 v35 v37 c15 lab (ix2 r j)) (0 : EReal) := by
  simp only [k0_pay16]
  generalize k0_pay12 (F := Ideal) a0 a1 v22 v35 v37 c15 lab = x
  generalize k0_pay11 (F := Ideal) a0 a1 lab = t
  refine (colCast_apply _ _ r 0).trans ((laneSum_apply _ _ _ _ r).trans ?_)
  refine Finset.sum_congr rfl fun j _ => ?_
  show Scalar.select (t (ix2 r j)) (x (ix2 r j)) (Ideal.ofBits .f32 0x00000000#32) = _
  rw [Ideal.ofBits_zero_f32]

/-- The label accumulator: old plus the tile's contribution. -/
theorem pay1_apply (v77 tPrev : FVec Ideal S512x1 .f32) (r : Fin 512) :
    k0_pay1 (F := Ideal) v77 tPrev (ix2 r 0) = tPrev (ix2 r 0) + v77 (ix2 r 0) := by
  simp only [k0_pay1, shapeCast_self]
  rfl

/-- The three copies out re-lay a 512×1 column as 1×512×1. -/
theorem pay2_apply (v : FVec Ideal S512x1 .f32) (r : Fin 512) : k0_pay2 (F := Ideal) v (ix3 0 r 0) = v (ix2 r 0) := by
  unfold k0_pay2
  exact shapeCast_ab_1ab_apply v _ 0 r 0
theorem pay3_apply (v : FVec Ideal S512x1 .f32) (r : Fin 512) : k0_pay3 (F := Ideal) v (ix3 0 r 0) = v (ix2 r 0) := by
  unfold k0_pay3
  exact shapeCast_ab_1ab_apply v _ 0 r 0
theorem pay4_apply (v : FVec Ideal S512x1 .f32) (r : Fin 512) : k0_pay4 (F := Ideal) v (ix3 0 r 0) = v (ix2 r 0) := by
  unfold k0_pay4
  exact shapeCast_ab_1ab_apply v _ 0 r 0

/-- The reset values: −∞ for the maximum, zero for the two sums. -/
theorem pay5_apply (i : S512x1.Idx) : k0_pay5 (F := Ideal) i = (⊥ : EReal) := by
  simp only [k0_pay5, shapeCast_self]
  exact ofBits_negInf
theorem pay6_apply (i : S512x1.Idx) : k0_pay6 (F := Ideal) i = (0 : EReal) := by
  simp only [k0_pay6, shapeCast_self]
  exact Ideal.ofBits_zero_f32
theorem pay7_apply (i : S512x1.Idx) : k0_pay7 (F := Ideal) i = (0 : EReal) := by
  simp only [k0_pay7, shapeCast_self]
  exact Ideal.ofBits_zero_f32

end Cert.KernelIdeal.TileVal

end
-- ==== Proof.CosReal.lean ====
/-
  Finite rows of positive norm give finite cosines and finite logits, and the three-term splitting of the cosine
  collapses: with every entry finite, a value minus itself is zero, so the two correction sums vanish, and the
  reciprocal square root of a positive sum of squares is the reciprocal of its square root.
-/
import proofs.«420439_j14474039788117_3_alg».proof.Proof.Spec

noncomputable section

namespace Cert.Arc

open Idealize.ShloMosaic

namespace CosReal

/-! ## Extended reals that are real numbers -/

/-- An extended real that is (the image of) a real number. -/
def IsR (x : EReal) : Prop := ∃ a : ℝ, x = (a : EReal)

theorem IsR.zero : IsR 0 := ⟨0, EReal.coe_zero.symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

/-- A finite sum of reals is a real. -/
theorem IsR.sum {ι : Type} (s : Finset ι) (f : ι → EReal) (h : ∀ i ∈ s, IsR (f i)) : IsR (∑ i ∈ s, f i) :=
  Finset.sum_induction f IsR (fun _ _ => IsR.add) IsR.zero h

/-- A real minus itself is zero (which fails at the two infinities). -/
theorem IsR.sub_self {x : EReal} (hx : IsR x) : x - x = 0 := by
  obtain ⟨a, rfl⟩ := hx
  rw [← EReal.coe_sub, _root_.sub_self, EReal.coe_zero]

/-- Either branch of a selection being real, the selection is. -/
theorem IsR.select {c : BitVec 1} {a b : EReal} (ha : IsR a) (hb : IsR b) : IsR (Scalar.select c a b) := by
  unfold Scalar.select
  split_ifs
  · exact ha
  · exact hb

/-- The square root of a real clamped into `[0, p]` (with `0 ≤ p`) is a real: the clamped value is a nonnegative real. -/
theorem IsR.sqrt_clamp {p b : ℝ} (hp : 0 ≤ p) : IsR (Ideal.sqrt (min (p : EReal) (max 0 (b : EReal)))) := by
  have h1 : max (0 : EReal) (b : EReal) = ((max 0 b : ℝ) : EReal) := by
    rw [← EReal.coe_zero]; exact (EReal.coe_strictMono.monotone.map_max).symm
  have h2 : min (p : EReal) ((max 0 b : ℝ) : EReal) = ((min p (max 0 b) : ℝ) : EReal) :=
    (EReal.coe_strictMono.monotone.map_min).symm
  rw [h1, h2, Ideal.sqrt_coe, if_neg (not_lt.mpr (le_min hp (le_max_left _ _)))]
  exact ⟨_, rfl⟩

/-! ## Bit patterns that denote reals -/

/-- A pattern whose exponent field is not all ones denotes a real number (a zero, a subnormal or a normal). -/
theorem ieee_isR (e m : Nat) {w : Nat} (b : BitVec w) (h : (b.extractLsb' m e).toNat ≠ 2 ^ e - 1) :
    IsR (Ideal.ieee e m b) := by
  simp only [Ideal.ieee]
  rw [if_neg h]
  split_ifs <;> exact ⟨_, rfl⟩

/-- With the sign bit clear as well, the real it denotes is nonnegative. -/
theorem ieee_nonneg (e m : Nat) {w : Nat} (b : BitVec w) (h : (b.extractLsb' m e).toNat ≠ 2 ^ e - 1)
    (hs : (b.extractLsb' (e + m) 1 == 1#1) = false) : ∃ a : ℝ, 0 ≤ a ∧ Ideal.ieee e m b = (a : EReal) := by
  simp only [Ideal.ieee]
  rw [if_neg h]
  simp only [hs, Bool.false_eq_true, if_false]
  split_ifs
  · exact ⟨_, by positivity, rfl⟩
  · exact ⟨_, by positivity, rfl⟩

/-- The same for a single-precision pattern. -/
theorem ofBits_f32_isR (b : BitVec 32) (h : (b.extractLsb' 23 8).toNat ≠ 2 ^ 8 - 1) : IsR (Ideal.ofBits .f32 b) :=
  ieee_isR 8 23 b h

/-- The margin threshold. -/
theorem isR_thr : IsR (Ideal.ofBits .f32 0xBF60A940#32) := ofBits_f32_isR _ (by decide)
/-- The cosine of the margin. -/
theorem isR_cosm : IsR (Ideal.ofBits .f32 0x3F60A940#32) := ofBits_f32_isR _ (by decide)
/-- The sine of the margin. -/
theorem isR_sinm : IsR (Ideal.ofBits .f32 0x3EF57744#32) := ofBits_f32_isR _ (by decide)
/-- The linear penalty. -/
theorem isR_pen : IsR (Ideal.ofBits .f32 0x3E757744#32) := ofBits_f32_isR _ (by decide)
/-- The scale, thirty. -/
theorem isR_scale : IsR (Ideal.ofBits .f32 0x41F00000#32) := ofBits_f32_isR _ (by decide)
/-- One: a nonnegative real. -/
theorem one_nonneg_real : ∃ a : ℝ, 0 ≤ a ∧ Ideal.ofBits .f32 0x3F800000#32 = (a : EReal) :=
  ieee_nonneg 8 23 (0x3F800000#32 : BitVec 32) (by decide) (by decide)

/-- The margin map sends a real to a real. -/
theorem marg_isR {x : EReal} (hx : IsR x) : IsR (marg x) := by
  obtain ⟨p, hp, h1⟩ := one_nonneg_real
  unfold marg
  refine IsR.select (IsR.sub (IsR.mul hx isR_cosm) (IsR.mul ?_ isR_sinm)) (IsR.sub hx isR_pen)
  obtain ⟨b, hb⟩ := IsR.sub ⟨p, h1⟩ (IsR.mul hx hx)
  rw [hb, h1, Ideal.ofBits_zero_f32]
  exact IsR.sqrt_clamp hp

/-! ## Normalised rows -/

/-- The sum of squares of a real row, if positive, is a positive real. -/
theorem sumsq_pos_real {n : Nat} (X : Fin n → Fin 512 → EReal) (r : Fin n) (hX : ∀ k, IsR (X r k))
    (hs : 0 < sumsq X r) : ∃ s : ℝ, 0 < s ∧ (∑ k : Fin 512, X r k * X r k) = (s : EReal) := by
  obtain ⟨s, hs'⟩ := IsR.sum Finset.univ (fun k => X r k * X r k) (fun k _ => (hX k).mul (hX k))
  refine ⟨s, ?_, hs'⟩
  unfold sumsq at hs
  rw [zero_add, hs'] at hs
  exact_mod_cast hs

/-- An entry `x` of a row whose sum of squares is the positive real `s`, divided by the row's norm, is `x · (√s)⁻¹`. -/
theorem nrm_eq {n : Nat} (X : Fin n → Fin 512 → EReal) (r : Fin n) (k : Fin 512) (x s : ℝ) (hx : X r k = (x : EReal))
    (hs : 0 < s) (hsum : (∑ k : Fin 512, X r k * X r k) = (s : EReal)) :
    nrm X r k = ((x * (Real.sqrt s)⁻¹ : ℝ) : EReal) := by
  unfold nrm sumsq
  rw [zero_add, hsum, hx, Ideal.sqrt_coe, if_neg (not_lt.mpr hs.le), Ideal.div_coe (Real.sqrt_ne_zero'.mpr hs), one_div,
    ← EReal.coe_mul]

end CosReal

open CosReal

variable (E : Fin 512 → Fin 512 → EReal) (W : Fin 100000 → Fin 512 → EReal)

/-- A class row's entry times the reciprocal square root of the row's sum of squares (the sum not started from zero). -/
def wnK (W : Fin 100000 → Fin 512 → EReal) (c : Fin 100000) (k : Fin 512) : EReal :=
  W c k * Ideal.rsqrt (∑ k' : Fin 512, W c k' * W c k')

/-- The same entry times the reciprocal square root of the sum of squares is the same real `x · (√s)⁻¹`. -/
theorem CosReal.wnK_eq (V : Fin 100000 → Fin 512 → EReal) (c : Fin 100000) (k : Fin 512) (x s : ℝ) (hx : V c k = (x : EReal))
    (hs : 0 < s) (hsum : (∑ k : Fin 512, V c k * V c k) = (s : EReal)) :
    wnK V c k = ((x * (Real.sqrt s)⁻¹ : ℝ) : EReal) := by
  unfold wnK
  rw [hsum, hx, Ideal.rsqrt_coe, if_neg (not_lt.mpr hs.le), if_neg hs.ne', ← EReal.coe_mul]

/-- The three-term cosine equals the plain one. -/
theorem cos_three_terms (hE : ∀ r k, ∃ a : ℝ, E r k = (a : EReal)) (hW : ∀ c k, ∃ a : ℝ, W c k = (a : EReal))
    (hEs : ∀ r, 0 < sumsq E r) (hWs : ∀ c, 0 < sumsq W c) (r : Fin 512) (c : Fin 100000) :
    (∑ k : Fin 512, nrm E r k * wnK W c k + ∑ k : Fin 512, nrm E r k * (wnK W c k - wnK W c k))
      + ∑ k : Fin 512, (nrm E r k - nrm E r k) * wnK W c k
      = cosS E W r c := by
  obtain ⟨sE, hsE, hE2⟩ := sumsq_pos_real E r (hE r) (hEs r)
  obtain ⟨sW, hsW, hW2⟩ := sumsq_pos_real W c (hW c) (hWs c)
  have hn : ∀ k, IsR (nrm E r k) := fun k => by
    obtain ⟨x, hx⟩ := hE r k
    exact ⟨_, nrm_eq E r k x sE hx hsE hE2⟩
  have hwn : ∀ k, wnK W c k = nrm W c k := fun k => by
    obtain ⟨x, hx⟩ := hW c k
    rw [wnK_eq W c k x sW hx hsW hW2, nrm_eq W c k x sW hx hsW hW2]
  have hw : ∀ k, IsR (wnK W c k) := fun k => by
    obtain ⟨x, hx⟩ := hW c k
    exact ⟨_, wnK_eq W c k x sW hx hsW hW2⟩
  have h2 : ∑ k : Fin 512, nrm E r k * (wnK W c k - wnK W c k) = 0 :=
    Finset.sum_eq_zero (fun k _ => by rw [(hw k).sub_self, mul_zero])
  have h3 : ∑ k : Fin 512, (nrm E r k - nrm E r k) * wnK W c k = 0 :=
    Finset.sum_eq_zero (fun k _ => by rw [(hn k).sub_self, zero_mul])
  rw [h2, h3, add_zero, add_zero]
  unfold cosS
  exact Finset.sum_congr rfl (fun k _ => by rw [hwn k])

/-- Every scaled logit is a real number. -/
theorem logit_real (hE : ∀ r k, ∃ a : ℝ, E r k = (a : EReal)) (hW : ∀ c k, ∃ a : ℝ, W c k = (a : EReal))
    (hEs : ∀ r, 0 < sumsq E r) (hWs : ∀ c, 0 < sumsq W c) (hot : Prop) [Decidable hot] (r : Fin 512) (c : Fin 100000) :
    ∃ a : ℝ, logitOf hot (cosS E W r c) = (a : EReal) := by
  obtain ⟨sE, hsE, hE2⟩ := sumsq_pos_real E r (hE r) (hEs r)
  obtain ⟨sW, hsW, hW2⟩ := sumsq_pos_real W c (hW c) (hWs c)
  have hc : IsR (cosS E W r c) := by
    unfold cosS
    refine IsR.sum _ _ (fun k _ => IsR.mul ?_ ?_)
    · obtain ⟨x, hx⟩ := hE r k
      exact ⟨_, nrm_eq E r k x sE hx hsE hE2⟩
    · obtain ⟨x, hx⟩ := hW c k
      exact ⟨_, nrm_eq W c k x sW hx hsW hW2⟩
  unfold logitOf
  refine IsR.mul isR_scale ?_
  split_ifs
  · exact marg_isR hc
  · exact hc

end Cert.Arc

end
-- ==== Proof.KerFold.lean ====
/-
  One tile's update, and the fold over a half's twenty-five tiles.

  With the windows' blocks read off the argument arrays, the logits the body forms at tile g, row r, tile column j are
  row r's logits at global column 2000 g + j; the three stored accumulators after the tile are one step of the
  streaming fold; and by induction over the grid the accumulators after point n are the fold of the half's tiles up to n.
-/
import proofs.«420439_j14474039788117_3_alg».proof.Proof.KerPieces
import proofs.«420439_j14474039788117_3_alg».proof.Proof.KerBlocks
import proofs.«420439_j14474039788117_3_alg».proof.Proof.TilePay
import proofs.«420439_j14474039788117_3_alg».proof.Proof.CosReal
import proofs.«420439_j14474039788117_3_alg».proof.Proof.Spec

set_option maxRecDepth 16384

noncomputable section

namespace Cert.KernelIdeal.Fold

open Idealize.ShloMosaic Idealize.ShloMosaic.ValueIdx Idealize.ShloMosaic.TcCoe Idealize.SL.Sem
open Cert.KernelIdeal Cert.KernelIdeal.Gen Cert.KernelIdeal.TileVal Cert.Arc

variable [Cert.KernelIdeal.Facts]

/-- The cosine as the body forms it, in terms of whole rows: three sums. -/
def kcos (E : Fin 512 → Fin 512 → EReal) (W : Fin 100000 → Fin 512 → EReal) (r : Fin 512) (c' : Fin 100000) : EReal :=
  (∑ k : Fin 512, nrm E r k * wnK W c' k + ∑ k : Fin 512, nrm E r k * (wnK W c' k - wnK W c' k))
    + ∑ k : Fin 512, (nrm E r k - nrm E r k) * wnK W c' k

/-- Row `r`'s logits as the body forms them. -/
def klogits (E : Fin 512 → Fin 512 → EReal) (W : Fin 100000 → Fin 512 → EReal) (Lf : Fin 512 → BitVec 32) (r : Fin 512) :
    Fin 100000 → EReal :=
  fun c' => logitOf (BitVec.ofNat 32 c'.val = Lf r) (kcos E W r c')

/-- Row `r`'s logits kept at the label's column, zero elsewhere. -/
def khot (E : Fin 512 → Fin 512 → EReal) (W : Fin 100000 → Fin 512 → EReal) (Lf : Fin 512 → BitVec 32) (r : Fin 512) :
    Fin 100000 → EReal :=
  fun c' => if BitVec.ofNat 32 c'.val = Lf r then klogits E W Lf r c' else 0

theorem col_val (g : Nat) (hg : g < 50) (j : Fin 2000) : (col g j).val = 2000 * g + j.val := by
  have := j.isLt
  show (2000 * g + j.val) % 100000 = _
  exact Nat.mod_eq_of_lt (by omega)

section tile
variable (E : Fin 512 → Fin 512 → EReal) (W : Fin 100000 → Fin 512 → EReal) (Lf : Fin 512 → BitVec 32)
variable (w : FVec Ideal S2000x512 .f32) (hi lo : FVec Ideal S512x512 .bf16) (lab : IVec S512x1 32)
variable (p k : Nat) (hp : p < 2) (hk : k < 25)
variable (hhi : ∀ r k', hi (ix2 r k') = nrm E r k') (hlo : ∀ r k', lo (ix2 r k') = nrm E r k' - nrm E r k')
variable (hw : ∀ j k', w (ix2 j k') = W (col (25 * p + k) j) k') (hlab : ∀ r, lab (ix2 r 0) = Lf r)

include hhi hlo hw in
/-- The body's cosine at tile `25 p + k` is the whole-row cosine at the tile's global column. -/
theorem tile_cos (r : Fin 512) (j : Fin 2000) :
    k0_pay8 (F := Ideal) w hi lo (ix2 r j) = kcos E W r (col (25 * p + k) j) := by
  rw [pay8_apply]
  have hwn : ∀ k', wn w j k' = wnK W (col (25 * p + k) j) k' := fun k' => by
    unfold wn wnK
    rw [hw j k']
    congr 2
    exact Finset.sum_congr rfl fun k'' _ => by rw [hw j k'']
  unfold kcos
  simp only [hwn, hhi, hlo]

include hp hk in
theorem tile_col (j : Fin 2000) : (25 * p + k) * 2000 + j.val = (col (25 * p + k) j).val := by
  rw [col_val (25 * p + k) (by omega) j]; omega

include hp hk hhi hlo hw hlab in
/-- The body's scaled logit at the tile is row `r`'s logit at the tile's global column. -/
theorem tile_logit (r : Fin 512) (j : Fin 2000) :
    k0_pay12 (F := Ideal) (BitVec.ofNat 32 p) (BitVec.ofNat 32 k) (k0_pay8 (F := Ideal) w hi lo) (k0_pay9 (F := Ideal) w hi lo) (k0_pay10 (F := Ideal) w hi lo) (FloatOps.ofBits .f32 0x3E757744#32) lab (ix2 r j) = klogits E W Lf r (col (25 * p + k) j) := by
  rw [pay12_apply, pay11_apply p k hp hk lab r j]
  have e2 : Scalar.select (k0_pay10 (F := Ideal) w hi lo (ix2 r j)) (k0_pay9 (F := Ideal) w hi lo (ix2 r j))
      (k0_pay8 (F := Ideal) w hi lo (ix2 r j) - FloatOps.ofBits .f32 0x3E757744#32) = marg (k0_pay8 (F := Ideal) w hi lo (ix2 r j)) :=
    marg_apply w hi lo (ix2 r j)
  rw [e2, tile_col p k hp hk j, hlab r, tile_cos E W w hi lo p k hhi hlo hw r j]
  unfold klogits logitOf
  by_cases h : BitVec.ofNat 32 (col (25 * p + k) j).val = Lf r
  · rw [if_pos h, if_pos h]; rfl
  · rw [if_neg h, if_neg h]; rfl

include hp hk hlab in
/-- The label test at the tile picks the row's label column. -/
theorem tile_hot (r : Fin 512) (j : Fin 2000) :
    Scalar.select (k0_pay11 (F := Ideal) (BitVec.ofNat 32 p) (BitVec.ofNat 32 k) lab (ix2 r j)) (klogits E W Lf r (col (25 * p + k) j)) (0 : EReal)
      = khot E W Lf r (col (25 * p + k) j) := by
  rw [pay11_apply p k hp hk lab r j, tile_col p k hp hk j, hlab r]
  unfold khot
  by_cases h : BitVec.ofNat 32 (col (25 * p + k) j).val = Lf r
  · rw [if_pos h, if_pos h]; rfl
  · rw [if_neg h, if_neg h]; rfl

include hp hk hhi hlo hw hlab in
/-- The three accumulators a tile stores are one step of the streaming fold on what it found. -/
theorem tile_step (mP lP tP : FVec Ideal S512x1 .f32) (r : Fin 512) :
    (k0_pay15 (F := Ideal) (BitVec.ofNat 32 p) (BitVec.ofNat 32 k) (k0_pay8 (F := Ideal) w hi lo) (k0_pay9 (F := Ideal) w hi lo) (k0_pay10 (F := Ideal) w hi lo) (FloatOps.ofBits .f32 0x3E757744#32) lab mP (ix2 r 0),
      k0_pay14 (F := Ideal) (BitVec.ofNat 32 p) (BitVec.ofNat 32 k) (k0_pay8 (F := Ideal) w hi lo) (k0_pay9 (F := Ideal) w hi lo) (k0_pay10 (F := Ideal) w hi lo) (FloatOps.ofBits .f32 0x3E757744#32) lab mP lP (ix2 r 0),
      k0_pay1 (F := Ideal) (k0_pay16 (F := Ideal) (BitVec.ofNat 32 p) (BitVec.ofNat 32 k) (k0_pay8 (F := Ideal) w hi lo) (k0_pay9 (F := Ideal) w hi lo) (k0_pay10 (F := Ideal) w hi lo) (FloatOps.ofBits .f32 0x3E757744#32) lab) tP (ix2 r 0))
      = tileStep (klogits E W Lf r) (khot E W Lf r) (25 * p + k) (mP (ix2 r 0), lP (ix2 r 0), tP (ix2 r 0)) := by
  have hx : ∀ j : Fin 2000, k0_pay12 (F := Ideal) (BitVec.ofNat 32 p) (BitVec.ofNat 32 k) (k0_pay8 (F := Ideal) w hi lo) (k0_pay9 (F := Ideal) w hi lo) (k0_pay10 (F := Ideal) w hi lo) (FloatOps.ofBits .f32 0x3E757744#32) lab (ix2 r j) = klogits E W Lf r (col (25 * p + k) j) :=
    tile_logit E W Lf w hi lo lab p k hp hk hhi hlo hw hlab r
  have h13 : k0_pay13 (F := Ideal) (BitVec.ofNat 32 p) (BitVec.ofNat 32 k) (k0_pay8 (F := Ideal) w hi lo) (k0_pay9 (F := Ideal) w hi lo) (k0_pay10 (F := Ideal) w hi lo) (FloatOps.ofBits .f32 0x3E757744#32) lab mP (ix2 r 0)
      = max (mP (ix2 r 0)) ((Finset.univ : Finset (Fin 2000)).fold max ⊥ (fun j => klogits E W Lf r (col (25 * p + k) j))) := by
    rw [pay13_apply]; simp only [hx]
  unfold tileStep
  dsimp only
  refine Prod.ext ?_ (Prod.ext ?_ ?_)
  · show k0_pay15 (F := Ideal) (BitVec.ofNat 32 p) (BitVec.ofNat 32 k) (k0_pay8 (F := Ideal) w hi lo) (k0_pay9 (F := Ideal) w hi lo) (k0_pay10 (F := Ideal) w hi lo) (FloatOps.ofBits .f32 0x3E757744#32) lab mP (ix2 r 0) = _
    rw [pay15_eq]; exact h13
  · show k0_pay14 (F := Ideal) (BitVec.ofNat 32 p) (BitVec.ofNat 32 k) (k0_pay8 (F := Ideal) w hi lo) (k0_pay9 (F := Ideal) w hi lo) (k0_pay10 (F := Ideal) w hi lo) (FloatOps.ofBits .f32 0x3E757744#32) lab mP lP (ix2 r 0) = _
    rw [pay14_apply, h13]; simp only [hx]
  · show k0_pay1 (F := Ideal) (k0_pay16 (F := Ideal) (BitVec.ofNat 32 p) (BitVec.ofNat 32 k) (k0_pay8 (F := Ideal) w hi lo) (k0_pay9 (F := Ideal) w hi lo) (k0_pay10 (F := Ideal) w hi lo) (FloatOps.ofBits .f32 0x3E757744#32) lab) tP (ix2 r 0) = _
    rw [pay1_apply, pay16_apply]; simp only [hx]
    congr 1
    exact Finset.sum_congr rfl fun j _ => tile_hot E W Lf lab p k hp hk hlab r j

end tile

end Cert.KernelIdeal.Fold

end
-- ==== Proof.KerGrid.lean ====
/-
  The fold over the grid: by induction over the fifty grid points, the three accumulators after point n are the
  streaming fold of the tiles of n's half up to n; and at a half's last tile what is copied out is that fold.
-/
import proofs.«420439_j14474039788117_3_alg».proof.Proof.KerFold

set_option maxRecDepth 16384

noncomputable section

namespace Cert.KernelIdeal.Grid

open Idealize.ShloMosaic Idealize.ShloMosaic.ValueIdx Idealize.ShloMosaic.TcCoe Idealize.SL.Sem
open Cert.KernelIdeal Cert.KernelIdeal.Gen Cert.KernelIdeal.TileVal Cert.KernelIdeal.Fold Cert.Arc

variable [Cert.KernelIdeal.Facts]
variable (m : (ℓ : Loc nD τ sig) → Buf (Elt Ideal) ℓ) (c : Dev nD)

/-- The rows the kernel works on, read off the argument arrays. -/
abbrev Ef : Fin 512 → Fin 512 → EReal := embOf (Blocks.argA m c) (Blocks.argB m c)
abbrev Wf : Fin 100000 → Fin 512 → EReal := wOf (Blocks.argW m c)
abbrev Lf : Fin 512 → BitVec 32 := labOf (Blocks.argL m c)

/-- The grid's coordinates: the half and the tile within it. -/
theorem coords_val : ∀ t : Fin grid0.N, (grid0.coords t 0).val = t.val / 25 ∧ (grid0.coords t 1).val = t.val % 25 := by
  decide +kernel

/-- What a half's first tile leaves in the accumulators: the update applied to the reset values. -/
theorem acc_first (t : Fin cfg0.N) (h0 : t.val % 25 = 0) :
    (outsAt0 m c t.val t.isLt).2.2.2.1 = k0_pay15 (F := Ideal) (BitVec.ofNat 32 (grid0.coords t 0).val) (BitVec.ofNat 32 (grid0.coords t 1).val) (k0_pay8 (F := Ideal) (iblk m c 2 t) (iblk m c 0 t) (iblk m c 1 t)) (k0_pay9 (F := Ideal) (iblk m c 2 t) (iblk m c 0 t) (iblk m c 1 t)) (k0_pay10 (F := Ideal) (iblk m c 2 t) (iblk m c 0 t) (iblk m c 1 t)) (FloatOps.ofBits .f32 0x3E757744#32) (iblk m c 3 t) (k0_pay5 (F := Ideal))
    ∧ (outsAt0 m c t.val t.isLt).2.2.2.2.1 = k0_pay14 (F := Ideal) (BitVec.ofNat 32 (grid0.coords t 0).val) (BitVec.ofNat 32 (grid0.coords t 1).val) (k0_pay8 (F := Ideal) (iblk m c 2 t) (iblk m c 0 t) (iblk m c 1 t)) (k0_pay9 (F := Ideal) (iblk m c 2 t) (iblk m c 0 t) (iblk m c 1 t)) (k0_pay10 (F := Ideal) (iblk m c 2 t) (iblk m c 0 t) (iblk m c 1 t)) (FloatOps.ofBits .f32 0x3E757744#32) (iblk m c 3 t) (k0_pay5 (F := Ideal)) (k0_pay6 (F := Ideal))
    ∧ (outsAt0 m c t.val t.isLt).2.2.2.2.2 = k0_pay1 (F := Ideal) (k0_pay16 (F := Ideal) (BitVec.ofNat 32 (grid0.coords t 0).val) (BitVec.ofNat 32 (grid0.coords t 1).val) (k0_pay8 (F := Ideal) (iblk m c 2 t) (iblk m c 0 t) (iblk m c 1 t)) (k0_pay9 (F := Ideal) (iblk m c 2 t) (iblk m c 0 t) (iblk m c 1 t)) (k0_pay10 (F := Ideal) (iblk m c 2 t) (iblk m c 0 t) (iblk m c 1 t)) (FloatOps.ofBits .f32 0x3E757744#32) (iblk m c 3 t)) (k0_pay7 (F := Ideal)) := by
  have h1 : ¬t.val % 25 = 24 := by omega
  rw [outsAt0_A m c t h0 h1]
  dsimp only
  exact ⟨Pieces.first_max (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
    Pieces.first_sum (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
    Pieces.first_tgt (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)⟩

/-- What any later tile leaves in the accumulators: the update applied to what the tile before left. -/
theorem acc_later (t : Fin cfg0.N) (h0 : ¬t.val % 25 = 0) :
    (outsAt0 m c t.val t.isLt).2.2.2.1 = k0_pay15 (F := Ideal) (BitVec.ofNat 32 (grid0.coords t 0).val) (BitVec.ofNat 32 (grid0.coords t 1).val) (k0_pay8 (F := Ideal) (iblk m c 2 t) (iblk m c 0 t) (iblk m c 1 t)) (k0_pay9 (F := Ideal) (iblk m c 2 t) (iblk m c 0 t) (iblk m c 1 t)) (k0_pay10 (F := Ideal) (iblk m c 2 t) (iblk m c 0 t) (iblk m c 1 t)) (FloatOps.ofBits .f32 0x3E757744#32) (iblk m c 3 t) (outsAt0 m c (t.val - 1) (Nat.lt_of_le_of_lt (Nat.sub_le _ _) t.isLt)).2.2.2.1
    ∧ (outsAt0 m c t.val t.isLt).2.2.2.2.1 = k0_pay14 (F := Ideal) (BitVec.ofNat 32 (grid0.coords t 0).val) (BitVec.ofNat 32 (grid0.coords t 1).val) (k0_pay8 (F := Ideal) (iblk m c 2 t) (iblk m c 0 t) (iblk m c 1 t)) (k0_pay9 (F := Ideal) (iblk m c 2 t) (iblk m c 0 t) (iblk m c 1 t)) (k0_pay10 (F := Ideal) (iblk m c 2 t) (iblk m c 0 t) (iblk m c 1 t)) (FloatOps.ofBits .f32 0x3E757744#32) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1
    ∧ (outsAt0 m c t.val t.isLt).2.2.2.2.2 = k0_pay1 (F := Ideal) (k0_pay16 (F := Ideal) (BitVec.ofNat 32 (grid0.coords t 0).val) (BitVec.ofNat 32 (grid0.coords t 1).val) (k0_pay8 (F := Ideal) (iblk m c 2 t) (iblk m c 0 t) (iblk m c 1 t)) (k0_pay9 (F := Ideal) (iblk m c 2 t) (iblk m c 0 t) (iblk m c 1 t)) (k0_pay10 (F := Ideal) (iblk m c 2 t) (iblk m c 0 t) (iblk m c 1 t)) (FloatOps.ofBits .f32 0x3E757744#32) (iblk m c 3 t)) (outsAt0 m c (t.val - 1) (Nat.lt_of_le_of_lt (Nat.sub_le _ _) t.isLt)).2.2.2.2.2 := by
  by_cases h1 : t.val % 25 = 24
  · rw [outsAt0_C m c t h0 h1]
    dsimp only
    exact ⟨Pieces.last_max (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
      Pieces.last_sum (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
      Pieces.last_tgt (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2⟩
  · rw [outsAt0_B m c t h0 h1]
    dsimp only
    exact ⟨Pieces.later_max (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
      Pieces.later_sum (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
      Pieces.later_tgt (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2⟩

/-- Row `r`'s three accumulators after grid point `n`. -/
def stateAt (n : Nat) (h : n < cfg0.N) (r : Fin 512) : EReal × EReal × EReal :=
  (((outsAt0 m c n h).2.2.2.1 : FVec Ideal S512x1 .f32) (ix2 r 0),
    ((outsAt0 m c n h).2.2.2.2.1 : FVec Ideal S512x1 .f32) (ix2 r 0),
    ((outsAt0 m c n h).2.2.2.2.2 : FVec Ideal S512x1 .f32) (ix2 r 0))

theorem stateAt_congr (r : Fin 512) (a b : Nat) (ha : a < cfg0.N) (hb : b < cfg0.N) (e : a = b) :
    stateAt m c a ha r = stateAt m c b hb r := by subst e; rfl

/-- A grid point is tile `k` of half `p` with `25 p + k` the point itself. -/
theorem grid_facts (t : Fin cfg0.N) :
    (grid0.coords t 0).val < 2 ∧ (grid0.coords t 1).val < 25 ∧ 25 * (grid0.coords t 0).val + (grid0.coords t 1).val = t.val := by
  obtain ⟨e0, e1⟩ := coords_val t
  have hN : t.val < 50 := lt_of_lt_of_eq t.isLt (show cfg0.N = 50 from N_0)
  have := Nat.div_add_mod t.val 25
  omega

/-- At a half's first tile the accumulators are one step from the reset values. -/
theorem state_first (t : Fin cfg0.N) (h0 : t.val % 25 = 0) (r : Fin 512) :
    stateAt m c t.val t.isLt r = tileStep (klogits (Ef m c) (Wf m c) (Lf m c) r) (khot (Ef m c) (Wf m c) (Lf m c) r) t.val (⊥, 0, 0) := by
  obtain ⟨hm, hl, ht⟩ := acc_first m c t h0
  obtain ⟨hp, hk, hg⟩ := grid_facts t
  have key := tile_step (Ef m c) (Wf m c) (Lf m c) (Blocks.wBlk m c t) (Blocks.hiBlk m c t) (Blocks.loBlk m c t) (Blocks.labBlk m c t) (grid0.coords t 0).val (grid0.coords t 1).val hp hk (Blocks.hiBlk_apply m c t) (Blocks.loBlk_apply m c t) (fun j k' => by rw [hg]; exact Blocks.wBlk_apply m c t j k') (Blocks.labBlk_apply m c t) (k0_pay5 (F := Ideal)) (k0_pay6 (F := Ideal)) (k0_pay7 (F := Ideal)) r
  rw [hg, pay5_apply, pay6_apply, pay7_apply] at key
  unfold stateAt
  rw [hm, hl, ht]
  exact key

/-- At any later tile the accumulators are one step from what the tile before left. -/
theorem state_later (t : Fin cfg0.N) (h0 : ¬t.val % 25 = 0) (r : Fin 512) :
    stateAt m c t.val t.isLt r
      = tileStep (klogits (Ef m c) (Wf m c) (Lf m c) r) (khot (Ef m c) (Wf m c) (Lf m c) r) t.val (stateAt m c (t.val - 1) (Nat.lt_of_le_of_lt (Nat.sub_le _ _) t.isLt) r) := by
  obtain ⟨hm, hl, ht⟩ := acc_later m c t h0
  obtain ⟨hp, hk, hg⟩ := grid_facts t
  have key := tile_step (Ef m c) (Wf m c) (Lf m c) (Blocks.wBlk m c t) (Blocks.hiBlk m c t) (Blocks.loBlk m c t) (Blocks.labBlk m c t) (grid0.coords t 0).val (grid0.coords t 1).val hp hk (Blocks.hiBlk_apply m c t) (Blocks.loBlk_apply m c t) (fun j k' => by rw [hg]; exact Blocks.wBlk_apply m c t j k') (Blocks.labBlk_apply m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 r
  rw [hg] at key
  unfold stateAt
  rw [hm, hl, ht]
  exact key

/-- After grid point `n` the accumulators are the fold of the half's tiles up to `n`. -/
theorem state_eq : ∀ (n : Nat) (h : n < cfg0.N) (r : Fin 512),
    stateAt m c n h r = coreState (klogits (Ef m c) (Wf m c) (Lf m c) r) (khot (Ef m c) (Wf m c) (Lf m c) r) (n / 25) (n % 25 + 1)
  | 0, h, r => state_first m c ⟨0, h⟩ (Nat.zero_mod _) r
  | n + 1, h, r => by
    by_cases h0 : (n + 1) % 25 = 0
    · refine (state_first m c ⟨n + 1, h⟩ h0 r).trans ?_
      rw [h0]
      have hd : 25 * ((n + 1) / 25) + 0 = n + 1 := by have := Nat.div_add_mod (n + 1) 25; omega
      show _ = tileStep _ _ (25 * ((n + 1) / 25) + 0) (⊥, 0, 0)
      rw [hd]
    · refine (state_later m c ⟨n + 1, h⟩ h0 r).trans ?_
      rw [stateAt_congr m c r (n + 1 - 1) n _ (Nat.lt_of_succ_lt h) (Nat.add_sub_cancel n 1), state_eq n (Nat.lt_of_succ_lt h) r]
      have hq : (n + 1) / 25 = n / 25 := by omega
      have hr : (n + 1) % 25 = n % 25 + 1 := by omega
      rw [hq, hr]
      show _ = tileStep _ _ (25 * (n / 25) + (n % 25 + 1)) _
      have hd : 25 * (n / 25) + (n % 25 + 1) = n + 1 := by have := Nat.div_add_mod n 25; omega
      rw [hd]

/-- At a half's last tile the three outputs are the accumulators, re-laid. -/
theorem out_vec (t : Fin cfg0.N) (h1 : t.val % 25 = 24) :
    (outsAt0 m c t.val t.isLt).1 = k0_pay2 (F := Ideal) (outsAt0 m c t.val t.isLt).2.2.2.1
    ∧ (outsAt0 m c t.val t.isLt).2.1 = k0_pay3 (F := Ideal) (outsAt0 m c t.val t.isLt).2.2.2.2.1
    ∧ (outsAt0 m c t.val t.isLt).2.2.1 = k0_pay4 (F := Ideal) (outsAt0 m c t.val t.isLt).2.2.2.2.2 := by
  have h0 : ¬t.val % 25 = 0 := by omega
  rw [outsAt0_C m c t h0 h1]
  dsimp only
  exact ⟨(Pieces.last_out_max (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).trans
      (congrArg (k0_pay2 (F := Ideal)) (Pieces.last_max (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).symm),
    (Pieces.last_out_sum (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).trans
      (congrArg (k0_pay3 (F := Ideal)) (Pieces.last_sum (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).symm),
    (Pieces.last_out_tgt (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).trans
      (congrArg (k0_pay4 (F := Ideal)) (Pieces.last_tgt (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).symm)⟩

/-- What a half's last tile copies out, row by row: the half's whole fold. -/
theorem out_state (t : Fin cfg0.N) (h1 : t.val % 25 = 24) (r : Fin 512) :
    (((outsAt0 m c t.val t.isLt).1 : FVec Ideal S1x512x1 .f32) (ix3 0 r 0),
      ((outsAt0 m c t.val t.isLt).2.1 : FVec Ideal S1x512x1 .f32) (ix3 0 r 0),
      ((outsAt0 m c t.val t.isLt).2.2.1 : FVec Ideal S1x512x1 .f32) (ix3 0 r 0))
      = coreState (klogits (Ef m c) (Wf m c) (Lf m c) r) (khot (Ef m c) (Wf m c) (Lf m c) r) (t.val / 25) 25 := by
  obtain ⟨em, el, et⟩ := out_vec m c t h1
  have hs := state_eq m c t.val t.isLt r
  rw [h1] at hs
  rw [em, el, et, pay2_apply, pay3_apply, pay4_apply]
  exact hs

end Cert.KernelIdeal.Grid

end
-- ==== Proof.KerOut.lean ====
/-
  From blocks to arrays for the three outputs: each output is 2 × 512 × 1, block p written back once, after the last
  tile of half p (grid points 24 and 49), with what that tile copied out of the accumulators.
-/
import proofs.«420439_j14474039788117_3_alg».proof.Proof.Gen.KernelIdeal.Frame
import Idealize.ShloMosaic.Lib.ValueIdx
import Idealize.ShloMosaic.Lib.Pipeline.Value

set_option maxRecDepth 16384

noncomputable section

namespace Cert.KernelIdeal.Out

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

/-- The whole-array function of an output: entry (p, r, 0) is `G p r`. -/
abbrev arrOf (G : Fin 2 → Fin 512 → EReal) : S2x512x1.Idx → EReal := fun i => G (i 0) (i 1)

/-! ## Output window 4 -/

/-- Where window 4's block sits at each grid point: block `t / 25` on the first axis, block 0 on the other two. -/
theorem index4 : ∀ t : Fin cfg0.N, win0_4.index t (0 : Fin 3) = t.val / 25 ∧ win0_4.index t (1 : Fin 3) = 0
    ∧ win0_4.index t (2 : Fin 3) = 0 :=
  (by decide +kernel : ∀ t : Fin grid0.N, _)

/-- WHAT A FLUSHING POINT WRITES BACK is its block of the whole-array function: the block is 1 × 512 × 1, its element
    (0, r, 0) sits in the array at (t / 25, r, 0), and there the hypothesis gives `G (t / 25) r`. -/
theorem flushed4_eq (c : Dev nD) (G : Fin 2 → Fin 512 → EReal)
    (hG : ∀ (t : Fin cfg0.N) (_ : t.val % 25 = 24) (r : Fin 512),
        ((outsAt0 m c t.val t.isLt).1 : FVec Ideal S1x512x1 .f32) (ix3 0 r 0)
          = G ⟨t.val / 25, by have := t.isLt; have : cfg0.N = 50 := N_0; omega⟩ r)
    (t : Fin cfg0.N) (hf : (cfg0.win 4).flush t = true) :
    (dats m 0 c).flushed 4 t = ((cfg0.win 4).blk t).view.read (Elt Ideal) (arrOf G) := by
  have h24 : t.val % 25 = 24 := (flush0_4 t).1 hf
  show (cfg0.win 4).cut (grid0.coords t) ((dats m 0 c).after 4 t) = _
  rw [after0_4]
  obtain ⟨e0, e1, e2⟩ := index4 t
  funext j
  have hj0 : (j 0).val < 1 := (j 0).isLt
  have hj1 : (j 1).val < 512 := (j 1).isLt
  have hj2 : (j 2).val < 1 := (j 2).isLt
  have hL : (cfg0.win 4).xinj (grid0.coords t) j = (ix3 0 ⟨(j 1).val, hj1⟩ 0 : S1x512x1.Idx) := by
    funext a
    apply Fin.ext
    match a with
    | ⟨0, _⟩ => show (j 0).val = 0; omega
    | ⟨1, _⟩ => rfl
    | ⟨2, _⟩ => show (j 2).val = 0; omega
  have hR : ((cfg0.win 4).blk t).view.emb j
      = (ix3 ⟨t.val / 25, by have := t.isLt; have : cfg0.N = 50 := N_0; omega⟩ ⟨(j 1).val, hj1⟩ 0 : S2x512x1.Idx) := by
    funext a
    apply Fin.ext
    match a with
    | ⟨0, _⟩ => show win0_4.index t (0 : Fin 3) * 1 + 1 * (j 0).val = t.val / 25; omega
    | ⟨1, _⟩ => show win0_4.index t (1 : Fin 3) * 512 + 1 * (j 1).val = (j 1).val; omega
    | ⟨2, _⟩ => show win0_4.index t (2 : Fin 3) * 1 + 1 * (j 2).val = 0; omega
  show ((outsAt0 m c t.val t.isLt).1 : FVec Ideal S1x512x1 .f32) ((cfg0.win 4).xinj (grid0.coords t) j)
    = arrOf G (((cfg0.win 4).blk t).view.emb j)
  rw [hL, hR]
  exact hG t h24 ⟨(j 1).val, hj1⟩

/-- An index of the array is in point `t`'s block iff each coordinate is in the block's range on its axis. -/
theorem mem_blk4 (t : Fin cfg0.N) (i : S2x512x1.Idx) :
    i ∈ ((cfg0.win 4).blk t).view.set ↔ ∀ a : Fin 3, win0_4.index t a * S1x512x1.size a ≤ (i a).val
      ∧ (i a).val < win0_4.index t a * S1x512x1.size a + S1x512x1.size a := by
  show i ∈ ((View.whole main_v15_0).slice (win0_4.rect t)).set ↔ _
  rw [View.set_slice_whole, Rect.mem_set_unit]
  exact Iff.rfl

/-- Output 4 after the region: half `p`'s block is what the half's last tile copied out. -/
theorem arr4_apply (c : Dev nD) (G : Fin 2 → Fin 512 → EReal)
    (hG : ∀ (t : Fin cfg0.N) (_ : t.val % 25 = 24) (r : Fin 512),
        ((outsAt0 m c t.val t.isLt).1 : FVec Ideal S1x512x1 .f32) (ix3 0 r 0)
          = G ⟨t.val / 25, by have := t.isLt; have : cfg0.N = 50 := N_0; omega⟩ r)
    (p : Fin 2) (r : Fin 512) :
    ((dats m 0 c).arrAt 4 cfg0.N : FVec Ideal S2x512x1 .f32) (ix3 p r 0) = G p r := by
  -- half `p`'s block is written back by the half's last tile, grid point 25 p + 24
  have hp : p.val < 2 := p.isLt
  have hr : r.val < 512 := r.isLt
  obtain ⟨t, htv⟩ : ∃ t : Fin cfg0.N, t.val = 25 * p.val + 24 :=
    ⟨⟨25 * p.val + 24, lt_of_lt_of_eq (by omega : 25 * p.val + 24 < 50) N_0.symm⟩, rfl⟩
  have hf : (cfg0.win 4).flush t = true := (flush0_4 t).2 (by omega)
  obtain ⟨e0, e1, e2⟩ := index4 t
  have hmem : (ix3 p r 0 : S2x512x1.Idx) ∈ ((cfg0.win 4).blk t).view.set := by
    rw [mem_blk4]
    intro a
    match a with
    | ⟨0, _⟩ => show win0_4.index t (0 : Fin 3) * 1 ≤ p.val ∧ p.val < win0_4.index t (0 : Fin 3) * 1 + 1; omega
    | ⟨1, _⟩ => show win0_4.index t (1 : Fin 3) * 512 ≤ r.val ∧ r.val < win0_4.index t (1 : Fin 3) * 512 + 512; omega
    | ⟨2, _⟩ => show win0_4.index t (2 : Fin 3) * 1 ≤ 0 ∧ 0 < win0_4.index t (2 : Fin 3) * 1 + 1; omega
  exact (dats m 0 c).arrAt_apply_of_mem 4 (arrOf G) (fun t hf => flushed4_eq m c G hG t hf) cfg0.N
    t (ix3 p r 0) t.isLt hf hmem

/-! ## Output window 5 -/

/-- Where window 5's block sits at each grid point: block `t / 25` on the first axis, block 0 on the other two. -/
theorem index5 : ∀ t : Fin cfg0.N, win0_5.index t (0 : Fin 3) = t.val / 25 ∧ win0_5.index t (1 : Fin 3) = 0
    ∧ win0_5.index t (2 : Fin 3) = 0 :=
  (by decide +kernel : ∀ t : Fin grid0.N, _)

/-- WHAT A FLUSHING POINT WRITES BACK is its block of the whole-array function: the block is 1 × 512 × 1, its element
    (0, r, 0) sits in the array at (t / 25, r, 0), and there the hypothesis gives `G (t / 25) r`. -/
theorem flushed5_eq (c : Dev nD) (G : Fin 2 → Fin 512 → EReal)
    (hG : ∀ (t : Fin cfg0.N) (_ : t.val % 25 = 24) (r : Fin 512),
        ((outsAt0 m c t.val t.isLt).2.1 : FVec Ideal S1x512x1 .f32) (ix3 0 r 0)
          = G ⟨t.val / 25, by have := t.isLt; have : cfg0.N = 50 := N_0; omega⟩ r)
    (t : Fin cfg0.N) (hf : (cfg0.win 5).flush t = true) :
    (dats m 0 c).flushed 5 t = ((cfg0.win 5).blk t).view.read (Elt Ideal) (arrOf G) := by
  have h24 : t.val % 25 = 24 := (flush0_5 t).1 hf
  show (cfg0.win 5).cut (grid0.coords t) ((dats m 0 c).after 5 t) = _
  rw [after0_5]
  obtain ⟨e0, e1, e2⟩ := index5 t
  funext j
  have hj0 : (j 0).val < 1 := (j 0).isLt
  have hj1 : (j 1).val < 512 := (j 1).isLt
  have hj2 : (j 2).val < 1 := (j 2).isLt
  have hL : (cfg0.win 5).xinj (grid0.coords t) j = (ix3 0 ⟨(j 1).val, hj1⟩ 0 : S1x512x1.Idx) := by
    funext a
    apply Fin.ext
    match a with
    | ⟨0, _⟩ => show (j 0).val = 0; omega
    | ⟨1, _⟩ => rfl
    | ⟨2, _⟩ => show (j 2).val = 0; omega
  have hR : ((cfg0.win 5).blk t).view.emb j
      = (ix3 ⟨t.val / 25, by have := t.isLt; have : cfg0.N = 50 := N_0; omega⟩ ⟨(j 1).val, hj1⟩ 0 : S2x512x1.Idx) := by
    funext a
    apply Fin.ext
    match a with
    | ⟨0, _⟩ => show win0_5.index t (0 : Fin 3) * 1 + 1 * (j 0).val = t.val / 25; omega
    | ⟨1, _⟩ => show win0_5.index t (1 : Fin 3) * 512 + 1 * (j 1).val = (j 1).val; omega
    | ⟨2, _⟩ => show win0_5.index t (2 : Fin 3) * 1 + 1 * (j 2).val = 0; omega
  show ((outsAt0 m c t.val t.isLt).2.1 : FVec Ideal S1x512x1 .f32) ((cfg0.win 5).xinj (grid0.coords t) j)
    = arrOf G (((cfg0.win 5).blk t).view.emb j)
  rw [hL, hR]
  exact hG t h24 ⟨(j 1).val, hj1⟩

/-- An index of the array is in point `t`'s block iff each coordinate is in the block's range on its axis. -/
theorem mem_blk5 (t : Fin cfg0.N) (i : S2x512x1.Idx) :
    i ∈ ((cfg0.win 5).blk t).view.set ↔ ∀ a : Fin 3, win0_5.index t a * S1x512x1.size a ≤ (i a).val
      ∧ (i a).val < win0_5.index t a * S1x512x1.size a + S1x512x1.size a := by
  show i ∈ ((View.whole main_v15_1).slice (win0_5.rect t)).set ↔ _
  rw [View.set_slice_whole, Rect.mem_set_unit]
  exact Iff.rfl

/-- Output 5 after the region: half `p`'s block is what the half's last tile copied out. -/
theorem arr5_apply (c : Dev nD) (G : Fin 2 → Fin 512 → EReal)
    (hG : ∀ (t : Fin cfg0.N) (_ : t.val % 25 = 24) (r : Fin 512),
        ((outsAt0 m c t.val t.isLt).2.1 : FVec Ideal S1x512x1 .f32) (ix3 0 r 0)
          = G ⟨t.val / 25, by have := t.isLt; have : cfg0.N = 50 := N_0; omega⟩ r)
    (p : Fin 2) (r : Fin 512) :
    ((dats m 0 c).arrAt 5 cfg0.N : FVec Ideal S2x512x1 .f32) (ix3 p r 0) = G p r := by
  -- half `p`'s block is written back by the half's last tile, grid point 25 p + 24
  have hp : p.val < 2 := p.isLt
  have hr : r.val < 512 := r.isLt
  obtain ⟨t, htv⟩ : ∃ t : Fin cfg0.N, t.val = 25 * p.val + 24 :=
    ⟨⟨25 * p.val + 24, lt_of_lt_of_eq (by omega : 25 * p.val + 24 < 50) N_0.symm⟩, rfl⟩
  have hf : (cfg0.win 5).flush t = true := (flush0_5 t).2 (by omega)
  obtain ⟨e0, e1, e2⟩ := index5 t
  have hmem : (ix3 p r 0 : S2x512x1.Idx) ∈ ((cfg0.win 5).blk t).view.set := by
    rw [mem_blk5]
    intro a
    match a with
    | ⟨0, _⟩ => show win0_5.index t (0 : Fin 3) * 1 ≤ p.val ∧ p.val < win0_5.index t (0 : Fin 3) * 1 + 1; omega
    | ⟨1, _⟩ => show win0_5.index t (1 : Fin 3) * 512 ≤ r.val ∧ r.val < win0_5.index t (1 : Fin 3) * 512 + 512; omega
    | ⟨2, _⟩ => show win0_5.index t (2 : Fin 3) * 1 ≤ 0 ∧ 0 < win0_5.index t (2 : Fin 3) * 1 + 1; omega
  exact (dats m 0 c).arrAt_apply_of_mem 5 (arrOf G) (fun t hf => flushed5_eq m c G hG t hf) cfg0.N
    t (ix3 p r 0) t.isLt hf hmem

/-! ## Output window 6 -/

/-- Where window 6's block sits at each grid point: block `t / 25` on the first axis, block 0 on the other two. -/
theorem index6 : ∀ t : Fin cfg0.N, win0_6.index t (0 : Fin 3) = t.val / 25 ∧ win0_6.index t (1 : Fin 3) = 0
    ∧ win0_6.index t (2 : Fin 3) = 0 :=
  (by decide +kernel : ∀ t : Fin grid0.N, _)

/-- WHAT A FLUSHING POINT WRITES BACK is its block of the whole-array function: the block is 1 × 512 × 1, its element
    (0, r, 0) sits in the array at (t / 25, r, 0), and there the hypothesis gives `G (t / 25) r`. -/
theorem flushed6_eq (c : Dev nD) (G : Fin 2 → Fin 512 → EReal)
    (hG : ∀ (t : Fin cfg0.N) (_ : t.val % 25 = 24) (r : Fin 512),
        ((outsAt0 m c t.val t.isLt).2.2.1 : FVec Ideal S1x512x1 .f32) (ix3 0 r 0)
          = G ⟨t.val / 25, by have := t.isLt; have : cfg0.N = 50 := N_0; omega⟩ r)
    (t : Fin cfg0.N) (hf : (cfg0.win 6).flush t = true) :
    (dats m 0 c).flushed 6 t = ((cfg0.win 6).blk t).view.read (Elt Ideal) (arrOf G) := by
  have h24 : t.val % 25 = 24 := (flush0_6 t).1 hf
  show (cfg0.win 6).cut (grid0.coords t) ((dats m 0 c).after 6 t) = _
  rw [after0_6]
  obtain ⟨e0, e1, e2⟩ := index6 t
  funext j
  have hj0 : (j 0).val < 1 := (j 0).isLt
  have hj1 : (j 1).val < 512 := (j 1).isLt
  have hj2 : (j 2).val < 1 := (j 2).isLt
  have hL : (cfg0.win 6).xinj (grid0.coords t) j = (ix3 0 ⟨(j 1).val, hj1⟩ 0 : S1x512x1.Idx) := by
    funext a
    apply Fin.ext
    match a with
    | ⟨0, _⟩ => show (j 0).val = 0; omega
    | ⟨1, _⟩ => rfl
    | ⟨2, _⟩ => show (j 2).val = 0; omega
  have hR : ((cfg0.win 6).blk t).view.emb j
      = (ix3 ⟨t.val / 25, by have := t.isLt; have : cfg0.N = 50 := N_0; omega⟩ ⟨(j 1).val, hj1⟩ 0 : S2x512x1.Idx) := by
    funext a
    apply Fin.ext
    match a with
    | ⟨0, _⟩ => show win0_6.index t (0 : Fin 3) * 1 + 1 * (j 0).val = t.val / 25; omega
    | ⟨1, _⟩ => show win0_6.index t (1 : Fin 3) * 512 + 1 * (j 1).val = (j 1).val; omega
    | ⟨2, _⟩ => show win0_6.index t (2 : Fin 3) * 1 + 1 * (j 2).val = 0; omega
  show ((outsAt0 m c t.val t.isLt).2.2.1 : FVec Ideal S1x512x1 .f32) ((cfg0.win 6).xinj (grid0.coords t) j)
    = arrOf G (((cfg0.win 6).blk t).view.emb j)
  rw [hL, hR]
  exact hG t h24 ⟨(j 1).val, hj1⟩

/-- An index of the array is in point `t`'s block iff each coordinate is in the block's range on its axis. -/
theorem mem_blk6 (t : Fin cfg0.N) (i : S2x512x1.Idx) :
    i ∈ ((cfg0.win 6).blk t).view.set ↔ ∀ a : Fin 3, win0_6.index t a * S1x512x1.size a ≤ (i a).val
      ∧ (i a).val < win0_6.index t a * S1x512x1.size a + S1x512x1.size a := by
  show i ∈ ((View.whole main_v15_2).slice (win0_6.rect t)).set ↔ _
  rw [View.set_slice_whole, Rect.mem_set_unit]
  exact Iff.rfl

/-- Output 6 after the region: half `p`'s block is what the half's last tile copied out. -/
theorem arr6_apply (c : Dev nD) (G : Fin 2 → Fin 512 → EReal)
    (hG : ∀ (t : Fin cfg0.N) (_ : t.val % 25 = 24) (r : Fin 512),
        ((outsAt0 m c t.val t.isLt).2.2.1 : FVec Ideal S1x512x1 .f32) (ix3 0 r 0)
          = G ⟨t.val / 25, by have := t.isLt; have : cfg0.N = 50 := N_0; omega⟩ r)
    (p : Fin 2) (r : Fin 512) :
    ((dats m 0 c).arrAt 6 cfg0.N : FVec Ideal S2x512x1 .f32) (ix3 p r 0) = G p r := by
  -- half `p`'s block is written back by the half's last tile, grid point 25 p + 24
  have hp : p.val < 2 := p.isLt
  have hr : r.val < 512 := r.isLt
  obtain ⟨t, htv⟩ : ∃ t : Fin cfg0.N, t.val = 25 * p.val + 24 :=
    ⟨⟨25 * p.val + 24, lt_of_lt_of_eq (by omega : 25 * p.val + 24 < 50) N_0.symm⟩, rfl⟩
  have hf : (cfg0.win 6).flush t = true := (flush0_6 t).2 (by omega)
  obtain ⟨e0, e1, e2⟩ := index6 t
  have hmem : (ix3 p r 0 : S2x512x1.Idx) ∈ ((cfg0.win 6).blk t).view.set := by
    rw [mem_blk6]
    intro a
    match a with
    | ⟨0, _⟩ => show win0_6.index t (0 : Fin 3) * 1 ≤ p.val ∧ p.val < win0_6.index t (0 : Fin 3) * 1 + 1; omega
    | ⟨1, _⟩ => show win0_6.index t (1 : Fin 3) * 512 ≤ r.val ∧ r.val < win0_6.index t (1 : Fin 3) * 512 + 512; omega
    | ⟨2, _⟩ => show win0_6.index t (2 : Fin 3) * 1 ≤ 0 ∧ 0 < win0_6.index t (2 : Fin 3) * 1 + 1; omega
  exact (dats m 0 c).arrAt_apply_of_mem 6 (arrOf G) (fun t hf => flushed6_eq m c G hG t hf) cfg0.N
    t (ix3 p r 0) t.isLt hf hmem

end Cert.KernelIdeal.Out

end
-- ==== Proof.KerTail.lean ====
/-
  The host lines after the call: the two halves' running states are merged row by row (the larger maximum, the two
  sums rescaled to it and added, the two label logits added), the row's loss is log-sum-exp minus the label logit,
  and the result is the mean over the 512 rows.
-/
import proofs.«420439_j14474039788117_3_alg».proof.Proof.Gen.KernelIdeal.Frame
import proofs.«420439_j14474039788117_3_alg».proof.Proof.Spec
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.KernelIdeal.Tail

open Idealize.ShloMosaic Idealize.ShloMosaic.ValueIdx Idealize.ShloMosaic.TcCoe Idealize.SL.Sem
open Cert.KernelIdeal Cert.KernelIdeal.Gen Cert.Arc

variable (m : (ℓ : Loc nD τ sig) → Buf (Elt Ideal) ℓ)

/-- Two halves' states merged into a row's loss. -/
def mergeNll (m0 m1 l0 l1 t0 t1 : EReal) : EReal :=
  (max m0 m1 + Ideal.log (l0 * Ideal.exp (m0 - max m0 m1) + l1 * Ideal.exp (m1 - max m0 m1))) - (t0 + t1)

/-- The three output arrays after the region, at their literal type (2 halves × 512 rows × 1). -/
abbrev mArr (c : Dev nD) : FVec Ideal S2x512x1 .f32 := (dats m 0 c).arrAt 4 cfg0.N
abbrev lArr (c : Dev nD) : FVec Ideal S2x512x1 .f32 := (dats m 0 c).arrAt 5 cfg0.N
abbrev tArr (c : Dev nD) : FVec Ideal S2x512x1 .f32 := (dats m 0 c).arrAt 6 cfg0.N

/-! ## The three output arrays under the region's exit contents -/

/-- The region's exit contents at the first output buffer are the running maxima. -/
theorem exit_m (c : Dev nD) :
    Pipeline.withArrays (cfgs 0).spec c (V0 m c) (fun w => (dats m 0 c).arrAt w (cfgs 0).N) (Proc.devRef .tc main_v15_0) = mArr m c :=
  Pipeline.withArrays_arr (cfgs 0).spec launch0.win.arr_inj c (V0 m c) (fun w => (dats m 0 c).arrAt w (cfgs 0).N) 4

/-- At the second, the running sums. -/
theorem exit_l (c : Dev nD) :
    Pipeline.withArrays (cfgs 0).spec c (V0 m c) (fun w => (dats m 0 c).arrAt w (cfgs 0).N) (Proc.devRef .tc main_v15_1) = lArr m c :=
  Pipeline.withArrays_arr (cfgs 0).spec launch0.win.arr_inj c (V0 m c) (fun w => (dats m 0 c).arrAt w (cfgs 0).N) 5

/-- At the third, the label logits. -/
theorem exit_t (c : Dev nD) :
    Pipeline.withArrays (cfgs 0).spec c (V0 m c) (fun w => (dats m 0 c).arrAt w (cfgs 0).N) (Proc.devRef .tc main_v15_2) = tArr m c :=
  Pipeline.withArrays_arr (cfgs 0).spec launch0.win.arr_inj c (V0 m c) (fun w => (dats m 0 c).arrAt w (cfgs 0).N) 6

/-! ## A half of an array as a column -/

/-- Half `0` of a `2 × 512 × 1` array as a `512 × 1` column: the slice at offset `(0, 0, 0)`, then the reshape. -/
abbrev halfA (x : FVec Ideal S2x512x1 .f32) : FVec Ideal S512x1 .f32 :=
  shapeCast S512x1 (extractStridedSlice S1x512x1 ![0, 0, 0] x slices_S2x512x1_S1x512x1_0_0_0) shapeCasts_S1x512x1_S512x1

/-- Half `1`: the slice at offset `(1, 0, 0)`, then the reshape. -/
abbrev halfB (x : FVec Ideal S2x512x1 .f32) : FVec Ideal S512x1 .f32 :=
  shapeCast S512x1 (extractStridedSlice S1x512x1 ![1, 0, 0] x slices_S2x512x1_S1x512x1_1_0_0) shapeCasts_S1x512x1_S512x1

/-- Row `r` of half `0` is entry `(0, r, 0)`: the reshape keeps the row-major position, the slice shifts by its offset. -/
theorem halfA_apply (x : FVec Ideal S2x512x1 .f32) (r : Fin 512) : halfA x (ix2 r 0) = x (ix3 0 r 0) := by
  unfold halfA
  rw [shapeCast_apply _ shapeCasts_S1x512x1_S512x1 (ix2 r 0) (ix3 (0 : Fin 1) r 0) (by
    rw [Shape.rowMajor_val_three, Shape.rowMajor_val_two]
    show (0 * 512 + r.val) * 1 + 0 = r.val * 1 + 0
    omega)]
  exact extractStridedSlice_apply _ x _ _ _ fun a => match a with
    | ⟨0, _⟩ => rfl | ⟨1, _⟩ => (Nat.zero_add _).symm | ⟨2, _⟩ => rfl

/-- Row `r` of half `1` is entry `(1, r, 0)`. -/
theorem halfB_apply (x : FVec Ideal S2x512x1 .f32) (r : Fin 512) : halfB x (ix2 r 0) = x (ix3 1 r 0) := by
  unfold halfB
  rw [shapeCast_apply _ shapeCasts_S1x512x1_S512x1 (ix2 r 0) (ix3 (0 : Fin 1) r 0) (by
    rw [Shape.rowMajor_val_three, Shape.rowMajor_val_two]
    show (0 * 512 + r.val) * 1 + 0 = r.val * 1 + 0
    omega)]
  exact extractStridedSlice_apply _ x _ _ _ fun a => match a with
    | ⟨0, _⟩ => rfl | ⟨1, _⟩ => (Nat.zero_add _).symm | ⟨2, _⟩ => rfl

/-! ## The lines between the slices and the sum -/

/-- The column of row losses the host lines compute from the three arrays: maximum of the two halves' maxima, the two
    sums rescaled to it and added, the logarithm, plus the maximum, minus the two label logits' sum. -/
def rowsOf (M Lr T : FVec Ideal S2x512x1 .f32) : FVec Ideal S512x1 .f32 :=
  subf
    (addf (maximumf (halfA M) (halfB M))
      (Host.log
        (addf (mulf (halfA Lr) (Host.exp (subf (halfA M) (maximumf (halfA M) (halfB M)))))
          (mulf (halfB Lr) (Host.exp (subf (halfB M) (maximumf (halfA M) (halfB M))))))))
    (addf (halfA T) (halfB T))

/-- Row `r` of that column is the merge of the six entries of row `r`. -/
theorem rowsOf_apply (M Lr T : FVec Ideal S2x512x1 .f32) (r : Fin 512) :
    rowsOf M Lr T (ix2 r 0)
      = mergeNll (M (ix3 0 r 0)) (M (ix3 1 r 0)) (Lr (ix3 0 r 0)) (Lr (ix3 1 r 0)) (T (ix3 0 r 0)) (T (ix3 1 r 0)) := by
  show mergeNll (halfA M (ix2 r 0)) (halfB M (ix2 r 0)) (halfA Lr (ix2 r 0)) (halfB Lr (ix2 r 0)) (halfA T (ix2 r 0))
    (halfB T (ix2 r 0)) = _
  rw [halfA_apply, halfB_apply, halfA_apply, halfB_apply, halfA_apply, halfB_apply]

/-- The program's scalar result after the tail, as the mean of the merged rows. -/
theorem tail_result (c : Dev nD) (i : S_.Idx) :
    (Pipeline.afterTail₀ cfgs (dats m) 0 (V0 m) [hostOps1] c main_v41 : S_.Idx → EReal) i
      = Ideal.div (0 + ∑ r : Fin 512, mergeNll (mArr m c (ix3 0 r 0)) (mArr m c (ix3 1 r 0)) (lArr m c (ix3 0 r 0)) (lArr m c (ix3 1 r 0))
            (tArr m c (ix3 0 r 0)) (tArr m c (ix3 1 r 0)))
          (Ideal.ofBits .f32 0x44000000#32) := by
  unfold Pipeline.afterTail₀
  simp only [List.flatten_cons, List.flatten_nil, List.append_nil]
  after_results_simp
  rw [exit_m, exit_l, exit_t]
  change Ideal.div (Ideal.hostReduceAdd reducesTo_S512x1_S_d0_1 (rowsOf (mArr m c) (lArr m c) (tArr m c))
    (Ideal.ofBits .f32 0x00000000#32) i) (Ideal.ofBits .f32 0x44000000#32) = _
  rw [Ideal.hostReduceAdd_total _ (fun b => b.elim0), Ideal.ofBits_zero_f32, sum_idx2]
  have hrow : ∀ r : Fin 512, (∑ b : Fin 1, rowsOf (mArr m c) (lArr m c) (tArr m c) (ix2 r b))
      = mergeNll (mArr m c (ix3 0 r 0)) (mArr m c (ix3 1 r 0)) (lArr m c (ix3 0 r 0)) (lArr m c (ix3 1 r 0))
          (tArr m c (ix3 0 r 0)) (tArr m c (ix3 1 r 0)) :=
    fun r => (Fin.sum_univ_one _).trans (rowsOf_apply _ _ _ r)
  simp only [hrow]

end Cert.KernelIdeal.Tail

end
-- ==== Proof.StreamAlg.lean ====
/-
  The streaming softmax is the direct one.

  For a row of finite logits, folding tiles of 2000 columns — keeping the running maximum, the sum of exponentials
  rescaled to it, and the label's logit — over each half of the columns, then merging the halves, gives the same
  number as minus the log-softmax at the label's column.
-/
import proofs.«420439_j14474039788117_3_alg».proof.Proof.Spec
import Mathlib.Data.Finset.Fold
import Mathlib.Data.Fintype.BigOperators
import Mathlib.Data.Fintype.EquivFin
import Mathlib.Algebra.BigOperators.Fin
import Mathlib.Analysis.SpecialFunctions.Log.Basic

noncomputable section

namespace Cert.Arc

open Idealize.ShloMosaic

/-
  The road.  The proof never needs to know WHICH finite number a running maximum is, only that it is one: a state
  (m, l, t) of reals is tracked through the invariant  l · exp m = Σ exp (x c)  and  t = Σ [c = j0] x c  over the
  columns seen, and both losses then reduce to  log (Σ exp (x c)) − x j0, whatever finite number was subtracted inside.
-/

/-! ## Coercion of reals into the extended reals -/

/-- The coercion commutes with finite sums. -/
theorem coe_finset_sum {ι : Type*} (s : Finset ι) (f : ι → ℝ) :
    ((∑ i ∈ s, f i : ℝ) : EReal) = ∑ i ∈ s, ((f i : ℝ) : EReal) := by
  classical
  refine Finset.induction_on s ?_ ?_
  · simp
  · intro a s ha ih
    rw [Finset.sum_insert ha, Finset.sum_insert ha, EReal.coe_add, ih]

/-- The coercion commutes with the binary maximum. -/
theorem coe_max' (a b : ℝ) : ((max a b : ℝ) : EReal) = max (a : EReal) (b : EReal) :=
  EReal.coe_strictMono.monotone.map_max

/-- The coercion commutes with "this value or zero". -/
theorem ite_coe (c : Prop) [Decidable c] (a : ℝ) :
    (if c then ((a : ℝ) : EReal) else 0) = (((if c then a else 0) : ℝ) : EReal) := by
  split_ifs <;> simp

/-- The maximum, taken from −∞, of finitely many (at least one) finite numbers is a finite number. -/
theorem fold_max_coe_real {ι : Type*} (s : Finset ι) (hs : s.Nonempty) (f : ι → ℝ) :
    ∃ r : ℝ, s.fold max (⊥ : EReal) (fun i => ((f i : ℝ) : EReal)) = (r : EReal) := by
  have h1 : s.fold max (⊥ : EReal) (fun i => ((f i : ℝ) : EReal)) ≠ ⊥ := by
    obtain ⟨a, ha⟩ := hs
    have h : (⊥ : EReal) < s.fold max (⊥ : EReal) (fun i => ((f i : ℝ) : EReal)) :=
      (Finset.lt_fold_max _).mpr (Or.inr ⟨a, ha, EReal.bot_lt_coe _⟩)
    exact ne_of_gt h
  have h2 : s.fold max (⊥ : EReal) (fun i => ((f i : ℝ) : EReal)) ≠ ⊤ := by
    have h : s.fold max (⊥ : EReal) (fun i => ((f i : ℝ) : EReal)) < ⊤ :=
      (Finset.fold_max_lt _).mpr ⟨bot_lt_top, fun x _ => EReal.coe_lt_top _⟩
    exact ne_of_lt h
  exact ⟨_, (EReal.coe_toReal h2 h1).symm⟩

/-! ## One tile -/

/-- A tile's update of a state of finite numbers is a state of finite numbers; the rescaled sum times the
    exponential of the maximum grows by the tile's exponentials, the label's logit by the tile's share. -/
theorem tileStep_coe (xr : Fin 100000 → ℝ) (j0 : Fin 100000) (g : Nat) (m l t : ℝ) :
    ∃ m' l' t' : ℝ,
      tileStep (fun c => ((xr c : ℝ) : EReal)) (fun c => if c = j0 then ((xr c : ℝ) : EReal) else 0) g
          ((m : EReal), (l : EReal), (t : EReal)) = ((m' : EReal), (l' : EReal), (t' : EReal))
      ∧ l' * Real.exp m' = l * Real.exp m + ∑ j : Fin 2000, Real.exp (xr (col g j))
      ∧ t' = t + ∑ j : Fin 2000, (if col g j = j0 then xr (col g j) else 0) := by
  obtain ⟨r, hr⟩ := fold_max_coe_real (Finset.univ : Finset (Fin 2000)) Finset.univ_nonempty
    (fun j => xr (col g j))
  have e2 : Ideal.exp ((m : EReal) - ((max m r : ℝ) : EReal)) * (l : EReal)
        + ∑ j : Fin 2000, Ideal.exp (((xr (col g j) : ℝ) : EReal) - ((max m r : ℝ) : EReal))
      = ((Real.exp (m - max m r) * l + ∑ j : Fin 2000, Real.exp (xr (col g j) - max m r) : ℝ) : EReal) := by
    have hs : ∑ j : Fin 2000, Ideal.exp (((xr (col g j) : ℝ) : EReal) - ((max m r : ℝ) : EReal))
        = ∑ j : Fin 2000, ((Real.exp (xr (col g j) - max m r) : ℝ) : EReal) :=
      Finset.sum_congr rfl (fun j _ => by rw [← EReal.coe_sub, Ideal.exp_coe])
    rw [hs, ← coe_finset_sum, ← EReal.coe_sub, Ideal.exp_coe, ← EReal.coe_mul, ← EReal.coe_add]
  have e3 : (t : EReal) + ∑ j : Fin 2000, (if col g j = j0 then ((xr (col g j) : ℝ) : EReal) else 0)
      = ((t + ∑ j : Fin 2000, (if col g j = j0 then xr (col g j) else 0) : ℝ) : EReal) := by
    have hs : ∑ j : Fin 2000, (if col g j = j0 then ((xr (col g j) : ℝ) : EReal) else 0)
        = ∑ j : Fin 2000, (((if col g j = j0 then xr (col g j) else 0) : ℝ) : EReal) :=
      Finset.sum_congr rfl (fun j _ => ite_coe _ _)
    rw [hs, ← coe_finset_sum, ← EReal.coe_add]
  refine ⟨max m r, Real.exp (m - max m r) * l + ∑ j : Fin 2000, Real.exp (xr (col g j) - max m r),
    t + ∑ j : Fin 2000, (if col g j = j0 then xr (col g j) else 0), ?_, ?_, rfl⟩
  · unfold tileStep
    dsimp only
    rw [hr, ← coe_max', e2, e3]
  · have key : ∀ a : ℝ, Real.exp (a - max m r) * Real.exp (max m r) = Real.exp a := fun a => by
      rw [← Real.exp_add, sub_add_cancel]
    rw [add_mul, Finset.sum_mul, mul_right_comm, key, mul_comm]
    refine congrArg (fun z => l * Real.exp m + z) ?_
    exact Finset.sum_congr rfl (fun j _ => key _)

/-- The first tile, from the empty state (−∞, 0, 0). -/
theorem tileStep_bot (xr : Fin 100000 → ℝ) (j0 : Fin 100000) (g : Nat) :
    ∃ m' l' t' : ℝ,
      tileStep (fun c => ((xr c : ℝ) : EReal)) (fun c => if c = j0 then ((xr c : ℝ) : EReal) else 0) g
          ((⊥ : EReal), (0 : EReal), (0 : EReal)) = ((m' : EReal), (l' : EReal), (t' : EReal))
      ∧ l' * Real.exp m' = ∑ j : Fin 2000, Real.exp (xr (col g j))
      ∧ t' = ∑ j : Fin 2000, (if col g j = j0 then xr (col g j) else 0) := by
  obtain ⟨r, hr⟩ := fold_max_coe_real (Finset.univ : Finset (Fin 2000)) Finset.univ_nonempty
    (fun j => xr (col g j))
  have e2 : Ideal.exp ((⊥ : EReal) - (r : EReal)) * (0 : EReal)
        + ∑ j : Fin 2000, Ideal.exp (((xr (col g j) : ℝ) : EReal) - (r : EReal))
      = ((∑ j : Fin 2000, Real.exp (xr (col g j) - r) : ℝ) : EReal) := by
    rw [mul_zero, zero_add, coe_finset_sum]
    exact Finset.sum_congr rfl (fun j _ => by rw [← EReal.coe_sub, Ideal.exp_coe])
  have e3 : (0 : EReal) + ∑ j : Fin 2000, (if col g j = j0 then ((xr (col g j) : ℝ) : EReal) else 0)
      = ((∑ j : Fin 2000, (if col g j = j0 then xr (col g j) else 0) : ℝ) : EReal) := by
    rw [zero_add, coe_finset_sum]
    exact Finset.sum_congr rfl (fun j _ => ite_coe _ _)
  refine ⟨r, ∑ j : Fin 2000, Real.exp (xr (col g j) - r),
    ∑ j : Fin 2000, (if col g j = j0 then xr (col g j) else 0), ?_, ?_, rfl⟩
  · unfold tileStep
    dsimp only
    rw [hr, max_eq_right (bot_le : (⊥ : EReal) ≤ (r : EReal)), e2, e3]
  · rw [Finset.sum_mul]
    refine Finset.sum_congr rfl (fun j _ => ?_)
    rw [← Real.exp_add, sub_add_cancel]

/-! ## A half of the columns -/

/-- After one or more tiles a half's state is a state of finite numbers, with the invariant over the tiles seen. -/
theorem coreState_succ_real (xr : Fin 100000 → ℝ) (j0 : Fin 100000) (p k : Nat) :
    ∃ m l t : ℝ,
      coreState (fun c => ((xr c : ℝ) : EReal)) (fun c => if c = j0 then ((xr c : ℝ) : EReal) else 0) p (k + 1)
          = ((m : EReal), (l : EReal), (t : EReal))
      ∧ l * Real.exp m
          = ∑ i ∈ Finset.range (k + 1), ∑ j : Fin 2000, Real.exp (xr (col (25 * p + i) j))
      ∧ t = ∑ i ∈ Finset.range (k + 1), ∑ j : Fin 2000,
              (if col (25 * p + i) j = j0 then xr (col (25 * p + i) j) else 0) := by
  induction k with
  | zero =>
    obtain ⟨m, l, t, h, hl, ht⟩ := tileStep_bot xr j0 (25 * p + 0)
    refine ⟨m, l, t, ?_, ?_, ?_⟩
    · exact h
    · rw [Finset.sum_range_one]; exact hl
    · rw [Finset.sum_range_one]; exact ht
  | succ k ih =>
    obtain ⟨m, l, t, h, hl, ht⟩ := ih
    obtain ⟨m', l', t', h', hl', ht'⟩ := tileStep_coe xr j0 (25 * p + (k + 1)) m l t
    refine ⟨m', l', t', ?_, ?_, ?_⟩
    · rw [coreState, h]; exact h'
    · rw [Finset.sum_range_succ, ← hl]; exact hl'
    · rw [Finset.sum_range_succ, ← ht]; exact ht'

/-! ## The fifty tiles are the hundred thousand columns -/

/-- Tile g < 50 and offset j < 2000 name column 2000 g + j, each column once. -/
theorem col_bijective :
    Function.Bijective (fun x : Fin 50 × Fin 2000 => col x.1.val x.2) := by
  rw [Fintype.bijective_iff_injective_and_card]
  refine ⟨?_, by simp⟩
  rintro ⟨g, j⟩ ⟨g', j'⟩ h
  have hv : (2000 * g.val + j.val) % 100000 = (2000 * g'.val + j'.val) % 100000 := by
    have := congrArg Fin.val h
    simpa [col] using this
  have hg := g.isLt
  have hg' := g'.isLt
  have hj := j.isLt
  have hj' := j'.isLt
  have h1 : g.val = g'.val := by omega
  have h2 : j.val = j'.val := by omega
  exact Prod.ext (Fin.ext h1) (Fin.ext h2)

/-- The two halves' tile sums together are the sum over all columns. -/
theorem sum_tiles (f : Fin 100000 → ℝ) :
    (∑ i ∈ Finset.range (24 + 1), ∑ j : Fin 2000, f (col (25 * 0 + i) j))
      + (∑ i ∈ Finset.range (24 + 1), ∑ j : Fin 2000, f (col (25 * 1 + i) j))
      = ∑ c : Fin 100000, f c := by
  have h50 : ∑ i ∈ Finset.range (25 + 25), ∑ j : Fin 2000, f (col i j) = ∑ c : Fin 100000, f c := by
    rw [← Fin.sum_univ_eq_sum_range (fun i => ∑ j : Fin 2000, f (col i j)) (25 + 25),
      ← Fintype.sum_prod_type' (fun (g : Fin (25 + 25)) (j : Fin 2000) => f (col g.val j))]
    exact Fintype.sum_bijective _ col_bijective _ _ (fun _ => rfl)
  rw [← h50, Finset.sum_range_add _ 25 25]
  simp only [Nat.mul_zero, Nat.zero_add, Nat.mul_one, Nat.reduceAdd]

/-! ## The two losses -/

/-- The streaming loss of a row of finite logits equals the direct loss at the label's column `j0`. -/
theorem nllStream_eq_nllDirect (xr : Fin 100000 → ℝ) (j0 : Fin 100000) :
    nllStream (fun c => ((xr c : ℝ) : EReal)) (fun c => if c = j0 then ((xr c : ℝ) : EReal) else 0)
      = nllDirect (fun c => ((xr c : ℝ) : EReal)) j0 := by
  obtain ⟨m0, l0, t0, h0, hl0, ht0⟩ := coreState_succ_real xr j0 0 24
  obtain ⟨m1, l1, t1, h1, hl1, ht1⟩ := coreState_succ_real xr j0 1 24
  obtain ⟨R, hR⟩ := fold_max_coe_real (Finset.univ : Finset (Fin 100000)) Finset.univ_nonempty xr
  -- the two halves together see every column once
  have hL : l0 * Real.exp m0 + l1 * Real.exp m1 = ∑ c : Fin 100000, Real.exp (xr c) := by
    rw [hl0, hl1]
    exact sum_tiles (fun c => Real.exp (xr c))
  have hT : t0 + t1 = xr j0 := by
    rw [ht0, ht1]
    exact (sum_tiles (fun c => if c = j0 then xr c else 0)).trans (by simp)
  have hLpos : 0 < ∑ c : Fin 100000, Real.exp (xr c) :=
    Finset.sum_pos (fun c _ => Real.exp_pos _) Finset.univ_nonempty
  have split : ∀ a b : ℝ, Real.exp (a - b) = Real.exp a * Real.exp (-b) := fun a b => by
    rw [sub_eq_add_neg, Real.exp_add]
  -- the merged sum of exponentials, in reals
  have hA : l0 * Real.exp (m0 - max m0 m1) + l1 * Real.exp (m1 - max m0 m1)
      = (∑ c : Fin 100000, Real.exp (xr c)) * Real.exp (-(max m0 m1)) := by
    rw [split m0, split m1, ← hL]
    ring
  have hApos : 0 < l0 * Real.exp (m0 - max m0 m1) + l1 * Real.exp (m1 - max m0 m1) := by
    rw [hA]
    exact mul_pos hLpos (Real.exp_pos _)
  have hAlog : Real.log (l0 * Real.exp (m0 - max m0 m1) + l1 * Real.exp (m1 - max m0 m1))
      = Real.log (∑ c : Fin 100000, Real.exp (xr c)) - max m0 m1 := by
    rw [hA, Real.log_mul hLpos.ne' (Real.exp_pos _).ne', Real.log_exp]
    ring
  -- the direct sum of exponentials, in reals
  have hB : ∑ c : Fin 100000, Real.exp (xr c - R)
      = (∑ c : Fin 100000, Real.exp (xr c)) * Real.exp (-R) := by
    rw [Finset.sum_mul]
    exact Finset.sum_congr rfl (fun c _ => split _ _)
  have hBpos : 0 < ∑ c : Fin 100000, Real.exp (xr c - R) := by
    rw [hB]
    exact mul_pos hLpos (Real.exp_pos _)
  have hBlog : Real.log (∑ c : Fin 100000, Real.exp (xr c - R))
      = Real.log (∑ c : Fin 100000, Real.exp (xr c)) - R := by
    rw [hB, Real.log_mul hLpos.ne' (Real.exp_pos _).ne', Real.log_exp]
    ring
  -- the streaming side
  have lhs : nllStream (fun c => ((xr c : ℝ) : EReal)) (fun c => if c = j0 then ((xr c : ℝ) : EReal) else 0)
      = ((Real.log (∑ c : Fin 100000, Real.exp (xr c)) - xr j0 : ℝ) : EReal) := by
    have h0' : coreState (fun c => ((xr c : ℝ) : EReal)) (fun c => if c = j0 then ((xr c : ℝ) : EReal) else 0) 0 25
        = ((m0 : EReal), (l0 : EReal), (t0 : EReal)) := h0
    have h1' : coreState (fun c => ((xr c : ℝ) : EReal)) (fun c => if c = j0 then ((xr c : ℝ) : EReal) else 0) 1 25
        = ((m1 : EReal), (l1 : EReal), (t1 : EReal)) := h1
    have E0 : Ideal.exp ((m0 : EReal) - ((max m0 m1 : ℝ) : EReal)) = ((Real.exp (m0 - max m0 m1) : ℝ) : EReal) := by
      rw [← EReal.coe_sub, Ideal.exp_coe]
    have E1 : Ideal.exp ((m1 : EReal) - ((max m0 m1 : ℝ) : EReal)) = ((Real.exp (m1 - max m0 m1) : ℝ) : EReal) := by
      rw [← EReal.coe_sub, Ideal.exp_coe]
    have EA : (l0 : EReal) * Ideal.exp ((m0 : EReal) - ((max m0 m1 : ℝ) : EReal))
          + (l1 : EReal) * Ideal.exp ((m1 : EReal) - ((max m0 m1 : ℝ) : EReal))
        = ((l0 * Real.exp (m0 - max m0 m1) + l1 * Real.exp (m1 - max m0 m1) : ℝ) : EReal) := by
      rw [E0, E1, EReal.coe_add, EReal.coe_mul, EReal.coe_mul]
    have ELog : Ideal.log ((l0 * Real.exp (m0 - max m0 m1) + l1 * Real.exp (m1 - max m0 m1) : ℝ) : EReal)
        = ((Real.log (l0 * Real.exp (m0 - max m0 m1) + l1 * Real.exp (m1 - max m0 m1)) : ℝ) : EReal) := by
      rw [Ideal.log_coe, if_neg (not_le.mpr hApos)]
    unfold nllStream
    dsimp only
    rw [h0', h1']
    dsimp only
    rw [← coe_max', EA, ELog, ← EReal.coe_add, ← EReal.coe_add, ← EReal.coe_sub, hAlog, hT]
    exact congrArg Real.toEReal (by ring)
  -- the direct side
  have rhs : nllDirect (fun c => ((xr c : ℝ) : EReal)) j0
      = ((Real.log (∑ c : Fin 100000, Real.exp (xr c)) - xr j0 : ℝ) : EReal) := by
    have hrow : rowMax (fun c => ((xr c : ℝ) : EReal)) = (R : EReal) := by
      unfold rowMax
      rw [hR]
      exact max_eq_right bot_le
    have hs : ∑ c : Fin 100000, Ideal.exp (((xr c : ℝ) : EReal) - (R : EReal))
        = ∑ c : Fin 100000, ((Real.exp (xr c - R) : ℝ) : EReal) :=
      Finset.sum_congr rfl (fun c _ => by rw [← EReal.coe_sub, Ideal.exp_coe])
    show -((((xr j0 : ℝ) : EReal) - rowMax (fun c => ((xr c : ℝ) : EReal)))
        - Ideal.log (0 + ∑ c : Fin 100000,
            Ideal.exp (((xr c : ℝ) : EReal) - rowMax (fun c => ((xr c : ℝ) : EReal))))) = _
    rw [hrow, hs, ← coe_finset_sum, zero_add, Ideal.log_coe, if_neg (not_le.mpr hBpos), ← EReal.coe_sub,
      ← EReal.coe_sub, ← EReal.coe_neg, hBlog]
    exact congrArg Real.toEReal (by ring)
  rw [lhs, rhs]

end Cert.Arc

end
-- ==== Proof.KerValue.lean ====
/-
  The kernel's result is the mean direct loss.

  Under the precondition every entry is finite and every row has positive norm, so the body's three-term cosine is the
  plain cosine and every logit is a real number; the label test picks exactly the label's column; the streaming fold
  over the two halves, merged by the host lines after the call, is then minus the log-softmax at the label's column.
-/
import proofs.«420439_j14474039788117_3_alg».proof.Proof.KerGrid
import proofs.«420439_j14474039788117_3_alg».proof.Proof.KerOut
import proofs.«420439_j14474039788117_3_alg».proof.Proof.KerTail
import proofs.«420439_j14474039788117_3_alg».proof.Proof.StreamAlg

set_option maxRecDepth 16384

noncomputable section

namespace Cert.KernelIdeal.KValue

open Idealize.ShloMosaic Idealize.ShloMosaic.ValueIdx Idealize.ShloMosaic.TcCoe Idealize.SL.Sem
open Cert.KernelIdeal Cert.KernelIdeal.Gen Cert.KernelIdeal.Fold Cert.KernelIdeal.Grid Cert.Arc

variable [Cert.KernelIdeal.Facts]
variable (m : (ℓ : Loc nD τ sig) → Buf (Elt Ideal) ℓ) (c : Dev nD)
variable (hA : ∀ i, ∃ a : ℝ, Blocks.argA m c i = (a : EReal)) (hB : ∀ i, ∃ a : ℝ, Blocks.argB m c i = (a : EReal))
  (hW : ∀ i, ∃ a : ℝ, Blocks.argW m c i = (a : EReal)) (hL : ∀ i, (Blocks.argL m c i).toNat < 100000)
  (hEs : ∀ r, 0 < sumsq (embOf (Blocks.argA m c) (Blocks.argB m c)) r) (hWs : ∀ c', 0 < sumsq (wOf (Blocks.argW m c)) c')

include hA hB in
theorem emb_real : ∀ r k, ∃ a : ℝ, Ef m c r k = (a : EReal) := by
  intro r k
  unfold Ef embOf
  split
  · exact hA _
  · exact hB _

include hW in
theorem w_real : ∀ c' k, ∃ a : ℝ, Wf m c c' k = (a : EReal) := fun _ _ => hW _

include hA hB hW hEs hWs in
/-- The logits the body forms are the row's logits. -/
theorem klogits_eq (r : Fin 512) : klogits (Ef m c) (Wf m c) (Lf m c) r = rowLogits (Blocks.argA m c) (Blocks.argB m c) (Blocks.argW m c) (Blocks.argL m c) r := by
  funext c'
  have e : kcos (Ef m c) (Wf m c) r c' = cosS (Ef m c) (Wf m c) r c' :=
    cos_three_terms (Ef m c) (Wf m c) (emb_real m c hA hB) (w_real m c hW) hEs hWs r c'
  show logitOf _ (kcos (Ef m c) (Wf m c) r c') = logitOf _ (cosS (Ef m c) (Wf m c) r c')
  rw [e]

include hL in
/-- A column carries the row's label exactly when it is the label's column. -/
theorem hot_iff (r : Fin 512) (c' : Fin 100000) :
    BitVec.ofNat 32 c'.val = Lf m c r ↔ c' = labCol (Blocks.argL m c) hL r := by
  have hc := c'.isLt
  constructor
  · intro h
    apply Fin.ext
    show c'.val = (labOf (Blocks.argL m c) r).toNat
    have : (BitVec.ofNat 32 c'.val).toNat = c'.val := by
      rw [BitVec.toNat_ofNat]; exact Nat.mod_eq_of_lt (by omega)
    rw [← this, h]
  · intro h
    subst h
    show BitVec.ofNat 32 (labOf (Blocks.argL m c) r).toNat = labOf (Blocks.argL m c) r
    simp

include hA hB hW hL hEs hWs in
/-- A row's streaming loss is its direct loss. -/
theorem row_nll (r : Fin 512) :
    nllStream (klogits (Ef m c) (Wf m c) (Lf m c) r) (khot (Ef m c) (Wf m c) (Lf m c) r) = nllDirect (rowLogits (Blocks.argA m c) (Blocks.argB m c) (Blocks.argW m c) (Blocks.argL m c) r) (labCol (Blocks.argL m c) hL r) := by
  have hreal : ∀ c', ∃ a : ℝ, klogits (Ef m c) (Wf m c) (Lf m c) r c' = (a : EReal) := fun c' => by
    rw [klogits_eq m c hA hB hW hEs hWs r]
    exact logit_real (Ef m c) (Wf m c) (emb_real m c hA hB) (w_real m c hW) hEs hWs _ r c'
  choose xr hxr using hreal
  have hx : klogits (Ef m c) (Wf m c) (Lf m c) r = fun c' => ((xr c' : ℝ) : EReal) := funext hxr
  have hy : khot (Ef m c) (Wf m c) (Lf m c) r
      = fun c' => if c' = labCol (Blocks.argL m c) hL r then ((xr c' : ℝ) : EReal) else 0 := by
    funext c'
    unfold khot
    by_cases h : BitVec.ofNat 32 c'.val = Lf m c r
    · rw [if_pos h, if_pos ((hot_iff m c hL r c').mp h), hxr]
    · rw [if_neg h, if_neg (fun e => h ((hot_iff m c hL r c').mpr e))]
  rw [hy, hx, nllStream_eq_nllDirect xr (labCol (Blocks.argL m c) hL r), ← hx, klogits_eq m c hA hB hW hEs hWs r]

include hA hB hW hL hEs hWs in
/-- The kernel program's scalar result is the mean direct loss. -/
theorem kernel_value :
    Pipeline.afterTail₀ cfgs (dats m) 0 (V0 m) [hostOps1] c main_v41 = fun _ => lossDirect (Blocks.argA m c) (Blocks.argB m c) (Blocks.argW m c) (Blocks.argL m c) hL := by
  funext i
  refine (Tail.tail_result m c i).trans ?_
  have h4 := Out.arr4_apply m c (fun p r => (coreState (klogits (Ef m c) (Wf m c) (Lf m c) r) (khot (Ef m c) (Wf m c) (Lf m c) r) p.val 25).1)
    (fun t h1 r => congrArg Prod.fst (out_state m c t h1 r))
  have h5 := Out.arr5_apply m c (fun p r => (coreState (klogits (Ef m c) (Wf m c) (Lf m c) r) (khot (Ef m c) (Wf m c) (Lf m c) r) p.val 25).2.1)
    (fun t h1 r => congrArg (fun s => s.2.1) (out_state m c t h1 r))
  have h6 := Out.arr6_apply m c (fun p r => (coreState (klogits (Ef m c) (Wf m c) (Lf m c) r) (khot (Ef m c) (Wf m c) (Lf m c) r) p.val 25).2.2)
    (fun t h1 r => congrArg (fun s => s.2.2) (out_state m c t h1 r))
  have hrow : ∀ r : Fin 512,
      Tail.mergeNll (Tail.mArr m c (ix3 0 r 0)) (Tail.mArr m c (ix3 1 r 0)) (Tail.lArr m c (ix3 0 r 0)) (Tail.lArr m c (ix3 1 r 0))
        (Tail.tArr m c (ix3 0 r 0)) (Tail.tArr m c (ix3 1 r 0))
        = nllDirect (rowLogits (Blocks.argA m c) (Blocks.argB m c) (Blocks.argW m c) (Blocks.argL m c) r) (labCol (Blocks.argL m c) hL r) := by
    intro r
    rw [show Tail.mArr m c (ix3 0 r 0) = _ from h4 0 r, show Tail.mArr m c (ix3 1 r 0) = _ from h4 1 r,
      show Tail.lArr m c (ix3 0 r 0) = _ from h5 0 r, show Tail.lArr m c (ix3 1 r 0) = _ from h5 1 r,
      show Tail.tArr m c (ix3 0 r 0) = _ from h6 0 r, show Tail.tArr m c (ix3 1 r 0) = _ from h6 1 r]
    exact row_nll m c hA hB hW hL hEs hWs r
  unfold lossDirect
  simp only [hrow]

end Cert.KernelIdeal.KValue

end
-- ==== Proof.RefValue.lean ====
/-
  The reference's result, read back: the mean over the 512 rows of minus the log-softmax of the row's scaled logits
  at the row's label, the logits built from the cosines of normalised rows with the margin at the label's column.
-/
import proofs.«420439_j14474039788117_3_alg».proof.Proof.RefRead
import proofs.«420439_j14474039788117_3_alg».proof.Proof.Spec
import Idealize.ShloMosaic.Lib.ValueIdx
import Idealize.ShloMosaic.Lib.ValueIdxRank1
import Idealize.ShloMosaic.Lib.StableHlo.Predicate
import Idealize.ShloMosaic.Lib.Pipeline.Value
import Idealize.ShloMosaic.PureOps.Ideal.Laws

noncomputable section

namespace Cert.ReferenceIdeal.RefValue

open Idealize.ShloMosaic Cert.ReferenceIdeal Cert.Arc

variable [Cert.ReferenceIdeal.Facts]

open Idealize.ShloMosaic.ValueIdx Idealize.ShloMosaic.StableHlo.Predicate Cert.ReferenceIdeal.ReadP

/-! ## Four operations at a symbolic index: the row join, the row maximum, the bounds test, the take along the columns -/

/-- Two 256-row arrays joined along the rows, read at row `r`: the first array's row `r` below 256, else the second
    array's row `r − 256`. -/
theorem concat_rows_apply {α : Type} (h : Shape.Concatenates [S256x512, S256x512] S512x512 0) (x₁ x₂ : S256x512.Idx → α)
    (r k : Fin 512) :
    concatenate S512x512 0 [⟨S256x512, x₁⟩, ⟨S256x512, x₂⟩] h (ix2 r k)
      = if hr : r.val < 256 then x₁ (ix2 ⟨r.val, hr⟩ k) else x₂ (ix2 ⟨r.val - 256, by omega⟩ k) := by
  by_cases hr : r.val < 256
  · rw [dif_pos hr]
    exact concatenate_pair_apply_left 0 x₁ x₂ h (ix2 r k) rfl (ix2 ⟨r.val, hr⟩ k)
      (fun b => by match b with | ⟨0, _⟩ => rfl | ⟨1, _⟩ => rfl)
  · rw [dif_neg hr]
    exact concatenate_pair_apply_right 0 x₁ x₂ h (ix2 r k) rfl rfl (ix2 ⟨r.val - 256, by omega⟩ k)
      (fun b hb => by match b with | ⟨0, _⟩ => exact absurd rfl hb | ⟨1, _⟩ => rfl)
      (by show r.val - 256 + 256 = r.val; omega)

/-- A maximum-reduce along the columns, read at row `r`: the fold of `max` over the row from the initial value. -/
theorem reduce_max_row_apply (h' : S512x100000.ReducesTo [1] S512) (hu : 0 < S_.numel) (x : FVec Ideal S512x100000 .f32)
    (init : FVec Ideal S_ .f32) (r : Fin 512) :
    Host.reduce (FloatOps.maximumf (F := Ideal) (φ := .f32)) x init h' hu (ix1 r)
      = (Finset.univ : Finset (Fin 100000)).fold max (init (Shape.Idx.first hu)) (fun c => x (ix2 r c)) := by
  rw [Host.reduce_eq_fold_single (FloatOps.maximumf (F := Ideal) (φ := .f32)) x init h' (by decide) hu (ix1 r)]
  refine Finset.fold_congr (fun c _ => ?_)
  exact congrArg x (funext fun a => Fin.ext (by match a with | ⟨0, _⟩ => rfl | ⟨1, _⟩ => rfl))

/-- An and-reduce over an axis of extent one: the one element and the initial value. -/
theorem reduce_and_unit_apply (h' : S512x1x1.ReducesTo [2] S512x1) (hu : 0 < S_.numel) (x : IVec S512x1x1 1)
    (init : IVec S_ 1) (r : Fin 512) :
    Host.reduce IntOp.andi x init h' hu (ix2 r (0 : Fin 1))
      = IntOp.andi (x (ix3 r (0 : Fin 1) (0 : Fin 1))) (init (Shape.Idx.first hu)) := by
  rw [Host.reduce_eq_fold_single IntOp.andi x init h' (by decide) hu (ix2 r (0 : Fin 1))]
  refine (Finset.fold_singleton (α := Fin 1) (a := (0 : Fin 1))).trans ?_
  refine congrArg (IntOp.andi · _) ?_
  exact congrArg x (funext fun a => Fin.ext (by match a with | ⟨0, _⟩ => rfl | ⟨1, _⟩ => rfl | ⟨2, _⟩ => rfl))

/-- The take along the columns, read at row `r`: the row's element at the start index, read signed and clamped into
    the columns. Axis 0 is a batching axis (its coordinate is the result's), axis 1 is collapsed and indexed. -/
theorem gather_along_apply {α : Type} {w : Nat} (x : S512x100000.Idx → α) (idx : IVec S512x1x1 w) (r : Fin 512) :
    Host.gather gather_S512x100000_S512x1x1_S512x1_n_1_0_0_1_2_11 x idx (ix2 r (0 : Fin 1))
      = x (ix2 r ⟨min (idx (ix3 r (0 : Fin 1) (0 : Fin 1))).toInt.toNat 99999, by omega⟩) := by
  unfold Host.gather
  congr 1
  funext a
  refine Fin.ext ?_
  match a with
  | ⟨0, _⟩ =>
    show gather_S512x100000_S512x1x1_S512x1_n_1_0_0_1_2_11.start (ix2 r 0) idx 0
      + gather_S512x100000_S512x1x1_S512x1_n_1_0_0_1_2_11.batchCoord (ix2 r 0) 0
      + gather_S512x100000_S512x1x1_S512x1_n_1_0_0_1_2_11.offCoord (ix2 r 0) 0 = r.val
    rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 2) ∈ gather_S512x100000_S512x1x1_S512x1_n_1_0_0_1_2_11.operandBatchingDims
      from List.mem_singleton.mpr rfl)]
    simp only [Nat.zero_add, Nat.add_zero]
    rfl
  | ⟨1, _⟩ =>
    show gather_S512x100000_S512x1x1_S512x1_n_1_0_0_1_2_11.start (ix2 r 0) idx 1
      + gather_S512x100000_S512x1x1_S512x1_n_1_0_0_1_2_11.batchCoord (ix2 r 0) 1
      + gather_S512x100000_S512x1x1_S512x1_n_1_0_0_1_2_11.offCoord (ix2 r 0) 1 = _
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S512x100000_S512x1x1_S512x1_n_1_0_0_1_2_11.startIndexMap
      from List.mem_singleton.mpr rfl)]
    have hsi : gather_S512x100000_S512x1x1_S512x1_n_1_0_0_1_2_11.siIdx (ix2 r 0)
        ⟨List.idxOf (1 : Fin 2) gather_S512x100000_S512x1x1_S512x1_n_1_0_0_1_2_11.startIndexMap,
          List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

/-! ## Words -/

/-- The pattern of −∞. -/
theorem ofBits_neg_inf : Ideal.ofBits .f32 0xFF800000#32 = ⊥ := by simp [Ideal.ofBits, Ideal.ieee]

/-- A select on a word equality is the `if` on the equality. -/
theorem select_cmpi_eq {α : Type} (a b : BitVec 32) (u v : α) :
    Scalar.select (IntOp.cmpi .eq a b) u v = if a = b then u else v := by
  by_cases h : a = b
  · rw [if_pos h, cmpi_eq_iff.mpr h]; exact select_one u v
  · rw [if_neg h, eq_zero_of_ne_one (fun e => h (cmpi_eq_iff.mp e))]; exact select_zero u v

/-! ## The stages -/

section Stages

variable (A B : FVec Ideal S256x512 .f32) (W : FVec Ideal S100000x512 .f32) (L : IVec S256 32)

/-- The concatenation's rows are the embedding rows. -/
theorem v0_eq (r k : Fin 512) : val_main_v0 (F := Ideal) A B (ix2 r k) = embOf A B r k := by
  unfold val_main_v0 embOf
  exact concat_rows_apply _ A B r k

/-- An embedding row divided by its norm. -/
theorem v6_eq (r k : Fin 512) : val_main_v6 (F := Ideal) A B (ix2 r k) = nrm (embOf A B) r k := by
  rw [val_main_v6_apply, val_main_v5_apply, val_main_v4_apply, val_main_call0_v2_apply, val_main_call0_v1_apply]
  have hidx : ∀ k', idx_main_call0_v1 (idx_main_call0_v2 (idx_main_v5 (ix2 r k))) k' = ix2 r k' := fun k' =>
    funext fun a => Fin.ext (by match a with | ⟨0, _⟩ => rfl | ⟨1, _⟩ => rfl)
  simp only [val_main_call0_v0_apply, val_main_call0_cst_apply, hidx, v0_eq, Ideal.hostDivf_def, Ideal.hostUnary_sqrt_def,
    Ideal.mulf_def, Ideal.ofBits_def, Ideal.ofBits_zero_f32]
  rfl

/-- A class row divided by its norm. -/
theorem v9_eq (c : Fin 100000) (k : Fin 512) : val_main_v9 (F := Ideal) W (ix2 c k) = nrm (wOf W) c k := by
  rw [val_main_v9_apply, val_main_v8_apply, val_main_v7_apply, val_main_call1_v2_apply, val_main_call1_v1_apply]
  have hidx : ∀ k', idx_main_call1_v1 (idx_main_call1_v2 (idx_main_v8 (ix2 c k))) k' = ix2 c k' := fun k' =>
    funext fun a => Fin.ext (by match a with | ⟨0, _⟩ => rfl | ⟨1, _⟩ => rfl)
  simp only [val_main_call1_v0_apply, val_main_call1_cst_apply, hidx, Ideal.hostDivf_def, Ideal.hostUnary_sqrt_def,
    Ideal.mulf_def, Ideal.ofBits_def, Ideal.ofBits_zero_f32]
  rfl

/-- The contraction is the cosine. -/
theorem v10_eq (r : Fin 512) (c : Fin 100000) :
    val_main_v10 (F := Ideal) A B W (ix2 r c) = cosS (embOf A B) (wOf W) r c := by
  rw [val_main_v10_apply]
  unfold cosS
  refine Finset.sum_congr rfl fun k _ => ?_
  have hl : lidx_main_v10 (ix2 r c) k = ix2 r k :=
    funext fun a => Fin.ext (by match a with | ⟨0, _⟩ => rfl | ⟨1, _⟩ => rfl)
  have hr : ridx_main_v10 (ix2 r c) k = ix2 c k :=
    funext fun a => Fin.ext (by match a with | ⟨0, _⟩ => rfl | ⟨1, _⟩ => rfl)
  rw [hl, hr, v6_eq, v9_eq]

/-- The margin map on the cosine. -/
theorem v25_eq (r : Fin 512) (c : Fin 100000) :
    val_main_v25 (F := Ideal) A B W (ix2 r c) = marg (cosS (embOf A B) (wOf W) r c) := by
  simp only [val_main_v25_apply, val_main_v22_apply, val_main_v20_apply, val_main_v24_apply, val_main_v17_apply,
    val_main_v19_apply, val_main_v15_apply, val_main_v14_apply, val_main_call2_v2_apply, val_main_call2_v4_apply,
    val_main_call2_v3_apply, val_main_call2_v1_apply, val_main_call2_v0_apply, val_main_v13_apply, val_main_v12_apply,
    val_main_v11_apply, val_main_v16_apply, val_main_v18_apply, val_main_v21_apply, val_main_v23_apply,
    val_main_cst_apply, val_main_cst_0_apply, val_main_cst_1_apply, val_main_cst_2_apply, val_main_cst_3_apply,
    val_main_cst_4_apply, val_main_cst_5_apply, v10_eq, Ideal.mulf_def, Ideal.subf_def, Ideal.maximumf_def,
    Ideal.minimumf_def, Ideal.hostUnary_sqrt_def, Ideal.ofBits_def]
  rfl

/-- The tiled labels. -/
theorem lab_eq (r : Fin 512) : val_main_v3 (F := Ideal) L (ix1 r) = labOf L r := by
  rw [val_main_v3_apply, val_main_v2_apply, val_main_v1_apply]
  unfold labOf
  exact congrArg L (funext fun a => Fin.ext (by
    match a with
    | ⟨0, _⟩ => show 0 * 256 + r.val % 256 = r.val % 256; omega))

/-- The scaled logits. -/
theorem v34_eq (r : Fin 512) (c : Fin 100000) :
    val_main_v34 (F := Ideal) A B W L (ix2 r c) = rowLogits A B W L r c := by
  have h28 : idx_main_v28 (idx_main_v30 (ix2 r c)) = ix1 r :=
    funext fun a => Fin.ext (by match a with | ⟨0, _⟩ => rfl)
  simp only [val_main_v34_apply, val_main_v33_apply, val_main_cst_6_apply, val_main_v32_apply, val_main_v31_apply,
    val_main_v29_apply, val_main_v27_apply, val_main_v26_apply, val_main_v30_apply, val_main_v28_apply, h28, lab_eq,
    v25_eq, v10_eq, select_cmpi_eq, Ideal.mulf_def, Ideal.ofBits_def]
  rfl

/-- The row's maximum. -/
theorem rowmax_eq (r : Fin 512) :
    val_main_call5_v2 (F := Ideal) A B W L (ix1 r) = rowMax (rowLogits A B W L r) := by
  rw [val_main_call5_v2_apply, val_main_call5_v1_apply, val_main_call5_cst_0_apply]
  unfold val_main_call5_v0
  rw [reduce_max_row_apply]
  simp only [val_main_call5_cst_apply, v34_eq, Ideal.maximumf_def, Ideal.ofBits_def, ofBits_neg_inf]
  rfl

/-- The shifted logits. -/
theorem v5_eq (r : Fin 512) (c : Fin 100000) :
    val_main_call5_v5 (F := Ideal) A B W L (ix2 r c) = rowLogits A B W L r c - rowMax (rowLogits A B W L r) := by
  have h : idx_main_call5_v3 (idx_main_call5_v4 (ix2 r c)) = ix1 r :=
    funext fun a => Fin.ext (by match a with | ⟨0, _⟩ => rfl)
  rw [val_main_call5_v5_apply, val_main_call5_v4_apply, val_main_call5_v3_apply, v34_eq, h, rowmax_eq]
  rfl

/-- The log-softmax. -/
theorem v35_eq (r : Fin 512) (c : Fin 100000) :
    val_main_v35 (F := Ideal) A B W L (ix2 r c)
      = (rowLogits A B W L r c - rowMax (rowLogits A B W L r))
        - Ideal.log (0 + ∑ c' : Fin 100000, Ideal.exp (rowLogits A B W L r c' - rowMax (rowLogits A B W L r))) := by
  have hidx : ∀ k, idx_main_call5_v7 (idx_main_call5_v8 (idx_main_call5_v10 (ix2 r c))) k = ix2 r k := fun k =>
    funext fun a => Fin.ext (by match a with | ⟨0, _⟩ => rfl | ⟨1, _⟩ => rfl)
  rw [val_main_v35_apply, v5_eq, val_main_call5_v10_apply, val_main_call5_v9_apply, val_main_call5_v8_apply,
    val_main_call5_v7_apply]
  simp only [val_main_call5_v6_apply, val_main_call5_cst_1_apply, hidx, v5_eq, Ideal.subf_def, Ideal.hostUnary_log_def,
    Ideal.hostUnary_exp_def, Ideal.ofBits_def, Ideal.ofBits_zero_f32]

variable (hL : ∀ i, (L i).toNat < 100000)

include hL in
/-- The start index of row `r`: its label, unchanged by the wrap of negative indices. -/
theorem start_eq (r : Fin 512) : val_main_call6_v5 (F := Ideal) L (ix3 r (0 : Fin 1) (0 : Fin 1)) = labOf L r := by
  have hlt : (labOf L r).toNat < 100000 := hL _
  have h36 : idx_main_v36 (idx_main_call6_v5 (ix3 r (0 : Fin 1) (0 : Fin 1))) = ix1 r :=
    funext fun a => Fin.ext (by
      match a with
      | ⟨0, _⟩ => show ((r.val * 1 + 0) * 1 + 0) / 1 = r.val; omega)
  rw [val_main_call6_v5_apply, val_main_call6_v4_apply, val_main_call6_v1_apply, val_main_v36_apply, h36, lab_eq,
    val_main_call6_v0_apply, val_main_call6_c_apply]
  have hn : ¬ IntOp.cmpi .slt (labOf L r) 0#32 = 1#1 := fun e => by
    have := (slt_iff_toNat (a := labOf L r) (b := 0#32) (by omega) (by decide)).mp e
    simp at this
  rw [eq_zero_of_ne_one hn]
  exact select_zero _ _

include hL in
/-- The bounds test holds at every row. -/
theorem inb_eq (r : Fin 512) : val_main_call6_v12 (F := Ideal) L (ix2 r (0 : Fin 1)) = 1#1 := by
  have hlt : (labOf L r).toNat < 100000 := hL _
  unfold val_main_call6_v12
  rw [reduce_and_unit_apply, val_main_call6_c_3_apply, val_main_call6_v11_apply, val_main_call6_v7_apply,
    val_main_call6_v10_apply, start_eq L hL, val_main_call6_v6_apply, val_main_call6_c_2_apply, val_main_call6_v9_apply,
    val_main_call6_v8_apply, val_main_call6_c_1_apply]
  rw [(sge_iff_toNat (a := labOf L r) (b := 0#32) (by omega) (by decide)).mpr (Nat.zero_le _),
    (sle_iff_toNat (a := labOf L r) (b := 99999#32) (by omega) (by decide)).mpr (by
      show (labOf L r).toNat ≤ 99999; omega)]
  rfl

include hL in
/-- The gathered value: the log-softmax at the label's column. -/
theorem v37_eq (r : Fin 512) :
    val_main_v37 (F := Ideal) A B W L (ix2 r (0 : Fin 1)) = val_main_v35 (F := Ideal) A B W L (ix2 r (labCol L hL r)) := by
  have hlt : (labOf L r).toNat < 100000 := hL _
  rw [val_main_v37_apply, inb_eq L hL, select_one]
  unfold val_main_call6_v13
  rw [gather_along_apply]
  refine congrArg (val_main_v35 (F := Ideal) A B W L) ?_
  funext a
  refine Fin.ext ?_
  match a with
  | ⟨0, _⟩ => rfl
  | ⟨1, _⟩ =>
    show min (val_main_call6_v5 (F := Ideal) L (ix3 r (0 : Fin 1) (0 : Fin 1))).toInt.toNat 99999 = (labOf L r).toNat
    rw [start_eq L hL, toInt_eq_toNat_of_lt (by omega), Int.toNat_natCast]
    omega

end Stages

/-- With labels in range the reference's scalar result is the mean direct loss. -/
theorem ref_loss (A B : FVec Ideal S256x512 .f32) (W : FVec Ideal S100000x512 .f32) (L : IVec S256 32)
    (hL : ∀ i, (L i).toNat < 100000) (i : S_.Idx) :
    Cert.ReferenceIdeal.ReadP.val_main_v41 (F := Ideal) A B W L i = lossDirect A B W L hL := by
  rw [val_main_v41_apply, val_main_v40_apply, val_main_cst_8_apply, val_main_cst_7_apply]
  simp only [Ideal.hostDivf_def, Ideal.ofBits_def, Ideal.ofBits_zero_f32]
  unfold lossDirect
  refine congrArg (fun s => Ideal.div (0 + s) _) ?_
  rw [← Equiv.sum_comp (idxEquiv1 (n := 512)).symm]
  refine Finset.sum_congr rfl fun r _ => ?_
  show val_main_v39 (F := Ideal) A B W L (ix1 r) = _
  have h38 : idx_main_v38 (ix1 r) = ix2 r (0 : Fin 1) :=
    funext fun a => Fin.ext (by
      match a with
      | ⟨0, _⟩ => show r.val / 1 = r.val; omega
      | ⟨1, _⟩ => rfl)
  rw [val_main_v39_apply, val_main_v38_apply, h38, v37_eq A B W L hL, v35_eq]
  rfl

end Cert.ReferenceIdeal.RefValue

end
-- ==== Proof.RefRunValue.lean ====
/-
  The reference program's run, read back in four stretches.

  The hundred host operations are cut where few values are live: after the cosines (operation 19), after the scaled
  logits (operation 56), after the log-softmax (operation 71).  Each stretch's result is the corresponding stage of
  the one-operation-at-a-time reading, given the stages it starts from; composed, the run ends with the scalar result
  at the last stage, the arguments unchanged.
-/
import proofs.«420439_j14474039788117_3_alg».proof.Proof.RefRead
import Idealize.ShloMosaic.Lib.StableHlo.Run
import Idealize.ShloMosaic.Lib.Pipeline.Frame

set_option maxRecDepth 16384

noncomputable section

namespace Cert.ReferenceIdeal.RefRunValue

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

section stretches
variable (V : Valuation τ sig (Elt F))

/-- After the first stretch the cosines are at their stage. -/
theorem stretch1_cos :
    after ops1 V (Proc.devRef .tc main_v10)
      = val_main_v10 (F := F) (V (Proc.devRef .tc main_arg0)) (V (Proc.devRef .tc main_arg1)) (V (Proc.devRef .tc main_arg2)) := by
  after_results_simp <;> rfl

/-- After the first stretch the tiled labels are at their stage. -/
theorem stretch1_lab :
    after ops1 V (Proc.devRef .tc main_v3) = val_main_v3 (F := F) (V (Proc.devRef .tc main_arg3)) := by
  after_results_simp <;> rfl

/-- The second stretch takes the cosines and the tiled labels to the scaled logits. -/
theorem stretch2_logits (x0 x1 : (⟨S256x512, .f32⟩ : BufTy).Contents (Elt F)) (x2 : (⟨S100000x512, .f32⟩ : BufTy).Contents (Elt F)) (x3 : (⟨S256, .i32⟩ : BufTy).Contents (Elt F))
    (h10 : V (Proc.devRef .tc main_v10) = val_main_v10 (F := F) x0 x1 x2)
    (h3 : V (Proc.devRef .tc main_v3) = val_main_v3 (F := F) x3) :
    after ops2 V (Proc.devRef .tc main_v34) = val_main_v34 (F := F) x0 x1 x2 x3 := by
  after_results_simp
  rw [h10, h3]
  rfl

/-- The second stretch leaves the tiled labels alone. -/
theorem stretch2_lab : after ops2 V (Proc.devRef .tc main_v3) = V (Proc.devRef .tc main_v3) := by
  after_results_simp

/-- Read at its value's type and written back at its buffer's, a value is itself. -/
theorem ofBuf_toBuf {T : BufTy} (x : TRef sig T) (v : T.Contents (Elt F)) : x.ofBuf (x.toBuf v) = v := by
  obtain ⟨r, rfl, _, _⟩ := x
  rfl

/-- The scaled logits' buffer read at its value's type. -/
theorem ofBuf_main_v34 (z : (main_v34 : Ref sig .tc).ty.Contents (Elt F)) :
    (TRef.of (T := ⟨S512x100000, .f32⟩) main_v34).ofBuf z = z := rfl

/-- The log-softmax's buffer read at its value's type. -/
theorem ofBuf_main_v35 (z : (main_v35 : Ref sig .tc).ty.Contents (Elt F)) :
    (TRef.of (T := ⟨S512x100000, .f32⟩) main_v35).ofBuf z = z := rfl

/-- The third stretch takes the scaled logits to their log-softmax.  Every operation of this stretch belongs to the
    inlined log-softmax and works through typed references: the reading is done at the values' types, where each
    write-then-read pair cancels, and the two ends are converted at a free variable. -/
theorem stretch3_lsm (x0 x1 : (⟨S256x512, .f32⟩ : BufTy).Contents (Elt F)) (x2 : (⟨S100000x512, .f32⟩ : BufTy).Contents (Elt F)) (x3 : (⟨S256, .i32⟩ : BufTy).Contents (Elt F))
    (h34 : V (Proc.devRef .tc main_v34) = val_main_v34 (F := F) x0 x1 x2 x3) :
    after ops3 V (Proc.devRef .tc main_v35) = val_main_v35 (F := F) x0 x1 x2 x3 := by
  have hin : (TRef.of (T := ⟨S512x100000, .f32⟩) main_v34).ofBuf (V (Proc.devRef .tc main_v34))
      = val_main_v34 (F := F) x0 x1 x2 x3 := (ofBuf_main_v34 _).trans h34
  have hout : (TRef.of (T := ⟨S512x100000, .f32⟩) main_v35).ofBuf (after ops3 V (Proc.devRef .tc main_v35))
      = val_main_v35 (F := F) x0 x1 x2 x3 := by
    after_results_simp
    simp only [ofBuf_toBuf]
    rw [hin]
    rfl
  exact (ofBuf_main_v35 _).symm.trans hout

/-- The third stretch leaves the tiled labels alone. -/
theorem stretch3_lab : after ops3 V (Proc.devRef .tc main_v3) = V (Proc.devRef .tc main_v3) := by
  after_results_simp

/-- The fourth stretch takes the log-softmax and the tiled labels to the mean loss. -/
theorem stretch4_loss (x0 x1 : (⟨S256x512, .f32⟩ : BufTy).Contents (Elt F)) (x2 : (⟨S100000x512, .f32⟩ : BufTy).Contents (Elt F)) (x3 : (⟨S256, .i32⟩ : BufTy).Contents (Elt F))
    (h35 : V (Proc.devRef .tc main_v35) = val_main_v35 (F := F) x0 x1 x2 x3)
    (h3 : V (Proc.devRef .tc main_v3) = val_main_v3 (F := F) x3) :
    after ops4 V (Proc.devRef .tc main_v41) = val_main_v41 (F := F) x0 x1 x2 x3 := by
  after_results_simp
  rw [h35, h3]
  rfl

end stretches

/-- The whole run's result, from any contents: the last stage of the reading of the arguments. -/
theorem after_ops_v41 (V : Valuation τ sig (Elt F)) :
    after ops V (Proc.devRef .tc main_v41)
      = val_main_v41 (F := F) (V (Proc.devRef .tc main_arg0)) (V (Proc.devRef .tc main_arg1))
          (V (Proc.devRef .tc main_arg2)) (V (Proc.devRef .tc main_arg3)) := by
  rw [ops_split, after_append, after_append, after_append]
  exact stretch4_loss _ _ _ _ _
    (stretch3_lsm _ _ _ _ _ (stretch2_logits _ _ _ _ _ (stretch1_cos V) (stretch1_lab V)))
    ((stretch3_lab _).trans ((stretch2_lab _).trans (stretch1_lab V)))

/-- The whole run leaves the first argument alone. -/
theorem after_ops_arg0 (V : Valuation τ sig (Elt F)) :
    after ops V (Proc.devRef .tc main_arg0) = V (Proc.devRef .tc main_arg0) := by
  after_results_simp

/-- The whole run leaves the second argument alone. -/
theorem after_ops_arg1 (V : Valuation τ sig (Elt F)) :
    after ops V (Proc.devRef .tc main_arg1) = V (Proc.devRef .tc main_arg1) := by
  after_results_simp

/-- The whole run leaves the third argument alone. -/
theorem after_ops_arg2 (V : Valuation τ sig (Elt F)) :
    after ops V (Proc.devRef .tc main_arg2) = V (Proc.devRef .tc main_arg2) := by
  after_results_simp

/-- The whole run leaves the fourth argument alone. -/
theorem after_ops_arg3 (V : Valuation τ sig (Elt F)) :
    after ops V (Proc.devRef .tc main_arg3) = V (Proc.devRef .tc main_arg3) := by
  after_results_simp

set_option maxRecDepth 200000 in
set_option maxHeartbeats 40000000 in
/-- Every weakly fair execution terminates with each buffer at the fold of the hundred operations over the launch
    contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ

/-- On every device, from any memory with zero counters: every weakly fair execution of the reference terminates with the
    scalar result at the last stage of the one-operation-at-a-time reading of the arguments, and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v41) = val_main_v41 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  exact (θ_run defs _ _).mono (fun _ h c => ⟨(h c main_v41).trans (after_ops_v41 (F := Ideal) _),
      (h c main_arg0).trans (after_ops_arg0 _),
      (h c main_arg1).trans (after_ops_arg1 _),
      (h c main_arg2).trans (after_ops_arg2 _),
      (h c main_arg3).trans (after_ops_arg3 _)⟩)
    (run_after (F := Ideal) m ρ)

end Cert.ReferenceIdeal.RefRunValue

end
-- ==== Proof.PreFacts.lean ====
/-
  What the precondition says of the argument arrays: every float entry is a real number, every label lies in
  [0, 100000), and every embedding row and every class row has a positive sum of squares.

  The printed precondition is a conjunction of seven "for all entries" tests.  Each is a reduction by `and` of a mask of
  bits into a scalar, so when it is 1 every element of the reduced mask is 1; the mask's element is then read back: |x| < +∞ makes x a real,
  0 ≤ ℓ < 100000 signed makes ℓ < 100000 unsigned, and 0 < 0 + Σ_k x_k · x_k is the row's positive sum of squares.
-/
import proofs.«420439_j14474039788117_3_alg».proof.Pre_finite_inputs
import proofs.«420439_j14474039788117_3_alg».proof.Proof.Gen.Pre_finite_inputs
import proofs.«420439_j14474039788117_3_alg».proof.Proof.Spec
import Idealize.ShloMosaic.Lib.ReduceAll
import Idealize.ShloMosaic.Lib.StableHlo.Predicate
import Idealize.ShloMosaic.Lib.IdealHost

noncomputable section

namespace Cert.Arc

open Idealize.ShloMosaic

/-- The scalar shape has one index. -/
local instance : Subsingleton (⟨0, ![]⟩ : Shape).Idx := ⟨fun _ _ => funext fun d => d.elim0⟩

/-- The pattern 0x7F800000 is +∞. -/
private theorem ofBits_inf_f32 : Ideal.ofBits .f32 0x7F800000#32 = ⊤ := by simp [Ideal.ofBits, Ideal.ieee]

/-- An extended real whose absolute value max(x, −x) is below +∞ is a real number: at −∞ and at +∞ the maximum is +∞. -/
private theorem real_of_abs_lt_inf (x : EReal)
    (h : Ideal.cmp .olt (max x (-x)) (Ideal.ofBits .f32 0x7F800000#32) = 1#1) : ∃ a : ℝ, x = (a : EReal) := by
  rw [ofBits_inf_f32] at h
  induction x using EReal.rec with
  | bot => exact absurd h (by simp [Ideal.cmp])
  | coe a => exact ⟨a, rfl⟩
  | top => exact absurd h (by simp [Ideal.cmp])

/-- A word that is at least 0 and below 100000 read signed is below 100000 read unsigned: a word that is not negative
    reads the same both ways. -/
private theorem toNat_lt_of_signed (w : BitVec 32) (h0 : IntOp.cmpi .sge w 0#32 = 1#1)
    (h1 : IntOp.cmpi .slt w 100000#32 = 1#1) : w.toNat < 100000 := by
  rw [IntOp.cmpi_sge] at h0
  rw [IntOp.cmpi_slt] at h1
  have z : (0#32 : BitVec 32).toInt = 0 := by decide
  have c : (100000#32 : BitVec 32).toInt = 100000 := by decide
  rw [z] at h0
  rw [c] at h1
  have hw : 2 * w.toNat < 2 ^ 32 := BitVec.toInt_pos_iff.1 h0
  rw [BitVec.toInt_eq_toNat_of_lt hw] at h1
  omega

/-- `all(|X| < inf)`: every entry of `X` is a real number. -/
private theorem real_of_all {s : Shape} {axes : List (Fin s.rank)} (X : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi
      (cmpf .olt (Host.absf X) (broadcastInDim s ![] hb (constant ⟨0, ![]⟩ .f32 0x7F800000#32)))
      (constantI ⟨0, ![]⟩ 1 1#1) hr hu ValueIdx.ix0 = 1#1) (i : s.Idx) : ∃ a : ℝ, X i = (a : EReal) := by
  have h1 := Host.reduce_andi_all _ _ hr hu _ e i
  rw [ValueIdx.cmpf_apply, ValueIdx.broadcastInDim_scalar_apply] at h1
  exact real_of_abs_lt_inf (X i) h1

/-- `all((L >= 0) & (L < 100000))`: every label, read unsigned, is below 100000. -/
private theorem label_of_all {s : Shape} {axes : List (Fin s.rank)} (L : IVec s 32)
    (hb : (⟨0, ![]⟩ : Shape).BroadcastsInDim s ![]) (hr : s.ReducesTo axes ⟨0, ![]⟩) (hu : 0 < (⟨0, ![]⟩ : Shape).numel)
    (e : Host.reduce IntOp.andi
      (andi (cmpi .sge L (broadcastInDim s ![] hb (constantI ⟨0, ![]⟩ 32 0#32)))
        (cmpi .slt L (broadcastInDim s ![] hb (constantI ⟨0, ![]⟩ 32 100000#32))))
      (constantI ⟨0, ![]⟩ 1 1#1) hr hu ValueIdx.ix0 = 1#1) (i : s.Idx) : (L i).toNat < 100000 := by
  have h1 := Host.reduce_andi_all _ _ hr hu _ e i
  obtain ⟨h0, h2⟩ := IntOp.andi_eq_one.1 h1
  exact toNat_lt_of_signed (L i) h0 h2

/-- `all(sum(X * X, axis=1) > 0)` over an array of rows of 512: every row's sum of squares, started from zero, is
    positive.  The reduction over axis 1 at row `r` is the initial zero plus the sum over the 512 columns `k` of the
    entry at the index with `k` inserted on axis 1, which is the index (r, k). -/
private theorem rowsum_of_all {n : Nat} (X : FVec Ideal ⟨2, ![n, 512]⟩ .f32)
    (hb : (⟨0, ![]⟩ : Shape).BroadcastsInDim ⟨1, ![n]⟩ ![])
    (hr1 : (⟨2, ![n, 512]⟩ : Shape).ReducesTo [1] ⟨1, ![n]⟩) (hr0 : (⟨1, ![n]⟩ : Shape).ReducesTo [0] ⟨0, ![]⟩)
    (hu : 0 < (⟨0, ![]⟩ : Shape).numel)
    (e : Host.reduce IntOp.andi
      (cmpf .ogt (Host.reduceAdd (mulf X X) (constant ⟨0, ![]⟩ .f32 0x00000000#32) hr1 hu)
        (broadcastInDim ⟨1, ![n]⟩ ![] hb (constant ⟨0, ![]⟩ .f32 0x00000000#32)))
      (constantI ⟨0, ![]⟩ 1 1#1) hr0 hu ValueIdx.ix0 = 1#1) (r : Fin n) :
    0 < 0 + ∑ k : Fin 512, X (ValueIdx.ix2 r k) * X (ValueIdx.ix2 r k) := by
  have h1 := Host.reduce_andi_all _ _ hr0 hu _ e (ValueIdx.ix1 r)
  rw [ValueIdx.cmpf_apply, ValueIdx.broadcastInDim_scalar_apply, ValueIdx.hostReduceAdd_apply] at h1
  have hR : (⟨2, ![n, 512]⟩ : Shape).Reduces [1] ⟨1, ![n]⟩ := ⟨hr1.1, Nat.one_pos, hr1.2⟩
  rw [Ideal.hostReduceAdd_single hr1 hR] at h1
  have hl : ∀ k : Fin 512, hR.lift (ValueIdx.ix1 r) k = ValueIdx.ix2 r k := fun k => by
    funext c
    apply Fin.ext
    match c with
    | ⟨0, _⟩ => rfl
    | ⟨1, _⟩ => rfl
  have h2 : Ideal.cmp .ogt (Ideal.ofBits .f32 0x00000000#32 + ∑ k : Fin 512, mulf X X (hR.lift (ValueIdx.ix1 r) k))
      (Ideal.ofBits .f32 0x00000000#32) = 1#1 := h1
  rw [Ideal.ofBits_zero_f32] at h2
  simp only [Ideal.cmp, StableHlo.Predicate.ofBool_eq_one_iff, decide_eq_true_eq] at h2
  have hs : ∑ k : Fin 512, mulf X X (hR.lift (ValueIdx.ix1 r) k)
      = ∑ k : Fin 512, X (ValueIdx.ix2 r k) * X (ValueIdx.ix2 r k) :=
    Finset.sum_congr rfl fun k _ => by rw [hl k]; rfl
  rw [← hs]
  exact h2

variable [Cert.Pre_finite_inputs.Facts]

/-- The printed precondition, all ones, gives finiteness, the label range and positive row norms. -/
theorem pre_facts (A B : FVec Ideal Cert.Pre_finite_inputs.S256x512 .f32) (W : FVec Ideal Cert.Pre_finite_inputs.S100000x512 .f32)
    (L : IVec Cert.Pre_finite_inputs.S256 32)
    (h : Cert.Pre_finite_inputs.fn (F := Ideal) A B W L = fun _ => 1#1) :
    (∀ i, ∃ a : ℝ, A i = (a : EReal)) ∧ (∀ i, ∃ a : ℝ, B i = (a : EReal)) ∧ (∀ i, ∃ a : ℝ, W i = (a : EReal))
      ∧ (∀ i, (L i).toNat < 100000)
      ∧ (∀ r, 0 < sumsq (embOf A B) r) ∧ (∀ c, 0 < sumsq (wOf W) c) := by
  have e := congrFun h ValueIdx.ix0
  dsimp only [Cert.Pre_finite_inputs.fn, Cert.Pre_finite_inputs.fn_part1, Cert.Pre_finite_inputs.fn_part2] at e
  -- the seven conjuncts, outermost first: W's rows, B's rows, A's rows, the labels, then the three finiteness masks
  obtain ⟨e, eW2⟩ := IntOp.andi_eq_one.1 e
  obtain ⟨e, eB2⟩ := IntOp.andi_eq_one.1 e
  obtain ⟨e, eA2⟩ := IntOp.andi_eq_one.1 e
  obtain ⟨e, eL⟩ := IntOp.andi_eq_one.1 e
  obtain ⟨e, eW⟩ := IntOp.andi_eq_one.1 e
  obtain ⟨eA, eB⟩ := IntOp.andi_eq_one.1 e
  refine ⟨real_of_all A _ _ _ eA, real_of_all B _ _ _ eB, real_of_all W _ _ _ eW, label_of_all L _ _ _ eL, ?_, ?_⟩
  · intro r
    unfold sumsq embOf
    by_cases hr : r.val < 256
    · simp only [dif_pos hr]
      exact rowsum_of_all A _ _ _ _ eA2 ⟨r.val, hr⟩
    · simp only [dif_neg hr]
      exact rowsum_of_all B _ _ _ _ eB2 ⟨r.val - 256, by omega⟩
  · intro c
    exact rowsum_of_all W _ _ _ _ eW2 c

end Cert.Arc

end
-- ==== Proof.lean ====
/-
  The certificate of the ArcFace loss kernel against its jnp reference.

  The three frames are the generated frame runs (the reference's is its generated run with the result dropped);
  the one ideal-pass entry is the change of format through bf16 and back, the identity on the extended reals.
  The equivalence: under the precondition (finite entries, labels in range, rows of positive norm) the kernel's
  scalar result — fifty tiles folded by the streaming softmax over two halves and merged on the host — and the
  reference's — the mean of minus the log-softmax at the label — are both the mean direct loss of the rows.
-/
import proofs.«420439_j14474039788117_3_alg».proof.Defs
import proofs.«420439_j14474039788117_3_alg».proof.Proof.Gen.Kernel
import proofs.«420439_j14474039788117_3_alg».proof.Proof.Gen.Kernel.Frame
import proofs.«420439_j14474039788117_3_alg».proof.Proof.Gen.KernelIdeal
import proofs.«420439_j14474039788117_3_alg».proof.Proof.Gen.KernelIdeal.Frame
import proofs.«420439_j14474039788117_3_alg».proof.Proof.Gen.ReferenceIdeal
import proofs.«420439_j14474039788117_3_alg».proof.Proof.Gen.Pre_finite_inputs
import proofs.«420439_j14474039788117_3_alg».proof.Proof.KerValue
import proofs.«420439_j14474039788117_3_alg».proof.Proof.RefValue
import proofs.«420439_j14474039788117_3_alg».proof.Proof.RefRunValue
import proofs.«420439_j14474039788117_3_alg».proof.Proof.PreFacts
import Idealize.ShloMosaic.Adequacy
import Idealize.ShloMosaic.Init

set_option maxRecDepth 16384

noncomputable section

namespace Cert.Proof

open Idealize.ShloMosaic Idealize.ShloMosaic.TcCoe Idealize.SL.Sem Cert.Arc

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefRunValue.ref_run m ρ)

/-- The ledger's one entry: narrowing the normalised weight tile to bf16 and widening it back is the identity on the extended reals. -/
theorem preserves : Cert.preserves_Kernel_KernelIdeal := IdealRules.truncf_extf.statement _ .f32 .bf16

open Cert.KernelIdeal Cert.KernelIdeal.Gen in
/-- Both programs end at the mean direct loss of the rows. -/
theorem algebraic : Cert.algebraic_KernelIdeal_ReferenceIdeal := by
  intro m ρ m' ρ' hpre hagree
  have hp := fun c => Cert.Arc.pre_facts _ _ _ _ (hpre c)
  refine ⟨fun c => fun _ => lossDirect (Blocks.argA m c) (Blocks.argB m c) (Blocks.argW m c) (Blocks.argL m c) (hp c).2.2.2.1, ?_, ?_⟩
  · refine (θ_run Cert.KernelIdeal.defs _ _).mono (fun _ h c => ⟨?_, ?_, ?_, ?_, ?_⟩) (Cert.KernelIdeal.Gen.run_main m ρ)
    · exact ((h c).2 main_v41 (Pipeline.mem_restRefs_of main_v41 (by decide) (by decide))).trans
        (KValue.kernel_value m c (hp c).1 (hp c).2.1 (hp c).2.2.1 (hp c).2.2.2.1 (hp c).2.2.2.2.1 (hp c).2.2.2.2.2)
    · exact ((h c).2 main_arg0 (Pipeline.mem_restRefs_of main_arg0 (by decide) (by decide))).trans (W_main_arg0 m (dats m) c)
    · exact ((h c).2 main_arg1 (Pipeline.mem_restRefs_of main_arg1 (by decide) (by decide))).trans (W_main_arg1 m (dats m) c)
    · exact ((h c).1 2).trans (((dats m 0 c).arrAt_in 2 rfl _).trans ((A_eq m c 2).trans (V_main_arg2 m c)))
    · exact ((h c).2 main_arg3 (Pipeline.mem_restRefs_of main_arg3 (by decide) (by decide))).trans (W_main_arg3 m (dats m) c)
  · refine (θ_run Cert.ReferenceIdeal.defs _ _).mono (fun _ h c => ⟨(h c).1.trans ?_, (h c).2⟩)
      (Cert.ReferenceIdeal.RefRunValue.ref_run m' ρ')
    rw [(hagree c).1, (hagree c).2.1, (hagree c).2.2.1, (hagree c).2.2.2]
    funext i
    exact Cert.ReferenceIdeal.RefValue.ref_loss _ _ _ _ (hp c).2.2.2.1 i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
